-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000 : Shape := ⟨1, ![300000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S300000 : S_.BroadcastsInDim S300000 (![] : Fin 0 → Fin S300000.rank)
  reducesTo_S300000_S_d0 : S300000.ReducesTo [0] S_

variable [Facts]

def fn_part1 {F : FTy → Type} [FloatOps F] (main_arg2 : IVec S300000 32) (main_arg5 : IVec S300000 32) (main_v13 : IVec S_ 1) (main_v15 : IVec S300000 1) (main_c_5 : IVec S_ 32) : IVec S_ 1 :=
  let main_v16 : IVec S300000 32 := broadcastInDim S300000 ![] bcast_S_S300000 main_c_5
  let main_v17 : IVec S300000 1 := cmpi .slt main_arg2 main_v16
  let main_v18 : IVec S300000 1 := andi main_v15 main_v17
  let main_c_6 : IVec S_ 1 := constantI S_ 1 1#1
  let main_v19 : IVec S_ 1 := (fun x v => Host.reduce IntOp.andi x v reducesTo_S300000_S_d0 h_S_) main_v18 main_c_6
  let main_v20 : IVec S_ 1 := andi main_v13 main_v19
  let main_c_7 : IVec S_ 32 := constantI S_ 32 0#32
  let main_v21 : IVec S300000 32 := broadcastInDim S300000 ![] bcast_S_S300000 main_c_7
  let main_v22 : IVec S300000 1 := cmpi .sge main_arg5 main_v21
  let main_c_8 : IVec S_ 32 := constantI S_ 32 20000#32
  let main_v23 : IVec S300000 32 := broadcastInDim S300000 ![] bcast_S_S300000 main_c_8
  let main_v24 : IVec S300000 1 := cmpi .slt main_arg5 main_v23
  let main_v25 : IVec S300000 1 := andi main_v22 main_v24
  let main_c_9 : IVec S_ 1 := constantI S_ 1 1#1
  let main_v26 : IVec S_ 1 := (fun x v => Host.reduce IntOp.andi x v reducesTo_S300000_S_d0 h_S_) main_v25 main_c_9
  let main_v27 : IVec S_ 1 := andi main_v20 main_v26
  main_v27

def fn {F : FTy → Type} [FloatOps F] (main_arg0 : FVec F S100000x256 .f32) (main_arg1 : IVec S300000 32) (main_arg2 : IVec S300000 32) (main_arg3 : FVec F S300000 .f32) (main_arg4 : IVec S300000 32) (main_arg5 : IVec S300000 32) (main_arg6 : FVec F S300000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S300000 .f32 := Host.absf main_arg3
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S300000 .f32 := Host.absf main_arg6
  let main_cst_2 : FVec F S_ .f32 := constant S_ .f32 0x7F800000#32
  let main_v10 : FVec F S300000 .f32 := broadcastInDim S300000 ![] bcast_S_S300000 main_cst_2
  let main_v11 : IVec S300000 1 := cmpf .olt main_v9 main_v10
  let main_c_3 : IVec S_ 1 := constantI S_ 1 1#1
  let main_v12 : IVec S_ 1 := (fun x v => Host.reduce IntOp.andi x v reducesTo_S300000_S_d0 h_S_) main_v11 main_c_3
  let main_v13 : IVec S_ 1 := andi main_v8 main_v12
  let main_c_4 : IVec S_ 32 := constantI S_ 32 0#32
  let main_v14 : IVec S300000 32 := broadcastInDim S300000 ![] bcast_S_S300000 main_c_4
  let main_v15 : IVec S300000 1 := cmpi .sge main_arg2 main_v14
  let main_c_5 : IVec S_ 32 := constantI S_ 32 100000#32
  fn_part1 (F := F) main_arg2 main_arg5 main_v13 main_v15 main_c_5
-- ==== Kernel.lean ====
abbrev S100000x256 : Shape := ⟨2, ![100000, 256]⟩
abbrev S300000 : Shape := ⟨1, ![300000]⟩
abbrev S_ : Shape := ⟨0, ![]⟩
abbrev S300032 : Shape := ⟨1, ![300032]⟩
abbrev S1x300032 : Shape := ⟨2, ![1, 300032]⟩
abbrev S100352x256 : Shape := ⟨2, ![100352, 256]⟩
abbrev S300032x256 : Shape := ⟨2, ![300032, 256]⟩
abbrev S1x1024 : Shape := ⟨2, ![1, 1024]⟩
abbrev S1024x256 : Shape := ⟨2, ![1024, 256]⟩
abbrev S1024 : Shape := ⟨1, ![1024]⟩
abbrev S1024x1024 : Shape := ⟨2, ![1024, 1024]⟩
abbrev S1024x1 : Shape := ⟨2, ![1024, 1]⟩
abbrev S20480x256 : Shape := ⟨2, ![20480, 256]⟩
abbrev S20000x256 : Shape := ⟨2, ![20000, 256]⟩

abbrev nBuf : Space → Nat
  | .hbm => 45
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S300000, .i32⟩
  | .hbm, ⟨2, _⟩ => ⟨S300000, .i32⟩
  | .hbm, ⟨3, _⟩ => ⟨S300000, .f32⟩
  | .hbm, ⟨4, _⟩ => ⟨S300000, .i32⟩
  | .hbm, ⟨5, _⟩ => ⟨S300000, .i32⟩
  | .hbm, ⟨6, _⟩ => ⟨S300000, .f32⟩
  | .hbm, ⟨7, _⟩ => ⟨S_, .i32⟩
  | .hbm, ⟨8, _⟩ => ⟨S_, .i32⟩
  | .hbm, ⟨9, _⟩ => ⟨S300032, .i32⟩
  | .hbm, ⟨10, _⟩ => ⟨S1x300032, .i32⟩
  | .hbm, ⟨11, _⟩ => ⟨S_, .f32⟩
  | .hbm, ⟨12, _⟩ => ⟨S_, .f32⟩
  | .hbm, ⟨13, _⟩ => ⟨S300032, .f32⟩
  | .hbm, ⟨14, _⟩ => ⟨S1x300032, .f32⟩
  | .hbm, ⟨15, _⟩ => ⟨S_, .i32⟩
  | .hbm, ⟨16, _⟩ => ⟨S_, .i32⟩
  | .hbm, ⟨17, _⟩ => ⟨S300032, .i32⟩
  | .hbm, ⟨18, _⟩ => ⟨S1x300032, .i32⟩
  | .hbm, ⟨19, _⟩ => ⟨S_, .f32⟩
  | .hbm, ⟨20, _⟩ => ⟨S_, .f32⟩
  | .hbm, ⟨21, _⟩ => ⟨S100352x256, .f32⟩
  | .hbm, ⟨22, _⟩ => ⟨S100352x256, .bf16⟩
  | .hbm, ⟨23, _⟩ => ⟨S300032x256, .f32⟩
  | .hbm, ⟨24, _⟩ => ⟨S20480x256, .f32⟩
  | .hbm, ⟨25, _⟩ => ⟨S20000x256, .f32⟩
  | .hbm, ⟨26, _⟩ => ⟨S_, .i32⟩
  | .hbm, ⟨27, _⟩ => ⟨S_, .i32⟩
  | .hbm, ⟨28, _⟩ => ⟨S300032, .i32⟩
  | .hbm, ⟨29, _⟩ => ⟨S1x300032, .i32⟩
  | .hbm, ⟨30, _⟩ => ⟨S_, .f32⟩
  | .hbm, ⟨31, _⟩ => ⟨S_, .f32⟩
  | .hbm, ⟨32, _⟩ => ⟨S300032, .f32⟩
  | .hbm, ⟨33, _⟩ => ⟨S1x300032, .f32⟩
  | .hbm, ⟨34, _⟩ => ⟨S_, .i32⟩
  | .hbm, ⟨35, _⟩ => ⟨S_, .i32⟩
  | .hbm, ⟨36, _⟩ => ⟨S300032, .i32⟩
  | .hbm, ⟨37, _⟩ => ⟨S1x300032, .i32⟩
  | .hbm, ⟨38, _⟩ => ⟨S_, .f32⟩
  | .hbm, ⟨39, _⟩ => ⟨S_, .f32⟩
  | .hbm, ⟨40, _⟩ => ⟨S20480x256, .f32⟩
  | .hbm, ⟨41, _⟩ => ⟨S20480x256, .bf16⟩
  | .hbm, ⟨42, _⟩ => ⟨S300032x256, .f32⟩
  | .hbm, ⟨43, _⟩ => ⟨S100352x256, .f32⟩
  | .hbm, ⟨44, _⟩ => ⟨S100000x256, .f32⟩
  | .local _ .vmem, ⟨0, _⟩ => ⟨S1x1024, .i32⟩
  | .local _ .vmem, ⟨1, _⟩ => ⟨S1x1024, .i32⟩
  | .local _ .vmem, ⟨2, _⟩ => ⟨S1x1024, .f32⟩
  | .local _ .vmem, ⟨3, _⟩ => ⟨S1x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1x1024, .i32⟩
  | .local _ .vmem, ⟨10, _⟩ => ⟨S1x1024, .i32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1x1024, .i32⟩
  | .local _ .vmem, ⟨17, _⟩ => ⟨S1x1024, .i32⟩
  | .local _ .vmem, ⟨18, _⟩ => ⟨S1x1024, .f32⟩
  | .local _ .vmem, ⟨19, _⟩ => ⟨S1x1024, .f32⟩
  | .local _ .vmem, ⟨20, _⟩ => ⟨S1024x256, .bf16⟩
  | .local _ .vmem, ⟨21, _⟩ => ⟨S1024x256, .bf16⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1x1024, .i32⟩
  | .local _ .vmem, ⟨26, _⟩ => ⟨S1x1024, .i32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call4_v0 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call5_v0 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_call6_v0 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call7_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![293, 98], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![20, 293], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![293, 20], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![98, 293], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  pads_S300000_S300032_0320 : S300000.Pads (![0] : Fin 1 → Nat) ![32] ![0] S300032
  h_S_ : 0 < S_.numel
  shapeCasts_S300032_S1x300032 : S300032.ShapeCasts S1x300032
  pads_S100000x256_S100352x256_03520_000 : S100000x256.Pads (![0, 0] : Fin 2 → Nat) ![352, 0] ![0, 0] S100352x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  broadcasts_S1024x1_S1024x256 : S1024x1.Broadcasts S1024x256
  iota_S1024x1024_d0_w32 : S1024x1024.Iotas .tc 32 [0]
  shapeCasts_S1024_S1x1024 : S1024.ShapeCasts S1x1024
  broadcasts_S1x1024_S1024x1024 : S1x1024.Broadcasts S1024x1024
  slices_S20480x256_S20000x256_0_0 : S20480x256.Slices ![0, 0] S20000x256
  pads_S20000x256_S20480x256_04800_000 : S20000x256.Pads (![0, 0] : Fin 2 → Nat) ![480, 0] ![0, 0] S20480x256
  slices_S100352x256_S100000x256_0_0 : S100352x256.Slices ![0, 0] S100000x256
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x300032.size a
  hwx0_0 : ∀ i : grid0.Coords, EltTy.bits .i32 = 32 ∨ (Rect.block (s := S1x300032) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x300032.size a
  hwx0_1 : ∀ i : grid0.Coords, EltTy.bits .f32 = 32 ∨ (Rect.block (s := S1x300032) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S100352x256.size a
  hwx0_2 : ∀ i : grid0.Coords, EltTy.bits .bf16 = 32 ∨ (Rect.block (s := S100352x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S300032x256.size a
  hwx0_3 : ∀ i : grid0.Coords, EltTy.bits .f32 = 32 ∨ (Rect.block (s := S300032x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x300032.size a
  hwx1_0 : ∀ i : grid1.Coords, EltTy.bits .i32 = 32 ∨ (Rect.block (s := S1x300032) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S300032x256.size a
  hwx1_1 : ∀ i : grid1.Coords, EltTy.bits .f32 = 32 ∨ (Rect.block (s := S300032x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S20480x256.size a
  hwx1_2 : ∀ i : grid1.Coords, EltTy.bits .f32 = 32 ∨ (Rect.block (s := S20480x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x300032.size a
  hwx2_0 : ∀ i : grid2.Coords, EltTy.bits .i32 = 32 ∨ (Rect.block (s := S1x300032) S1x1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x300032.size a
  hwx2_1 : ∀ i : grid2.Coords, EltTy.bits .f32 = 32 ∨ (Rect.block (s := S1x300032) S1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S20480x256.size a
  hwx2_2 : ∀ i : grid2.Coords, EltTy.bits .bf16 = 32 ∨ (Rect.block (s := S20480x256) S1024x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S300032x256.size a
  hwx2_3 : ∀ i : grid2.Coords, EltTy.bits .f32 = 32 ∨ (Rect.block (s := S300032x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x300032.size a
  hwx3_0 : ∀ i : grid3.Coords, EltTy.bits .i32 = 32 ∨ (Rect.block (s := S1x300032) S1x1024.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S300032x256.size a
  hwx3_1 : ∀ i : grid3.Coords, EltTy.bits .f32 = 32 ∨ (Rect.block (s := S300032x256) S1024x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S100352x256.size a
  hwx3_2 : ∀ i : grid3.Coords, EltTy.bits .f32 = 32 ∨ (Rect.block (s := S100352x256) S1024x256.size (cc3_transform_2 i) (hinb3_2 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v1) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S1x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S1x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S300000 : Shape := ⟨1, ![300000]⟩
abbrev S300000x1 : Shape := ⟨2, ![300000, 1]⟩
abbrev S_ : Shape := ⟨0, ![]⟩
abbrev S300000x256 : Shape := ⟨2, ![300000, 256]⟩
abbrev S20000x256 : Shape := ⟨2, ![20000, 256]⟩

abbrev nBuf : Space → Nat
  | .hbm => 39
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S300000, .i32⟩
  | .hbm, ⟨2, _⟩ => ⟨S300000, .i32⟩
  | .hbm, ⟨3, _⟩ => ⟨S300000, .f32⟩
  | .hbm, ⟨4, _⟩ => ⟨S300000, .i32⟩
  | .hbm, ⟨5, _⟩ => ⟨S300000, .i32⟩
  | .hbm, ⟨6, _⟩ => ⟨S300000, .f32⟩
  | .hbm, ⟨7, _⟩ => ⟨S300000x1, .f32⟩
  | .hbm, ⟨8, _⟩ => ⟨S_, .i32⟩
  | .hbm, ⟨9, _⟩ => ⟨S300000, .i32⟩
  | .hbm, ⟨10, _⟩ => ⟨S300000, .i1⟩
  | .hbm, ⟨11, _⟩ => ⟨S_, .i32⟩
  | .hbm, ⟨12, _⟩ => ⟨S300000, .i32⟩
  | .hbm, ⟨13, _⟩ => ⟨S300000, .i32⟩
  | .hbm, ⟨14, _⟩ => ⟨S300000, .i32⟩
  | .hbm, ⟨15, _⟩ => ⟨S300000x1, .i32⟩
  | .hbm, ⟨16, _⟩ => ⟨S300000x256, .f32⟩
  | .hbm, ⟨17, _⟩ => ⟨S300000x256, .f32⟩
  | .hbm, ⟨18, _⟩ => ⟨S300000x256, .f32⟩
  | .hbm, ⟨19, _⟩ => ⟨S_, .f32⟩
  | .hbm, ⟨20, _⟩ => ⟨S20000x256, .f32⟩
  | .hbm, ⟨21, _⟩ => ⟨S300000x1, .i32⟩
  | .hbm, ⟨22, _⟩ => ⟨S20000x256, .f32⟩
  | .hbm, ⟨23, _⟩ => ⟨S300000x1, .f32⟩
  | .hbm, ⟨24, _⟩ => ⟨S_, .i32⟩
  | .hbm, ⟨25, _⟩ => ⟨S300000, .i32⟩
  | .hbm, ⟨26, _⟩ => ⟨S300000, .i1⟩
  | .hbm, ⟨27, _⟩ => ⟨S_, .i32⟩
  | .hbm, ⟨28, _⟩ => ⟨S300000, .i32⟩
  | .hbm, ⟨29, _⟩ => ⟨S300000, .i32⟩
  | .hbm, ⟨30, _⟩ => ⟨S300000, .i32⟩
  | .hbm, ⟨31, _⟩ => ⟨S300000x1, .i32⟩
  | .hbm, ⟨32, _⟩ => ⟨S300000x256, .f32⟩
  | .hbm, ⟨33, _⟩ => ⟨S300000x256, .f32⟩
  | .hbm, ⟨34, _⟩ => ⟨S300000x256, .f32⟩
  | .hbm, ⟨35, _⟩ => ⟨S_, .f32⟩
  | .hbm, ⟨36, _⟩ => ⟨S100000x256, .f32⟩
  | .hbm, ⟨37, _⟩ => ⟨S300000x1, .i32⟩
  | .hbm, ⟨38, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S20000x256 : S_.BroadcastsInDim S20000x256 (![] : Fin 0 → Fin S20000x256.rank)
  bcast_S_S100000x256 : S_.BroadcastsInDim S100000x256 (![] : Fin 0 → Fin S100000x256.rank)
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf

class Facts : Prop extends Facts₀ where

variable [Facts]
-- ==== Proof.K.Common.lean ====
/-
  Facts shared by the four pallas_calls' run proofs: every vector access of the two kernel bodies is of the whole
  1024 × 256 (or 1 × 1024) staging buffer, through the rectangle at offset zero of the buffer's own size, which holds
  every index; so a list of stores whose last is such a store covers the buffer.
-/
import proofs.«402914_j8864812499579_1_alg».proof.Proof.Gen.Kernel.Launch
import proofs.«402914_j8864812499579_1_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offset of every whole-buffer access of the bodies is zero on both axes. -/
theorem hz : (![0, 0] : Fin 2 → Nat) = fun _ => 0 := funext fun a => by fin_cases a <;> rfl

/-- The rectangle of the bodies' whole-block accesses. -/
abbrev rW : Rect S1024x256 := Rect.unit (s := S1024x256) ![0, 0] S1024x256.size inb_S1024x256_S1024x256_0_0

/-- A rectangle at offset zero of the buffer's own size holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last one is a whole-block store covers the block. -/
theorem coverW (p0 : S1024x256.Idx → Elt F .f32) (L : List (View.Piece (Elt F) S1024x256 .f32)) (y : S1024x256.Idx) :
    ∃ pc ∈ ((⟨rW, p0⟩ : View.Piece (Elt F) S1024x256 .f32) :: L), y ∈ pc.1.set :=
  ⟨_, List.mem_cons_self .., mem_unit_zero hz inb_S1024x256_S1024x256_0_0 y⟩

end Cert.Kernel.Frame

end
-- ==== Proof.K.Msg0.lean ====
/-
  Pallas_call 0 (the message stage of the first hop) as a pipeline over its grid of 293 × 98 points.
  The body, at grid point (nb, cb), loads the column words and weights of entries nb·1024 … nb·1024 + 1023 and block cb
  of the dense table, forms its payload (Skeleton's `k0_pay2`) over the scratch accumulator — zeroed first when cb = 0 —
  stores the sum back into the scratch and copies it into the output block.  So after point n the scratch and the
  output's staging buffer both hold the running sum `acc0`: the payload over zero at the first point of a run of 98
  points, over what the point before left elsewhere.  The pipeline's proof data state exactly that, the invariant
  carrying the scratch from point to point, and the body obligation is the body's run in the two cases.
-/
import proofs.«402914_j8864812499579_1_alg».proof.Proof.K.Common
import proofs.«402914_j8864812499579_1_alg».proof.Proof.Gen.Kernel.Launch
import proofs.«402914_j8864812499579_1_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The message kernel of pallas_call 0 on any whole staging memrefs -/

/-- The reset branch's condition, from the grid coordinates: the second coordinate is zero. -/
abbrev cond0 (i : grid0.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run0_B (c : Dev nD) (i : grid0.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : ¬cond0 i)
    (x2 : Vec F S1x1024 .i32) (x3 : Vec F S1x1024 .f32) (x4 : Vec F S1024x256 .bf16) (xs : Vec F S1024x256 .f32) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay2 i x2 x3 x4 xs) ∗ owns (c : Thread nD τ) arg6 fullShare (k0_pay2 i x2 x3 x4 xs)) -∗ K ⟨⟩))
      ⊢ wp frame (wpE (defs₀ (F := F)) Variants.none c none) E (cc0__message_kernel i arg2 harg2 arg3 harg3 arg4 harg4 arg5 harg5 arg6 harg6) K := by
  simp only [cc0__message_kernel_eq_skeleton]; unfold cc0__message_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H6
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run0_A (c : Dev nD) (i : grid0.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : cond0 i)
    (x2 : Vec F S1x1024 .i32) (x3 : Vec F S1x1024 .f32) (x4 : Vec F S1024x256 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (k0_pay2 i x2 x3 x4 (k0_pay1 (F := F))) ∗ owns (c : Thread nD τ) arg6 fullShare (k0_pay2 i x2 x3 x4 (k0_pay1 (F := F)))) -∗ K ⟨⟩))
      ⊢ wp frame (wpE (defs₀ (F := F)) Variants.none c none) E (cc0__message_kernel i arg2 harg2 arg3 harg3 arg4 harg4 arg5 harg5 arg6 harg6) K := by
  simp only [cc0__message_kernel_eq_skeleton]; unfold cc0__message_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H6
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 0 as a pipeline: blocks, the running sum, the proof data -/

/-- The second grid coordinate of a point is the point's number modulo the inner extent. -/
theorem coords0_1 (t : Fin cfg0.N) : ((grid0.coords t) 1).val = t.val % 98 := by
  show t.val / grid0.stride 1 % grid0.bound 1 = t.val % 98
  rw [show grid0.stride 1 = 1 from by decide, Nat.div_one]; rfl

/-- The reset condition holds exactly where the second coordinate is zero. -/
theorem cond0_iff (i : grid0.Coords) : cond0 i ↔ (i 1).val = 0 :=
  (by decide : ∀ k : Fin 98, ((Scalar.cmpi .ne (Scalar.extui (Scalar.cmpi .eq (BitVec.ofNat 32 k.val) 0#32)) 0#32) = 1#1) ↔ k.val = 0) (i 1)

/-- It holds at the first point of each run of 98 points. -/
theorem hcond0 (t : Fin cfg0.N) : cond0 (grid0.coords t) ↔ t.val % 98 = 0 := by
  rw [cond0_iff, coords0_1]

/-- The scratch accumulator: a whole scoped buffer of the kernel's own. -/
abbrev scM0 : Memref sig .tc .vmem S1024x256 .f32 := Memref.whole cc0_scratch0

/-- The class invariant with the scratch as a memref owned at some contents. -/
abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop((∃ d, owns (c : Thread nD τ) scM0 fullShare d)) ∗ restBut0 c) ∗ (∃ r, prngReg c r)) := by
  unfold Pipeline.ΦA; rw [Pipeline.scopedRest_split_of_list spec0 c [cc0_scratch0] (by decide) (by decide)]; simp only [scM0, owns_whole]; try rfl

section Region0
-- the TensorCore's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING SUM. What the scratch (and the output's staging buffer, which the body overwrites with it) holds after the
    body at point `n`: the payload of the point's three input blocks over zero at the first point of a run of 98, over
    what the point before left elsewhere. -/
def acc0 (c : Dev nD) : (n : ℕ) → n < cfg0.N → Vec F S1024x256 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn =>
    if (n + 1) % 98 = 0 then
      k0_pay2 (grid0.coords ⟨n + 1, hn⟩) (iblk0 V c 0 ⟨n + 1, hn⟩) (iblk0 V c 1 ⟨n + 1, hn⟩) (iblk0 V c 2 ⟨n + 1, hn⟩) (k0_pay1 (F := F))
    else
      k0_pay2 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn))

/-- The running sum at the first point of a run: over zero. -/
theorem acc0_first (c : Dev nD) (t : Fin cfg0.N) (h : t.val % 98 = 0) :
    acc0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => exact if_pos h

/-- The running sum elsewhere: over what the point before left. -/
theorem acc0_next (c : Dev nD) (t : Fin cfg0.N) (h : ¬t.val % 98 = 0) :
    acc0 V c t.val t.isLt = k0_pay2 (grid0.coords t) (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the class's (the scratch at anything); afterwards the scratch
    at the running sum the point before left, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restBut0 c) ∗ (∃ r, prngReg c r)) := by
  cases n with
  | zero => exact absurd rfl hz
  | succ n => rfl

/-- The proof data of pipeline 0 on core `c`: the arrays as the call finds them; after the body at point `t` each input's
    buffer at its block and the output's at the running sum; the invariant carrying the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) ((cfg0.win 0).stage (cfg0.slots t 0)) fullShare ((dat0 V c).before 0 t d))
    ∗ (∃ d, owns (c : Thread nD τ) ((cfg0.win 1).stage (cfg0.slots t 1)) fullShare ((dat0 V c).before 1 t d))
    ∗ (∃ d, owns (c : Thread nD τ) ((cfg0.win 2).stage (cfg0.slots t 2)) fullShare ((dat0 V c).before 2 t d))
    ∗ (∃ d, owns (c : Thread nD τ) ((cfg0.win 3).stage (cfg0.slots t 3)) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) ((cfg0.win 0).stage (cfg0.slots t 0)) fullShare ((dat0 V c).after 0 t)
    ∗ owns (c : Thread nD τ) ((cfg0.win 1).stage (cfg0.slots t 1)) fullShare ((dat0 V c).after 1 t)
    ∗ owns (c : Thread nD τ) ((cfg0.win 2).stage (cfg0.slots t 2)) fullShare ((dat0 V c).after 2 t)
    ∗ owns (c : Thread nD τ) ((cfg0.win 3).stage (cfg0.slots t 3)) fullShare ((dat0 V c).after 3 t))

set_option maxHeartbeats 4000000 in
/-- The body at any point: the inputs' memrefs hold their blocks; the invariant hands the body the scratch at what the
    point before left (at anything at the first point) and takes it back at this point's running sum. -/
theorem sound_body0 (c : Dev nD) (t : Fin cfg0.N) :
    bodyPre0 V c t ⊢ wp frame (wpE (defs₀ (F := F)) Variants.none c none) Set.univ
      (defs₀ (F := F) .tc cfg0.body (cfg0.bodyArgs t (cfg0.slots t))) (fun _ => bodyPost0 V c t) := by
  unfold bodyPre0 bodyPost0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  show _ ⊢ wp frame (wpE (defs₀ (F := F)) Variants.none c none) Set.univ
    (cc0__message_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)) _
  by_cases h0 : t.val % 98 = 0
  · rw [acc0_first V c t h0]
    by_cases hz : t.val = 0
    · rw [Phi0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (run0_A c (grid0.coords t) _ _ _ _ _ _ _ _ _ _ ((hcond0 t).mpr h0) (iblk0 V c 0 t) (iblk0 V c 1 t) (iblk0 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Phi0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (run0_A c (grid0.coords t) _ _ _ _ _ _ _ _ _ _ ((hcond0 t).mpr h0) (iblk0 V c 0 t) (iblk0 V c 1 t) (iblk0 V c 2 t) Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [acc0_next V c t h0]
    have hz : t.val ≠ 0 := fun e => h0 (by rw [e])
    rw [Phi0_castSucc V c t, PhiS0_pos V c _ _ hz]
    iintro ⟨⟨⟨HS, HR⟩, Hg⟩, Ho, ⟨%d0, H0⟩, ⟨%d1, H1⟩, ⟨%d2, H2⟩, ⟨%d3, H3⟩⟩
    iapply (run0_B c (grid0.coords t) _ _ _ _ _ _ _ _ _ _ (fun h => h0 ((hcond0 t).mp h)) (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 28714 := N_0; omega), PhiA0_eq]
  iintro ⟨⟨HS, HR⟩, Hg⟩
  isplitl [HS HR]
  · isplitl [HS]
    · iexists _; iexact HS
    iexact HR
  iexact Hg

end Region0

end Cert.Kernel.Frame

end
-- ==== Proof.K.Red1.lean ====
/-
  Pallas_call 1 (the reduce stage of the first hop) as a pipeline over its grid of 20 × 293 points.
  The body, at grid point (rb, nb), loads the row words of entries nb·1024 … nb·1024 + 1023 and the message block of
  the same entries, forms its payload (Skeleton's k1_pay2: the running block plus the one-hot block of the row words
  against rows rb·1024 … rb·1024 + 1023 times the message block) over the scratch accumulator — zeroed first when
  nb = 0 — stores the sum back into the scratch and copies it into the output block.  So after point n the scratch and
  the output's staging buffer both hold the running sum acc1: the payload over zero at the first point of a run of 293
  points, over what the point before left elsewhere.  The pipeline's proof data state exactly that, the invariant
  carrying the scratch from point to point, and the body obligation is the body's run in the two cases.
-/
import proofs.«402914_j8864812499579_1_alg».proof.Proof.K.Common
import proofs.«402914_j8864812499579_1_alg».proof.Proof.Gen.Kernel.Launch
import proofs.«402914_j8864812499579_1_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The reduce kernel of pallas_call 1 on any whole staging memrefs -/

/-- The reset branch's condition, from the grid coordinates: the second coordinate is zero. -/
abbrev cond1 (i : grid1.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run1_B (c : Dev nD) (i : grid1.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : ¬cond1 i)
    (x2 : Vec F S1x1024 .i32) (x3 : Vec F S1024x256 .f32) (xs : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ owns (c : Thread nD τ) arg5 fullShare xs
        ∗ (iprop(owns (c : Thread nD τ) arg2 fullShare x2 ∗ owns (c : Thread nD τ) arg3 fullShare x3
            ∗ owns (c : Thread nD τ) arg4 fullShare (k1_pay2 i x2 x3 xs) ∗ owns (c : Thread nD τ) arg5 fullShare (k1_pay2 i x2 x3 xs)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H5
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run1_A (c : Dev nD) (i : grid1.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : cond1 i)
    (x2 : Vec F S1x1024 .i32) (x3 : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg2 fullShare x2 ∗ owns (c : Thread nD τ) arg3 fullShare x3
            ∗ owns (c : Thread nD τ) arg4 fullShare (k1_pay2 i x2 x3 (k1_pay1 (F := F))) ∗ owns (c : Thread nD τ) arg5 fullShare (k1_pay2 i x2 x3 (k1_pay1 (F := F)))) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H5
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 1 as a pipeline: blocks, the running sum, the proof data -/

/-- The second grid coordinate of a point is the point's number modulo the inner extent. -/
theorem coords1_1 (t : Fin cfg1.N) : ((grid1.coords t) 1).val = t.val % 293 := by
  show t.val / grid1.stride 1 % grid1.bound 1 = t.val % 293
  rw [show grid1.stride 1 = 1 from by decide, Nat.div_one]; rfl

/-- The reset condition holds exactly where the second coordinate is zero. -/
theorem cond1_iff (i : grid1.Coords) : cond1 i ↔ (i 1).val = 0 :=
  (by decide : ∀ k : Fin 293, ((Scalar.cmpi .ne (Scalar.extui (Scalar.cmpi .eq (BitVec.ofNat 32 k.val) 0#32)) 0#32) = 1#1) ↔ k.val = 0) (i 1)

/-- It holds at the first point of each run of 293 points. -/
theorem hcond1 (t : Fin cfg1.N) : cond1 (grid1.coords t) ↔ t.val % 293 = 0 := by
  rw [cond1_iff, coords1_1]

/-- The scratch accumulator: a whole scoped buffer of the kernel's own. -/
abbrev scM1 : Memref sig .tc .vmem S1024x256 .f32 := Memref.whole cc1_scratch0

/-- The class invariant with the scratch as a memref owned at some contents. -/
abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1 fullShare d)) ∗ restBut1 c) ∗ (∃ r, prngReg c r)) := by
  unfold Pipeline.ΦA; rw [Pipeline.scopedRest_split_of_list spec1 c [cc1_scratch0] (by decide) (by decide)]; simp only [scM1, owns_whole]; try rfl

section Region1
-- the TensorCore's buffer contents when the call is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING SUM. What the scratch (and the output's staging buffer, which the body overwrites with it) holds after the
    body at point n: the payload of the point's row words and message block over zero at the first point of a run of
    293, over what the point before left elsewhere — the contributions to one block of 1024 rows of every chunk of
    entries met so far. -/
def acc1 (c : Dev nD) : (n : ℕ) → n < cfg1.N → Vec F S1024x256 .f32
  | 0, hn => k1_pay2 (grid1.coords ⟨0, hn⟩) (iblk1 V c 0 ⟨0, hn⟩) (iblk1 V c 1 ⟨0, hn⟩) (k1_pay1 (F := F))
  | n + 1, hn =>
    if (n + 1) % 293 = 0 then
      k1_pay2 (grid1.coords ⟨n + 1, hn⟩) (iblk1 V c 0 ⟨n + 1, hn⟩) (iblk1 V c 1 ⟨n + 1, hn⟩) (k1_pay1 (F := F))
    else
      k1_pay2 (grid1.coords ⟨n + 1, hn⟩) (iblk1 V c 0 ⟨n + 1, hn⟩) (iblk1 V c 1 ⟨n + 1, hn⟩) (acc1 c n (Nat.lt_of_succ_lt hn))

/-- The running sum at the first point of a run: over zero. -/
theorem acc1_first (c : Dev nD) (t : Fin cfg1.N) (h : t.val % 293 = 0) :
    acc1 V c t.val t.isLt = k1_pay2 (grid1.coords t) (iblk1 V c 0 t) (iblk1 V c 1 t) (k1_pay1 (F := F)) := by
  obtain ⟨n, hn⟩ := t
  cases n with
  | zero => rfl
  | succ n => exact if_pos h

/-- The running sum elsewhere: over what the point before left. -/
theorem acc1_next (c : Dev nD) (t : Fin cfg1.N) (h : ¬t.val % 293 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- The invariant before position n: before the first point the class's (the scratch at anything); afterwards the scratch
    at the running sum the point before left, and the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

/-- The proof data of pipeline 1 on core c: the arrays as the call finds them; after the body at point t each input's
    buffer at its block and the output's at the running sum; the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) :
    (dat1 V c).Φ t.castSucc = PhiS1 V c t.val (Nat.le_of_lt t.isLt) := by
  dsimp only [dat1]; simp only [Fin.coe_castSucc]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) ((cfg1.win 0).stage (cfg1.slots t 0)) fullShare ((dat1 V c).after 0 t)
    ∗ owns (c : Thread nD τ) ((cfg1.win 1).stage (cfg1.slots t 1)) fullShare ((dat1 V c).after 1 t)
    ∗ owns (c : Thread nD τ) ((cfg1.win 2).stage (cfg1.slots t 2)) fullShare ((dat1 V c).after 2 t))

set_option maxHeartbeats 4000000 in
/-- The body at any point: the inputs' memrefs hold their blocks; the invariant hands the body the scratch at what the
    point before left (at anything at the first point) and takes it back at this point's running sum. -/
theorem sound_body1 (c : Dev nD) (t : Fin cfg1.N) :
    bodyPre1 V c t ⊢ wp frame (wpE (defs₀ (F := F)) Variants.none c none) Set.univ
      (defs₀ (F := F) .tc cfg1.body (cfg1.bodyArgs t (cfg1.slots t))) (fun _ => bodyPost1 V c t) := by
  unfold bodyPre1 bodyPost1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  show _ ⊢ wp frame (wpE (defs₀ (F := F)) Variants.none c none) Set.univ
    (cc1__reduce_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)) _
  by_cases h0 : t.val % 293 = 0
  · rw [acc1_first V c t h0]
    by_cases hz : t.val = 0
    · rw [Phi1_castSucc V c t, PhiS1_zero V c _ _ hz, PhiA1_eq]
      iintro ⟨⟨⟨HS, HR⟩, Hg⟩, Ho, ⟨%d0, H0⟩, ⟨%d1, H1⟩, ⟨%d2, H2⟩⟩
      iapply (run1_A c (grid1.coords t) _ _ _ _ _ _ _ _ ((hcond1 t).mpr h0) (iblk1 V c 0 t) (iblk1 V c 1 t) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Phi1_castSucc V c t, PhiS1_pos V c _ _ hz]
      iintro ⟨⟨⟨HS, HR⟩, Hg⟩, Ho, ⟨%d0, H0⟩, ⟨%d1, H1⟩, ⟨%d2, H2⟩⟩
      iapply (run1_A c (grid1.coords t) _ _ _ _ _ _ _ _ ((hcond1 t).mpr h0) (iblk1 V c 0 t) (iblk1 V c 1 t) Set.univ _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · rw [acc1_next V c t h0]
    have hz : t.val ≠ 0 := fun e => h0 (by rw [e])
    rw [Phi1_castSucc V c t, PhiS1_pos V c _ _ hz]
    iintro ⟨⟨⟨HS, HR⟩, Hg⟩, Ho, ⟨%d0, H0⟩, ⟨%d1, H1⟩, ⟨%d2, H2⟩⟩
    iapply (run1_B c (grid1.coords t) _ _ _ _ _ _ _ _ (fun h => h0 ((hcond1 t).mp h)) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 5860 := N_1; omega), PhiA1_eq]
  iintro ⟨⟨HS, HR⟩, Hg⟩
  isplitl [HS HR]
  · isplitl [HS]
    · iexists _; iexact HS
    iexact HR
  iexact Hg

end Region1

end Cert.Kernel.Frame

end
-- ==== Proof.K.Msg2.lean ====
/-
  Pallas_call 2 (the message stage of the second hop) as a pipeline over its grid of 293 × 20 points.
  The body, at grid point (nb, cb), loads the column words and weights of entries nb·1024 … nb·1024 + 1023 and block cb
  of the dense table, forms its payload (Skeleton's `k2_pay2`) over the scratch accumulator — zeroed first when cb = 0 —
  stores the sum back into the scratch and copies it into the output block.  So after point n the scratch and the
  output's staging buffer both hold the running sum `acc2`: the payload over zero at the first point of a run of 20
  points, over what the point before left elsewhere.  The pipeline's proof data state exactly that, the invariant
  carrying the scratch from point to point, and the body obligation is the body's run in the two cases.
-/
import proofs.«402914_j8864812499579_1_alg».proof.Proof.K.Common
import proofs.«402914_j8864812499579_1_alg».proof.Proof.Gen.Kernel.Launch
import proofs.«402914_j8864812499579_1_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The message kernel of pallas_call 0 on any whole staging memrefs -/

/-- The reset branch's condition, from the grid coordinates: the second coordinate is zero. -/
abbrev cond2 (i : grid2.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run2_B (c : Dev nD) (i : grid2.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : ¬cond2 i)
    (x2 : Vec F S1x1024 .i32) (x3 : Vec F S1x1024 .f32) (x4 : Vec F S1024x256 .bf16) (xs : Vec F S1024x256 .f32) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k2_pay2 i x2 x3 x4 xs) ∗ owns (c : Thread nD τ) arg6 fullShare (k2_pay2 i x2 x3 x4 xs)) -∗ K ⟨⟩))
      ⊢ wp frame (wpE (defs₀ (F := F)) Variants.none c none) E (cc2__message_kernel i arg2 harg2 arg3 harg3 arg4 harg4 arg5 harg5 arg6 harg6) K := by
  simp only [cc2__message_kernel_eq_skeleton]; unfold cc2__message_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H6
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run2_A (c : Dev nD) (i : grid2.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : cond2 i)
    (x2 : Vec F S1x1024 .i32) (x3 : Vec F S1x1024 .f32) (x4 : Vec F S1024x256 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (k2_pay2 i x2 x3 x4 (k2_pay1 (F := F))) ∗ owns (c : Thread nD τ) arg6 fullShare (k2_pay2 i x2 x3 x4 (k2_pay1 (F := F)))) -∗ K ⟨⟩))
      ⊢ wp frame (wpE (defs₀ (F := F)) Variants.none c none) E (cc2__message_kernel i arg2 harg2 arg3 harg3 arg4 harg4 arg5 harg5 arg6 harg6) K := by
  simp only [cc2__message_kernel_eq_skeleton]; unfold cc2__message_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H6
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 0 as a pipeline: blocks, the running sum, the proof data -/

/-- The second grid coordinate of a point is the point's number modulo the inner extent. -/
theorem coords2_1 (t : Fin cfg2.N) : ((grid2.coords t) 1).val = t.val % 20 := by
  show t.val / grid2.stride 1 % grid2.bound 1 = t.val % 20
  rw [show grid2.stride 1 = 1 from by decide, Nat.div_one]; rfl

/-- The reset condition holds exactly where the second coordinate is zero. -/
theorem cond2_iff (i : grid2.Coords) : cond2 i ↔ (i 1).val = 0 :=
  (by decide : ∀ k : Fin 20, ((Scalar.cmpi .ne (Scalar.extui (Scalar.cmpi .eq (BitVec.ofNat 32 k.val) 0#32)) 0#32) = 1#1) ↔ k.val = 0) (i 1)

/-- It holds at the first point of each run of 20 points. -/
theorem hcond2 (t : Fin cfg2.N) : cond2 (grid2.coords t) ↔ t.val % 20 = 0 := by
  rw [cond2_iff, coords2_1]

/-- The scratch accumulator: a whole scoped buffer of the kernel's own. -/
abbrev scM2 : Memref sig .tc .vmem S1024x256 .f32 := Memref.whole cc2_scratch0

/-- The class invariant with the scratch as a memref owned at some contents. -/
abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2 fullShare d)) ∗ restBut2 c) ∗ (∃ r, prngReg c r)) := by
  unfold Pipeline.ΦA; rw [Pipeline.scopedRest_split_of_list spec2 c [cc2_scratch0] (by decide) (by decide)]; simp only [scM2, owns_whole]; try rfl

section Region2
-- the TensorCore's buffer contents when the call is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- THE RUNNING SUM. What the scratch (and the output's staging buffer, which the body overwrites with it) holds after the
    body at point `n`: the payload of the point's three input blocks over zero at the first point of a run of 20, over
    what the point before left elsewhere. -/
def acc2 (c : Dev nD) : (n : ℕ) → n < cfg2.N → Vec F S1024x256 .f32
  | 0, hn => k2_pay2 (grid2.coords ⟨0, hn⟩) (iblk2 V c 0 ⟨0, hn⟩) (iblk2 V c 1 ⟨0, hn⟩) (iblk2 V c 2 ⟨0, hn⟩) (k2_pay1 (F := F))
  | n + 1, hn =>
    if (n + 1) % 20 = 0 then
      k2_pay2 (grid2.coords ⟨n + 1, hn⟩) (iblk2 V c 0 ⟨n + 1, hn⟩) (iblk2 V c 1 ⟨n + 1, hn⟩) (iblk2 V c 2 ⟨n + 1, hn⟩) (k2_pay1 (F := F))
    else
      k2_pay2 (grid2.coords ⟨n + 1, hn⟩) (iblk2 V c 0 ⟨n + 1, hn⟩) (iblk2 V c 1 ⟨n + 1, hn⟩) (iblk2 V c 2 ⟨n + 1, hn⟩) (acc2 c n (Nat.lt_of_succ_lt hn))

/-- The running sum at the first point of a run: over zero. -/
theorem acc2_first (c : Dev nD) (t : Fin cfg2.N) (h : t.val % 20 = 0) :
    acc2 V c t.val t.isLt = k2_pay2 (grid2.coords t) (iblk2 V c 0 t) (iblk2 V c 1 t) (iblk2 V c 2 t) (k2_pay1 (F := F)) := by
  obtain ⟨n, hn⟩ := t
  cases n with
  | zero => rfl
  | succ n => exact if_pos h

/-- The running sum elsewhere: over what the point before left. -/
theorem acc2_next (c : Dev nD) (t : Fin cfg2.N) (h : ¬t.val % 20 = 0) :
    acc2 V c t.val t.isLt = k2_pay2 (grid2.coords t) (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the class's (the scratch at anything); afterwards the scratch
    at the running sum the point before left, and the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ restBut2 c) ∗ (∃ r, prngReg c r)) := by
  cases n with
  | zero => exact absurd rfl hz
  | succ n => rfl

/-- The proof data of pipeline 0 on core `c`: the arrays as the call finds them; after the body at point `t` each input's
    buffer at its block and the output's at the running sum; the invariant carrying the scratch; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = PhiS2 V c t.val (Nat.le_of_lt t.isLt) := by
  dsimp only [dat2]; simp only [Fin.coe_castSucc]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) ((cfg2.win 0).stage (cfg2.slots t 0)) fullShare ((dat2 V c).before 0 t d))
    ∗ (∃ d, owns (c : Thread nD τ) ((cfg2.win 1).stage (cfg2.slots t 1)) fullShare ((dat2 V c).before 1 t d))
    ∗ (∃ d, owns (c : Thread nD τ) ((cfg2.win 2).stage (cfg2.slots t 2)) fullShare ((dat2 V c).before 2 t d))
    ∗ (∃ d, owns (c : Thread nD τ) ((cfg2.win 3).stage (cfg2.slots t 3)) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) ((cfg2.win 0).stage (cfg2.slots t 0)) fullShare ((dat2 V c).after 0 t)
    ∗ owns (c : Thread nD τ) ((cfg2.win 1).stage (cfg2.slots t 1)) fullShare ((dat2 V c).after 1 t)
    ∗ owns (c : Thread nD τ) ((cfg2.win 2).stage (cfg2.slots t 2)) fullShare ((dat2 V c).after 2 t)
    ∗ owns (c : Thread nD τ) ((cfg2.win 3).stage (cfg2.slots t 3)) fullShare ((dat2 V c).after 3 t))

set_option maxHeartbeats 4000000 in
/-- The body at any point: the inputs' memrefs hold their blocks; the invariant hands the body the scratch at what the
    point before left (at anything at the first point) and takes it back at this point's running sum. -/
theorem sound_body2 (c : Dev nD) (t : Fin cfg2.N) :
    bodyPre2 V c t ⊢ wp frame (wpE (defs₀ (F := F)) Variants.none c none) Set.univ
      (defs₀ (F := F) .tc cfg2.body (cfg2.bodyArgs t (cfg2.slots t))) (fun _ => bodyPost2 V c t) := by
  unfold bodyPre2 bodyPost2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3]
  show _ ⊢ wp frame (wpE (defs₀ (F := F)) Variants.none c none) Set.univ
    (cc2__message_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)) _
  by_cases h0 : t.val % 20 = 0
  · rw [acc2_first V c t h0]
    by_cases hz : t.val = 0
    · rw [Phi2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c (grid2.coords t) _ _ _ _ _ _ _ _ _ _ ((hcond2 t).mpr h0) (iblk2 V c 0 t) (iblk2 V c 1 t) (iblk2 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Phi2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (run2_A c (grid2.coords t) _ _ _ _ _ _ _ _ _ _ ((hcond2 t).mpr h0) (iblk2 V c 0 t) (iblk2 V c 1 t) (iblk2 V c 2 t) Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [acc2_next V c t h0]
    have hz : t.val ≠ 0 := fun e => h0 (by rw [e])
    rw [Phi2_castSucc V c t, PhiS2_pos V c _ _ hz]
    iintro ⟨⟨⟨HS, HR⟩, Hg⟩, Ho, ⟨%d0, H0⟩, ⟨%d1, H1⟩, ⟨%d2, H2⟩, ⟨%d3, H3⟩⟩
    iapply (run2_B c (grid2.coords t) _ _ _ _ _ _ _ _ _ _ (fun h => h0 ((hcond2 t).mp h)) (iblk2 V c 0 t) (iblk2 V c 1 t) (iblk2 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5860 := N_2; omega), PhiA2_eq]
  iintro ⟨⟨HS, HR⟩, Hg⟩
  isplitl [HS HR]
  · isplitl [HS]
    · iexists _; iexact HS
    iexact HR
  iexact Hg

end Region2

end Cert.Kernel.Frame

end
-- ==== Proof.K.Red3.lean ====
/-
  Pallas_call 3 (the reduce stage of the second hop) as a pipeline over its grid of 98 × 293 points.
  The body, at grid point (rb, nb), loads the row words of entries nb·1024 … nb·1024 + 1023 and the message block of
  the same entries, forms its payload (Skeleton's k3_pay2: the running block plus the one-hot block of the row words
  against rows rb·1024 … rb·1024 + 1023 times the message block) over the scratch accumulator — zeroed first when
  nb = 0 — stores the sum back into the scratch and copies it into the output block.  So after point n the scratch and
  the output's staging buffer both hold the running sum acc3: the payload over zero at the first point of a run of 293
  points, over what the point before left elsewhere.  The pipeline's proof data state exactly that, the invariant
  carrying the scratch from point to point, and the body obligation is the body's run in the two cases.
-/
import proofs.«402914_j8864812499579_1_alg».proof.Proof.K.Common
import proofs.«402914_j8864812499579_1_alg».proof.Proof.Gen.Kernel.Launch
import proofs.«402914_j8864812499579_1_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The reduce kernel of pallas_call 3 on any whole staging memrefs -/

/-- The reset branch's condition, from the grid coordinates: the second coordinate is zero. -/
abbrev cond3 (i : grid3.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run3_B (c : Dev nD) (i : grid3.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : ¬cond3 i)
    (x2 : Vec F S1x1024 .i32) (x3 : Vec F S1024x256 .f32) (xs : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ owns (c : Thread nD τ) arg5 fullShare xs
        ∗ (iprop(owns (c : Thread nD τ) arg2 fullShare x2 ∗ owns (c : Thread nD τ) arg3 fullShare x3
            ∗ owns (c : Thread nD τ) arg4 fullShare (k3_pay2 i x2 x3 xs) ∗ owns (c : Thread nD τ) arg5 fullShare (k3_pay2 i x2 x3 xs)) -∗ K ⟨⟩))
      ⊢ wp frame (wpE (defs₀ (F := F)) Variants.none c none) E (cc3__reduce_kernel i arg2 harg2 arg3 harg3 arg4 harg4 arg5 harg5) K := by
  simp only [cc3__reduce_kernel_eq_skeleton]; unfold cc3__reduce_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H5
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run3_A (c : Dev nD) (i : grid3.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : cond3 i)
    (x2 : Vec F S1x1024 .i32) (x3 : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg2 fullShare x2 ∗ owns (c : Thread nD τ) arg3 fullShare x3
            ∗ owns (c : Thread nD τ) arg4 fullShare (k3_pay2 i x2 x3 (k3_pay1 (F := F))) ∗ owns (c : Thread nD τ) arg5 fullShare (k3_pay2 i x2 x3 (k3_pay1 (F := F)))) -∗ K ⟨⟩))
      ⊢ wp frame (wpE (defs₀ (F := F)) Variants.none c none) E (cc3__reduce_kernel i arg2 harg2 arg3 harg3 arg4 harg4 arg5 harg5) K := by
  simp only [cc3__reduce_kernel_eq_skeleton]; unfold cc3__reduce_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H5
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 3 as a pipeline: blocks, the running sum, the proof data -/

/-- The second grid coordinate of a point is the point's number modulo the inner extent. -/
theorem coords3_1 (t : Fin cfg3.N) : ((grid3.coords t) 1).val = t.val % 293 := by
  show t.val / grid3.stride 1 % grid3.bound 1 = t.val % 293
  rw [show grid3.stride 1 = 1 from by decide, Nat.div_one]; rfl

/-- The reset condition holds exactly where the second coordinate is zero. -/
theorem cond3_iff (i : grid3.Coords) : cond3 i ↔ (i 1).val = 0 :=
  (by decide : ∀ k : Fin 293, ((Scalar.cmpi .ne (Scalar.extui (Scalar.cmpi .eq (BitVec.ofNat 32 k.val) 0#32)) 0#32) = 1#1) ↔ k.val = 0) (i 1)

/-- It holds at the first point of each run of 293 points. -/
theorem hcond3 (t : Fin cfg3.N) : cond3 (grid3.coords t) ↔ t.val % 293 = 0 := by
  rw [cond3_iff, coords3_1]

/-- The scratch accumulator: a whole scoped buffer of the kernel's own. -/
abbrev scM3 : Memref sig .tc .vmem S1024x256 .f32 := Memref.whole cc3_scratch0

/-- The class invariant with the scratch as a memref owned at some contents. -/
abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3 fullShare d)) ∗ restBut3 c) ∗ (∃ r, prngReg c r)) := by
  unfold Pipeline.ΦA; rw [Pipeline.scopedRest_split_of_list spec3 c [cc3_scratch0] (by decide) (by decide)]; simp only [scM3, owns_whole]; try rfl

section Region3
-- the TensorCore's buffer contents when the call is entered
variable (V : (c : Dev nD) → (b : Ref sig .tc) → Buf (Elt F) ((c : Thread nD τ).loc b))

/-- Window w's block at point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- THE RUNNING SUM. What the scratch (and the output's staging buffer, which the body overwrites with it) holds after the
    body at point n: the payload of the point's row words and message block over zero at the first point of a run of
    293, over what the point before left elsewhere — the contributions to one block of 1024 rows of every chunk of
    entries met so far. -/
def acc3 (c : Dev nD) : (n : ℕ) → n < cfg3.N → Vec F S1024x256 .f32
  | 0, hn => k3_pay2 (grid3.coords ⟨0, hn⟩) (iblk3 V c 0 ⟨0, hn⟩) (iblk3 V c 1 ⟨0, hn⟩) (k3_pay1 (F := F))
  | n + 1, hn =>
    if (n + 1) % 293 = 0 then
      k3_pay2 (grid3.coords ⟨n + 1, hn⟩) (iblk3 V c 0 ⟨n + 1, hn⟩) (iblk3 V c 1 ⟨n + 1, hn⟩) (k3_pay1 (F := F))
    else
      k3_pay2 (grid3.coords ⟨n + 1, hn⟩) (iblk3 V c 0 ⟨n + 1, hn⟩) (iblk3 V c 1 ⟨n + 1, hn⟩) (acc3 c n (Nat.lt_of_succ_lt hn))

/-- The running sum at the first point of a run: over zero. -/
theorem acc3_first (c : Dev nD) (t : Fin cfg3.N) (h : t.val % 293 = 0) :
    acc3 V c t.val t.isLt = k3_pay2 (grid3.coords t) (iblk3 V c 0 t) (iblk3 V c 1 t) (k3_pay1 (F := F)) := by
  obtain ⟨n, hn⟩ := t
  cases n with
  | zero => rfl
  | succ n => exact if_pos h

/-- The running sum elsewhere: over what the point before left. -/
theorem acc3_next (c : Dev nD) (t : Fin cfg3.N) (h : ¬t.val % 293 = 0) :
    acc3 V c t.val t.isLt = k3_pay2 (grid3.coords t) (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h
  | succ n => exact if_neg h

/-- The invariant before position n: before the first point the class's (the scratch at anything); afterwards the scratch
    at the running sum the point before left, and the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ restBut3 c) ∗ (∃ r, prngReg c r)) := by
  cases n with
  | zero => exact absurd rfl hz
  | succ n => rfl

/-- The proof data of pipeline 1 on core c: the arrays as the call finds them; after the body at point t each input's
    buffer at its block and the output's at the running sum; the invariant carrying the scratch; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem Phi3_castSucc (c : Dev nD) (t : Fin cfg3.N) :
    (dat3 V c).Φ t.castSucc = PhiS3 V c t.val (Nat.le_of_lt t.isLt) := by
  dsimp only [dat3]; simp only [Fin.coe_castSucc]

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) ((cfg3.win 0).stage (cfg3.slots t 0)) fullShare ((dat3 V c).before 0 t d))
    ∗ (∃ d, owns (c : Thread nD τ) ((cfg3.win 1).stage (cfg3.slots t 1)) fullShare ((dat3 V c).before 1 t d))
    ∗ (∃ d, owns (c : Thread nD τ) ((cfg3.win 2).stage (cfg3.slots t 2)) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) ((cfg3.win 0).stage (cfg3.slots t 0)) fullShare ((dat3 V c).after 0 t)
    ∗ owns (c : Thread nD τ) ((cfg3.win 1).stage (cfg3.slots t 1)) fullShare ((dat3 V c).after 1 t)
    ∗ owns (c : Thread nD τ) ((cfg3.win 2).stage (cfg3.slots t 2)) fullShare ((dat3 V c).after 2 t))

set_option maxHeartbeats 4000000 in
/-- The body at any point: the inputs' memrefs hold their blocks; the invariant hands the body the scratch at what the
    point before left (at anything at the first point) and takes it back at this point's running sum. -/
theorem sound_body3 (c : Dev nD) (t : Fin cfg3.N) :
    bodyPre3 V c t ⊢ wp frame (wpE (defs₀ (F := F)) Variants.none c none) Set.univ
      (defs₀ (F := F) .tc cfg3.body (cfg3.bodyArgs t (cfg3.slots t))) (fun _ => bodyPost3 V c t) := by
  unfold bodyPre3 bodyPost3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2]
  show _ ⊢ wp frame (wpE (defs₀ (F := F)) Variants.none c none) Set.univ
    (cc3__reduce_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)) _
  by_cases h0 : t.val % 293 = 0
  · rw [acc3_first V c t h0]
    by_cases hz : t.val = 0
    · rw [Phi3_castSucc V c t, PhiS3_zero V c _ _ hz, PhiA3_eq]
      iintro ⟨⟨⟨HS, HR⟩, Hg⟩, Ho, ⟨%d0, H0⟩, ⟨%d1, H1⟩, ⟨%d2, H2⟩⟩
      iapply (run3_A c (grid3.coords t) _ _ _ _ _ _ _ _ ((hcond3 t).mpr h0) (iblk3 V c 0 t) (iblk3 V c 1 t) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Phi3_castSucc V c t, PhiS3_pos V c _ _ hz]
      iintro ⟨⟨⟨HS, HR⟩, Hg⟩, Ho, ⟨%d0, H0⟩, ⟨%d1, H1⟩, ⟨%d2, H2⟩⟩
      iapply (run3_A c (grid3.coords t) _ _ _ _ _ _ _ _ ((hcond3 t).mpr h0) (iblk3 V c 0 t) (iblk3 V c 1 t) Set.univ _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · rw [acc3_next V c t h0]
    have hz : t.val ≠ 0 := fun e => h0 (by rw [e])
    rw [Phi3_castSucc V c t, PhiS3_pos V c _ _ hz]
    iintro ⟨⟨⟨HS, HR⟩, Hg⟩, Ho, ⟨%d0, H0⟩, ⟨%d1, H1⟩, ⟨%d2, H2⟩⟩
    iapply (run3_B c (grid3.coords t) _ _ _ _ _ _ _ _ (fun h => h0 ((hcond3 t).mp h)) (iblk3 V c 0 t) (iblk3 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call (the class invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the scratch's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 28714 := N_3; omega), PhiA3_eq]
  iintro ⟨⟨HS, HR⟩, Hg⟩
  isplitl [HS HR]
  · isplitl [HS]
    · iexists _; iexact HS
    iexact HR
  iexact Hg

end Region3

end Cert.Kernel.Frame

end
-- ==== Proof.K.Run.lean ====
/-
  The four pallas_calls put together.  Between two items of @main every unscoped buffer of the TensorCore is held at a
  known valuation: the launch contents, then the host operations' results, then — after each pallas_call — the call's
  output array replaced by what the pipeline's write-backs leave (`Dat.arrAt … N` of the call's proof data, which is
  stated at the valuation the call is entered from).  The four replacement contents are defined one after the other, each
  from the valuation the ones before it determine; the conditional frame of the program (its generated module) is then
  instantiated at them, once for the frame claim and once more, with the result's buffer added to the post, for the value.
-/
import proofs.«402914_j8864812499579_1_alg».proof.Proof.K.Msg0
import proofs.«402914_j8864812499579_1_alg».proof.Proof.K.Red1
import proofs.«402914_j8864812499579_1_alg».proof.Proof.K.Msg2
import proofs.«402914_j8864812499579_1_alg».proof.Proof.K.Red3
import proofs.«402914_j8864812499579_1_alg».proof.Proof.Gen.Kernel.Regions
import Idealize.ShloMosaic.Lib.Pipeline.RegionsLoop
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A valuation read at the TensorCore's references: what a call's proof data take. -/
abbrev atTc (W : Dev nD → Valuation τ sig (Elt F)) : (c : Dev nD) → (b : Ref sig .tc) → Buf (Elt F) ((c : Thread nD τ).loc b) :=
  fun c b => W c b

/-! ## What the four calls leave in their output arrays -/

/-- The contents table of the conditional frame from the four output arrays' contents (anything else: as launched). -/
def outsOf (a0 : (c : Dev nD) → Buf (Elt F) ((c : Thread nD τ).loc main_v8)) (a1 : (c : Dev nD) → Buf (Elt F) ((c : Thread nD τ).loc main_v9))
    (a2 : (c : Dev nD) → Buf (Elt F) ((c : Thread nD τ).loc main_v19)) (a3 : (c : Dev nD) → Buf (Elt F) ((c : Thread nD τ).loc main_v20)) : Outs (F := F) :=
  fun _ r c =>
    if h : r = main_v8 then h ▸ a0 c
    else if h : r = main_v9 then h ▸ a1 c
    else if h : r = main_v19 then h ▸ a2 c
    else if h : r = main_v20 then h ▸ a3 c
    else m ((c : Thread nD τ).loc r)

section
variable (a0 : (c : Dev nD) → Buf (Elt F) ((c : Thread nD τ).loc main_v8)) (a1 : (c : Dev nD) → Buf (Elt F) ((c : Thread nD τ).loc main_v9))
  (a2 : (c : Dev nD) → Buf (Elt F) ((c : Thread nD τ).loc main_v19)) (a3 : (c : Dev nD) → Buf (Elt F) ((c : Thread nD τ).loc main_v20))
theorem outsOf_v8 (J : ℕ) (c : Dev nD) : outsOf m a0 a1 a2 a3 J main_v8 c = a0 c := by
  unfold outsOf; rw [dif_pos rfl]
theorem outsOf_v9 (J : ℕ) (c : Dev nD) : outsOf m a0 a1 a2 a3 J main_v9 c = a1 c := by
  unfold outsOf; rw [dif_neg (by decide), dif_pos rfl]
theorem outsOf_v19 (J : ℕ) (c : Dev nD) : outsOf m a0 a1 a2 a3 J main_v19 c = a2 c := by
  unfold outsOf; rw [dif_neg (by decide), dif_neg (by decide), dif_pos rfl]
theorem outsOf_v20 (J : ℕ) (c : Dev nD) : outsOf m a0 a1 a2 a3 J main_v20 c = a3 c := by
  unfold outsOf; rw [dif_neg (by decide), dif_neg (by decide), dif_neg (by decide), dif_pos rfl]
end

/-- A placeholder for an output array not yet determined: its launch contents. -/
abbrev asLaunched (r : Ref sig .tc) : (c : Dev nD) → Buf (Elt F) ((c : Thread nD τ).loc r) := fun c => m ((c : Thread nD τ).loc r)

/-- Call 0's output array after the call: its write-backs, from the entry valuation `V9`. -/
def o0 (c : Dev nD) : Buf (Elt F) ((c : Thread nD τ).loc main_v8) := (dat0 (atTc (V9 m)) c).arrAt 3 cfg0.N
def outsA : Outs (F := F) := outsOf m (o0 m) (asLaunched m main_v9) (asLaunched m main_v19) (asLaunched m main_v20)
/-- Call 1's, from the valuation after call 0. -/
def o1 (c : Dev nD) : Buf (Elt F) ((c : Thread nD τ).loc main_v9) := (dat1 (atTc (V10 m (outsA m))) c).arrAt 2 cfg1.N
def outsB : Outs (F := F) := outsOf m (o0 m) (o1 m) (asLaunched m main_v19) (asLaunched m main_v20)
/-- Call 2's, from the valuation at its entry. -/
def o2 (c : Dev nD) : Buf (Elt F) ((c : Thread nD τ).loc main_v19) := (dat2 (atTc (V20 m (outsB m))) c).arrAt 3 cfg2.N
def outsC : Outs (F := F) := outsOf m (o0 m) (o1 m) (o2 m) (asLaunched m main_v20)
/-- Call 3's, from the valuation after call 2. -/
def o3 (c : Dev nD) : Buf (Elt F) ((c : Thread nD τ).loc main_v20) := (dat3 (atTc (V21 m (outsC m))) c).arrAt 2 cfg3.N
/-- All four. -/
def outs : Outs (F := F) := outsOf m (o0 m) (o1 m) (o2 m) (o3 m)

/-! ## The valuations depend only on the contents determined so far -/

theorem V10_congr (u u' : Outs (F := F)) (c : Dev nD) (h : u 10 main_v8 c = u' 10 main_v8 c) : V10 m u c = V10 m u' c := by
  show Function.update _ _ _ = Function.update _ _ _; rw [h]
theorem V11_congr (u u' : Outs (F := F)) (c : Dev nD) (h : u 10 main_v8 c = u' 10 main_v8 c) (h' : u 11 main_v9 c = u' 11 main_v9 c) :
    V11 m u c = V11 m u' c := by
  show Function.update (V10 m u c) _ _ = Function.update (V10 m u' c) _ _; rw [V10_congr m u u' c h, h']
theorem V20_congr (u u' : Outs (F := F)) (c : Dev nD) (h : u 10 main_v8 c = u' 10 main_v8 c) (h' : u 11 main_v9 c = u' 11 main_v9 c) :
    V20 m u c = V20 m u' c :=
  congrArg (fun W => StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1 (StableHlo.after hostOps2 W)))))))))
    (V11_congr m u u' c h h')
theorem V21_congr (u u' : Outs (F := F)) (c : Dev nD) (h : u 10 main_v8 c = u' 10 main_v8 c) (h' : u 11 main_v9 c = u' 11 main_v9 c)
    (h'' : u 21 main_v19 c = u' 21 main_v19 c) : V21 m u c = V21 m u' c := by
  show Function.update (V20 m u c) _ _ = Function.update (V20 m u' c) _ _; rw [V20_congr m u u' c h h', h'']

theorem V10_outs (c : Dev nD) : V10 m (outs m) c = V10 m (outsA m) c :=
  V10_congr m _ _ c ((outsOf_v8 ..).trans (outsOf_v8 ..).symm)
theorem V11_outs (c : Dev nD) : V11 m (outs m) c = V11 m (outsB m) c :=
  V11_congr m _ _ c ((outsOf_v8 ..).trans (outsOf_v8 ..).symm) ((outsOf_v9 ..).trans (outsOf_v9 ..).symm)
theorem V11_outsB (c : Dev nD) : V10 m (outsB m) c = V10 m (outsA m) c :=
  V10_congr m _ _ c ((outsOf_v8 ..).trans (outsOf_v8 ..).symm)
theorem V20_outs (c : Dev nD) : V20 m (outs m) c = V20 m (outsB m) c :=
  V20_congr m _ _ c ((outsOf_v8 ..).trans (outsOf_v8 ..).symm) ((outsOf_v9 ..).trans (outsOf_v9 ..).symm)
theorem V20_outsC (c : Dev nD) : V20 m (outsC m) c = V20 m (outsB m) c :=
  V20_congr m _ _ c ((outsOf_v8 ..).trans (outsOf_v8 ..).symm) ((outsOf_v9 ..).trans (outsOf_v9 ..).symm)
theorem V21_outs (c : Dev nD) : V21 m (outs m) c = V21 m (outsC m) c :=
  V21_congr m _ _ c ((outsOf_v8 ..).trans (outsOf_v8 ..).symm) ((outsOf_v9 ..).trans (outsOf_v9 ..).symm) ((outsOf_v19 ..).trans (outsOf_v19 ..).symm)

/-- After a call its output array holds the table's entry for it. -/
theorem V10_v8 (u : Outs (F := F)) (c : Dev nD) : V10 m u c main_v8 = u 10 main_v8 c := Function.update_self ..
theorem V11_v9 (u : Outs (F := F)) (c : Dev nD) : V11 m u c main_v9 = u 11 main_v9 c := Function.update_self ..
theorem V21_v19 (u : Outs (F := F)) (c : Dev nD) : V21 m u c main_v19 = u 21 main_v19 c := Function.update_self ..
theorem V22_v20 (u : Outs (F := F)) (c : Dev nD) : V22 m u c main_v20 = u 22 main_v20 c := Function.update_self ..

/-- A call changes no buffer but its output array: the valuation after it against the one it was entered from. -/
theorem Vstep0 (c : Dev nD) (b : Ref sig .tc) (h : b ∉ ([main_v8] : List (Ref sig .tc))) : atTc (V10 m (outsA m)) c b = atTc (V9 m) c b :=
  V10_of m (outsA m) c b h
theorem Vstep1 (c : Dev nD) (b : Ref sig .tc) (h : b ∉ ([main_v9] : List (Ref sig .tc))) : atTc (V11 m (outsB m)) c b = atTc (V10 m (outsA m)) c b :=
  (V11_of m (outsB m) c b h).trans (congrFun (V11_outsB m c) _)
theorem Vstep2 (c : Dev nD) (b : Ref sig .tc) (h : b ∉ ([main_v19] : List (Ref sig .tc))) : atTc (V21 m (outsC m)) c b = atTc (V20 m (outsB m)) c b :=
  (V21_of m (outsC m) c b h).trans (congrFun (V20_outsC m c) _)
theorem Vstep3 (c : Dev nD) (b : Ref sig .tc) (h : b ∉ ([main_v20] : List (Ref sig .tc))) : atTc (V22 m (outs m)) c b = atTc (V21 m (outsC m)) c b :=
  (V22_of m (outs m) c b h).trans (congrFun (V21_outs m c) _)

/-! ## The proof data family and the thread state -/

/-- Every pipeline's proof data, each at its call's entry valuation — a literal match on the pipeline's number. -/
def pdats : (p : Fin 4) → (c : Dev nD) → Dat τ (Elt F) Unit ℕ (UR sig nD τ) ℕ (cfgs p) c
  | ⟨0, _⟩ => fun c => dat0 (atTc (V9 m)) c
  | ⟨1, _⟩ => fun c => dat1 (atTc (V10 m (outsA m))) c
  | ⟨2, _⟩ => fun c => dat2 (atTc (V20 m (outsB m))) c
  | ⟨3, _⟩ => fun c => dat3 (atTc (V21 m (outsC m))) c

/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

/-- At call 0's exit each of its arrays holds what the pipeline leaves: the output its write-backs, an input what it
    held at entry. -/
theorem hF0 (c : Dev nD) : ∀ w : Fin cfg0.W, (pdats m 0 c).arrAt w cfg0.N = atTc (V10 m (outsA m)) c (Pipeline.arrRef spec0 w)
  | ⟨0, _⟩ => ((pdats m 0 c).arrAt_in 0 rfl _).trans ((A_eq0 (atTc (V9 m)) c 0).trans (Vstep0 m c _ (by decide)).symm)
  | ⟨1, _⟩ => ((pdats m 0 c).arrAt_in 1 rfl _).trans ((A_eq0 (atTc (V9 m)) c 1).trans (Vstep0 m c _ (by decide)).symm)
  | ⟨2, _⟩ => ((pdats m 0 c).arrAt_in 2 rfl _).trans ((A_eq0 (atTc (V9 m)) c 2).trans (Vstep0 m c _ (by decide)).symm)
  | ⟨3, _⟩ => (show o0 m c = outsA m 10 main_v8 c from (outsOf_v8 ..).symm).trans (V10_v8 m (outsA m) c).symm

/-- and every other buffer what it held at entry. -/
theorem hrest0 (c : Dev nD) : ∀ b, b ∉ Finset.univ.image (Pipeline.arrRef spec0) → atTc (V10 m (outsA m)) c b = atTc (V9 m) c b :=
  fun b hb => Vstep0 m c b (fun h => hb (by
    rw [List.mem_singleton.mp h]; exact Finset.mem_image.mpr ⟨3, Finset.mem_univ _, rfl⟩))

set_option backward.isDefEq.respectTransparency.types false in
/-- Call 0 as a segment of @main: entered from every unscoped buffer at its entry contents, left with the output array
    at what its write-backs leave; its arrays split out of the unscoped buffers and put back; the generator register into
    the invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (V9 m)) c).loose
  hwaits := Pipeline.hwaits_of_owed_zero _ _ _ _ Lz lvz 0 fun _ _ => rfl
  pre c := iprop(StableHlo.held (c : Thread nD τ) (Pipeline.ucRefs τ sig) (V9 m c) ∗ Rst c)
  post c := iprop(StableHlo.held (c : Thread nD τ) (Pipeline.ucRefs τ sig) (V10 m (outsA m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V9 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (atTc (V9 m)) c)
    unfold Pipeline.ΦA
    iintro ⟨Hp, -, Hr⟩
    isplitl [Hr]; · iexact Hr
    iexact Hp
  hout c := by
    refine (hout0 (atTc (V9 m)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V9 m) c) (atTc (V10 m (outsA m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 1's exit each of its arrays holds what the pipeline leaves: the output its write-backs, an input what it
    held at entry. -/
theorem hF1 (c : Dev nD) : ∀ w : Fin cfg1.W, (pdats m 1 c).arrAt w cfg1.N = atTc (V11 m (outsB m)) c (Pipeline.arrRef spec1 w)
  | ⟨0, _⟩ => ((pdats m 1 c).arrAt_in 0 rfl _).trans ((A_eq1 (atTc (V10 m (outsA m))) c 0).trans (Vstep1 m c _ (by decide)).symm)
  | ⟨1, _⟩ => ((pdats m 1 c).arrAt_in 1 rfl _).trans ((A_eq1 (atTc (V10 m (outsA m))) c 1).trans (Vstep1 m c _ (by decide)).symm)
  | ⟨2, _⟩ => (show o1 m c = outsB m 11 main_v9 c from (outsOf_v9 ..).symm).trans (V11_v9 m (outsB m) c).symm

/-- and every other buffer what it held at entry. -/
theorem hrest1 (c : Dev nD) : ∀ b, b ∉ Finset.univ.image (Pipeline.arrRef spec1) → atTc (V11 m (outsB m)) c b = atTc (V10 m (outsA m)) c b :=
  fun b hb => Vstep1 m c b (fun h => hb (by
    rw [List.mem_singleton.mp h]; exact Finset.mem_image.mpr ⟨2, Finset.mem_univ _, rfl⟩))

set_option backward.isDefEq.respectTransparency.types false in
/-- Call 1 as a segment of @main: entered from every unscoped buffer at its entry contents, left with the output array
    at what its write-backs leave; its arrays split out of the unscoped buffers and put back; the generator register into
    the invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (V10 m (outsA m))) c).loose
  hwaits := Pipeline.hwaits_of_owed_zero _ _ _ _ Lz lvz 1 fun _ _ => rfl
  pre c := iprop(StableHlo.held (c : Thread nD τ) (Pipeline.ucRefs τ sig) (V10 m (outsA m) c) ∗ Rst c)
  post c := iprop(StableHlo.held (c : Thread nD τ) (Pipeline.ucRefs τ sig) (V11 m (outsB m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V10 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V10 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (V10 m (outsA m))) c)
    unfold Pipeline.ΦA
    iintro ⟨Hp, -, Hr⟩
    isplitl [Hr]; · iexact Hr
    iexact Hp
  hout c := by
    refine (hout1 (atTc (V10 m (outsA m))) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V10 m (outsA m)) c) (atTc (V11 m (outsB m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 2's exit each of its arrays holds what the pipeline leaves: the output its write-backs, an input what it
    held at entry. -/
theorem hF2 (c : Dev nD) : ∀ w : Fin cfg2.W, (pdats m 2 c).arrAt w cfg2.N = atTc (V21 m (outsC m)) c (Pipeline.arrRef spec2 w)
  | ⟨0, _⟩ => ((pdats m 2 c).arrAt_in 0 rfl _).trans ((A_eq2 (atTc (V20 m (outsB m))) c 0).trans (Vstep2 m c _ (by decide)).symm)
  | ⟨1, _⟩ => ((pdats m 2 c).arrAt_in 1 rfl _).trans ((A_eq2 (atTc (V20 m (outsB m))) c 1).trans (Vstep2 m c _ (by decide)).symm)
  | ⟨2, _⟩ => ((pdats m 2 c).arrAt_in 2 rfl _).trans ((A_eq2 (atTc (V20 m (outsB m))) c 2).trans (Vstep2 m c _ (by decide)).symm)
  | ⟨3, _⟩ => (show o2 m c = outsC m 21 main_v19 c from (outsOf_v19 ..).symm).trans (V21_v19 m (outsC m) c).symm

/-- and every other buffer what it held at entry. -/
theorem hrest2 (c : Dev nD) : ∀ b, b ∉ Finset.univ.image (Pipeline.arrRef spec2) → atTc (V21 m (outsC m)) c b = atTc (V20 m (outsB m)) c b :=
  fun b hb => Vstep2 m c b (fun h => hb (by
    rw [List.mem_singleton.mp h]; exact Finset.mem_image.mpr ⟨3, Finset.mem_univ _, rfl⟩))

set_option backward.isDefEq.respectTransparency.types false in
/-- Call 2 as a segment of @main: entered from every unscoped buffer at its entry contents, left with the output array
    at what its write-backs leave; its arrays split out of the unscoped buffers and put back; the generator register into
    the invariant and out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (V20 m (outsB m))) c).loose
  hwaits := Pipeline.hwaits_of_owed_zero _ _ _ _ Lz lvz 2 fun _ _ => rfl
  pre c := iprop(StableHlo.held (c : Thread nD τ) (Pipeline.ucRefs τ sig) (V20 m (outsB m) c) ∗ Rst c)
  post c := iprop(StableHlo.held (c : Thread nD τ) (Pipeline.ucRefs τ sig) (V21 m (outsC m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (V20 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V20 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (V20 m (outsB m))) c)
    unfold Pipeline.ΦA
    iintro ⟨Hp, -, Hr⟩
    isplitl [Hr]; · iexact Hr
    iexact Hp
  hout c := by
    refine (hout2 (atTc (V20 m (outsB m))) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V20 m (outsB m)) c) (atTc (V21 m (outsC m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 3's exit each of its arrays holds what the pipeline leaves: the output its write-backs, an input what it
    held at entry. -/
theorem hF3 (c : Dev nD) : ∀ w : Fin cfg3.W, (pdats m 3 c).arrAt w cfg3.N = atTc (V22 m (outs m)) c (Pipeline.arrRef spec3 w)
  | ⟨0, _⟩ => ((pdats m 3 c).arrAt_in 0 rfl _).trans ((A_eq3 (atTc (V21 m (outsC m))) c 0).trans (Vstep3 m c _ (by decide)).symm)
  | ⟨1, _⟩ => ((pdats m 3 c).arrAt_in 1 rfl _).trans ((A_eq3 (atTc (V21 m (outsC m))) c 1).trans (Vstep3 m c _ (by decide)).symm)
  | ⟨2, _⟩ => (show o3 m c = outs m 22 main_v20 c from (outsOf_v20 ..).symm).trans (V22_v20 m (outs m) c).symm

/-- and every other buffer what it held at entry. -/
theorem hrest3 (c : Dev nD) : ∀ b, b ∉ Finset.univ.image (Pipeline.arrRef spec3) → atTc (V22 m (outs m)) c b = atTc (V21 m (outsC m)) c b :=
  fun b hb => Vstep3 m c b (fun h => hb (by
    rw [List.mem_singleton.mp h]; exact Finset.mem_image.mpr ⟨2, Finset.mem_univ _, rfl⟩))

set_option backward.isDefEq.respectTransparency.types false in
/-- Call 3 as a segment of @main: entered from every unscoped buffer at its entry contents, left with the output array
    at what its write-backs leave; its arrays split out of the unscoped buffers and put back; the generator register into
    the invariant and out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atTc (V21 m (outsC m))) c).loose
  hwaits := Pipeline.hwaits_of_owed_zero _ _ _ _ Lz lvz 3 fun _ _ => rfl
  pre c := iprop(StableHlo.held (c : Thread nD τ) (Pipeline.ucRefs τ sig) (V21 m (outsC m) c) ∗ Rst c)
  post c := iprop(StableHlo.held (c : Thread nD τ) (Pipeline.ucRefs τ sig) (V22 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atTc (V21 m (outsC m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V21 m (outsC m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (V21 m (outsC m))) c)
    unfold Pipeline.ΦA
    iintro ⟨Hp, -, Hr⟩
    isplitl [Hr]; · iexact Hr
    iexact Hp
  hout c := by
    refine (hout3 (atTc (V21 m (outsC m))) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V21 m (outsC m)) c) (atTc (V22 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The rest state at every boundary. -/
abbrev Est : Fin 5 → Dev nD → sProp 𝕄 := fun _ c => Rst c

/-- The launch element: the pipelines' staging cells and launch tokens. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest state on every core: the generator register as dealt, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (Est (F := F) 0) : sProp 𝕄) := by
  refine Pipeline.initEach Lz lvz fun c => ?_
  iintro ⟨⟨-, HO, -, Hp, -⟩, -⟩
  imodintro
  isplitl [Hp]; · iexists _; iexact Hp
  iexists ∅; iexact HO

theorem hE4 (c : Dev nD) : Est (F := F) 4 c ⊢ (iprop(∃ W, owes (c : Thread nD τ) (0 : CellTallies nD τ sig Unit) W) : sProp 𝕄) := by
  iintro ⟨-, H⟩; iexact H

theorem hpost0 (c : Dev nD) : (reg0 m).post c ⊢ iprop(StableHlo.held (c : Thread nD τ) (Pipeline.ucRefs τ sig) (V10 m (outs m) c) ∗ Est (F := F) 1 c) := by
  rw [V10_outs]; exact .rfl
theorem hpre1 (c : Dev nD) : iprop(StableHlo.held (c : Thread nD τ) (Pipeline.ucRefs τ sig) (V10 m (outs m) c) ∗ Est (F := F) 1 c) ⊢ (reg1 m).pre c := by
  rw [V10_outs]; exact .rfl
theorem hpost1 (c : Dev nD) : (reg1 m).post c ⊢ iprop(StableHlo.held (c : Thread nD τ) (Pipeline.ucRefs τ sig) (V11 m (outs m) c) ∗ Est (F := F) 2 c) := by
  rw [V11_outs]; exact .rfl
theorem hpre2 (c : Dev nD) : iprop(StableHlo.held (c : Thread nD τ) (Pipeline.ucRefs τ sig) (V20 m (outs m) c) ∗ Est (F := F) 2 c) ⊢ (reg2 m).pre c := by
  rw [V20_outs]; exact .rfl
theorem hpost2 (c : Dev nD) : (reg2 m).post c ⊢ iprop(StableHlo.held (c : Thread nD τ) (Pipeline.ucRefs τ sig) (V21 m (outs m) c) ∗ Est (F := F) 3 c) := by
  rw [V21_outs]; exact .rfl
theorem hpre3 (c : Dev nD) : iprop(StableHlo.held (c : Thread nD τ) (Pipeline.ucRefs τ sig) (V21 m (outs m) c) ∗ Est (F := F) 3 c) ⊢ (reg3 m).pre c := by
  rw [V21_outs]; exact .rfl

/-- THE FRAME: every weakly fair execution of @main terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m (emb₁ : Emb (UR sig nD τ) 𝕄) () Variants.none Lz lvz (fun _ _ => rfl) ρ (outs m) (pdats m)
    (0 : Dev nD → CellTallies nD τ sig Unit) (fun _ => (BI.emp : sProp 𝕄)) u₀ hu₀ Est (hE0 ρ) hE4
    (reg0 m) (fun _ => .rfl) (hpost0 m) (reg1 m) (hpre1 m) (hpost1 m) (reg2 m) (hpre2 m) (hpost2 m) (reg3 m) (hpre3 m) (fun _ => .rfl)

set_option backward.isDefEq.respectTransparency.types false in
/-- THE RUN WITH ITS RESULT: the same execution, and the result's buffer ends at the last valuation's contents. -/
theorem run_val : θ_run defs (onTc (τ := τ) (main (F := F))) ⟨m, fun _ => 0, ρ⟩ (fun r => ∀ c : Dev nD,
      r.2.mem ((c.tc : Thread nD τ).loc main_v21) = V23 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj (emb₁ : Emb (UR sig nD τ) 𝕄) defs₀ Variants.none Lz lvz m ρ main
    (segs m (outs m) Variants.none Lz lvz Est () (pdats m) (reg0 m) (reg1 m) (reg2 m) (reg3 m))
    (fun c Q => by
      rewrite [main_chain c, Seg.run_eq_chain,
        show (segs m (outs m) Variants.none Lz lvz Est () (pdats m) (reg0 m) (reg1 m) (reg2 m) (reg3 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) u₀ hu₀
    (T₀ := fun c => iprop(StableHlo.held (c : Thread nD τ) (Pipeline.ucRefs τ sig) (V0 m c) ∗ Est 0 c))
    (Tₙ := fun c => StableHlo.held (c : Thread nD τ) (Pipeline.ucRefs τ sig) (V23 m (outs m) c))
    (hch := fun c => ⟨.rfl, .rfl, .rfl, .rfl, .rfl, .rfl, .rfl, .rfl, .rfl, .rfl, (hpost0 m c).trans (hpre1 m c), hpost1 m c, .rfl, .rfl, .rfl, .rfl, .rfl, .rfl, .rfl, .rfl, hpre2 m c, (hpost2 m c).trans (hpre3 m c), .rfl, sep_mono .rfl (hE4 c)⟩)
    (hinit := ?_) (QY := fun c s => s.mem ((c.tc : Thread nD τ).loc main_v21) = V23 m (outs m) c main_v21
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Est (F := F) 0 c)]
    isplitl [Hh]; · iexact Hh
    iexact HE
  · unfold StableHlo.held
    iintro ⟨Hh, HSI⟩
    ihave Hr := (pointsTo_read_all (Pipeline.ucRefs τ sig) (fun b => ((c : Thread nD τ).1, b)) (V23 m (outs m) c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (V23_main_arg0 m (outs m) c),
        (h (Proc.devRef .tc main_arg1) (Finset.mem_filter.mpr ⟨StableHlo.devRef_mem_tcRefs main_arg1, by decide⟩)).trans (V23_main_arg1 m (outs m) c),
        (h (Proc.devRef .tc main_arg2) (Finset.mem_filter.mpr ⟨StableHlo.devRef_mem_tcRefs main_arg2, by decide⟩)).trans (V23_main_arg2 m (outs m) c),
        (h (Proc.devRef .tc main_arg3) (Finset.mem_filter.mpr ⟨StableHlo.devRef_mem_tcRefs main_arg3, by decide⟩)).trans (V23_main_arg3 m (outs m) c),
        (h (Proc.devRef .tc main_arg4) (Finset.mem_filter.mpr ⟨StableHlo.devRef_mem_tcRefs main_arg4, by decide⟩)).trans (V23_main_arg4 m (outs m) c),
        (h (Proc.devRef .tc main_arg5) (Finset.mem_filter.mpr ⟨StableHlo.devRef_mem_tcRefs main_arg5, by decide⟩)).trans (V23_main_arg5 m (outs m) c),
        (h (Proc.devRef .tc main_arg6) (Finset.mem_filter.mpr ⟨StableHlo.devRef_mem_tcRefs main_arg6, by decide⟩)).trans (V23_main_arg6 m (outs m) c)⟩
    · iexact HSI

end Cert.Kernel.Frame

end
-- ==== Proof.KI.Common.lean ====
/-
  Facts shared by the four pallas_calls' run proofs: every vector access of the two kernel bodies is of the whole
  1024 × 256 (or 1 × 1024) staging buffer, through the rectangle at offset zero of the buffer's own size, which holds
  every index; so a list of stores whose last is such a store covers the buffer.
-/
import proofs.«402914_j8864812499579_1_alg».proof.Proof.Gen.KernelIdeal.Launch
import proofs.«402914_j8864812499579_1_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of every whole-buffer access of the bodies is zero on both axes. -/
theorem hz : (![0, 0] : Fin 2 → Nat) = fun _ => 0 := funext fun a => by fin_cases a <;> rfl

/-- The rectangle of the bodies' whole-block accesses. -/
abbrev rW : Rect S1024x256 := Rect.unit (s := S1024x256) ![0, 0] S1024x256.size inb_S1024x256_S1024x256_0_0

/-- A rectangle at offset zero of the buffer's own size holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last one is a whole-block store covers the block. -/
theorem coverW (p0 : S1024x256.Idx → Elt F .f32) (L : List (View.Piece (Elt F) S1024x256 .f32)) (y : S1024x256.Idx) :
    ∃ pc ∈ ((⟨rW, p0⟩ : View.Piece (Elt F) S1024x256 .f32) :: L), y ∈ pc.1.set :=
  ⟨_, List.mem_cons_self .., mem_unit_zero hz inb_S1024x256_S1024x256_0_0 y⟩

end Cert.KernelIdeal.Frame

end
-- ==== Proof.KI.Msg0.lean ====
/-
  Pallas_call 0 (the message stage of the first hop) as a pipeline over its grid of 293 × 98 points.
  The body, at grid point (nb, cb), loads the column words and weights of entries nb·1024 … nb·1024 + 1023 and block cb
  of the dense table, forms its payload (Skeleton's `k0_pay2`) over the scratch accumulator — zeroed first when cb = 0 —
  stores the sum back into the scratch and copies it into the output block.  So after point n the scratch and the
  output's staging buffer both hold the running sum `acc0`: the payload over zero at the first point of a run of 98
  points, over what the point before left elsewhere.  The pipeline's proof data state exactly that, the invariant
  carrying the scratch from point to point, and the body obligation is the body's run in the two cases.
-/
import proofs.«402914_j8864812499579_1_alg».proof.Proof.KI.Common
import proofs.«402914_j8864812499579_1_alg».proof.Proof.Gen.KernelIdeal.Launch
import proofs.«402914_j8864812499579_1_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The message kernel of pallas_call 0 on any whole staging memrefs -/

/-- The reset branch's condition, from the grid coordinates: the second coordinate is zero. -/
abbrev cond0 (i : grid0.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run0_B (c : Dev nD) (i : grid0.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : ¬cond0 i)
    (x2 : Vec F S1x1024 .i32) (x3 : Vec F S1x1024 .f32) (x4 : Vec F S1024x256 .bf16) (xs : Vec F S1024x256 .f32) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay2 i x2 x3 x4 xs) ∗ owns (c : Thread nD τ) arg6 fullShare (k0_pay2 i x2 x3 x4 xs)) -∗ K ⟨⟩))
      ⊢ wp frame (wpE (defs₀ (F := F)) Variants.none c none) E (cc0__message_kernel i arg2 harg2 arg3 harg3 arg4 harg4 arg5 harg5 arg6 harg6) K := by
  simp only [cc0__message_kernel_eq_skeleton]; unfold cc0__message_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H6
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run0_A (c : Dev nD) (i : grid0.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : cond0 i)
    (x2 : Vec F S1x1024 .i32) (x3 : Vec F S1x1024 .f32) (x4 : Vec F S1024x256 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (k0_pay2 i x2 x3 x4 (k0_pay1 (F := F))) ∗ owns (c : Thread nD τ) arg6 fullShare (k0_pay2 i x2 x3 x4 (k0_pay1 (F := F)))) -∗ K ⟨⟩))
      ⊢ wp frame (wpE (defs₀ (F := F)) Variants.none c none) E (cc0__message_kernel i arg2 harg2 arg3 harg3 arg4 harg4 arg5 harg5 arg6 harg6) K := by
  simp only [cc0__message_kernel_eq_skeleton]; unfold cc0__message_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H6
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 0 as a pipeline: blocks, the running sum, the proof data -/

/-- The second grid coordinate of a point is the point's number modulo the inner extent. -/
theorem coords0_1 (t : Fin cfg0.N) : ((grid0.coords t) 1).val = t.val % 98 := by
  show t.val / grid0.stride 1 % grid0.bound 1 = t.val % 98
  rw [show grid0.stride 1 = 1 from by decide, Nat.div_one]; rfl

/-- The reset condition holds exactly where the second coordinate is zero. -/
theorem cond0_iff (i : grid0.Coords) : cond0 i ↔ (i 1).val = 0 :=
  (by decide : ∀ k : Fin 98, ((Scalar.cmpi .ne (Scalar.extui (Scalar.cmpi .eq (BitVec.ofNat 32 k.val) 0#32)) 0#32) = 1#1) ↔ k.val = 0) (i 1)

/-- It holds at the first point of each run of 98 points. -/
theorem hcond0 (t : Fin cfg0.N) : cond0 (grid0.coords t) ↔ t.val % 98 = 0 := by
  rw [cond0_iff, coords0_1]

/-- The scratch accumulator: a whole scoped buffer of the kernel's own. -/
abbrev scM0 : Memref sig .tc .vmem S1024x256 .f32 := Memref.whole cc0_scratch0

/-- The class invariant with the scratch as a memref owned at some contents. -/
abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop((∃ d, owns (c : Thread nD τ) scM0 fullShare d)) ∗ restBut0 c) ∗ (∃ r, prngReg c r)) := by
  unfold Pipeline.ΦA; rw [Pipeline.scopedRest_split_of_list spec0 c [cc0_scratch0] (by decide) (by decide)]; simp only [scM0, owns_whole]; try rfl

section Region0
-- the TensorCore's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING SUM. What the scratch (and the output's staging buffer, which the body overwrites with it) holds after the
    body at point `n`: the payload of the point's three input blocks over zero at the first point of a run of 98, over
    what the point before left elsewhere. -/
def acc0 (c : Dev nD) : (n : ℕ) → n < cfg0.N → Vec F S1024x256 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn =>
    if (n + 1) % 98 = 0 then
      k0_pay2 (grid0.coords ⟨n + 1, hn⟩) (iblk0 V c 0 ⟨n + 1, hn⟩) (iblk0 V c 1 ⟨n + 1, hn⟩) (iblk0 V c 2 ⟨n + 1, hn⟩) (k0_pay1 (F := F))
    else
      k0_pay2 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn))

/-- The running sum at the first point of a run: over zero. -/
theorem acc0_first (c : Dev nD) (t : Fin cfg0.N) (h : t.val % 98 = 0) :
    acc0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => exact if_pos h

/-- The running sum elsewhere: over what the point before left. -/
theorem acc0_next (c : Dev nD) (t : Fin cfg0.N) (h : ¬t.val % 98 = 0) :
    acc0 V c t.val t.isLt = k0_pay2 (grid0.coords t) (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the class's (the scratch at anything); afterwards the scratch
    at the running sum the point before left, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restBut0 c) ∗ (∃ r, prngReg c r)) := by
  cases n with
  | zero => exact absurd rfl hz
  | succ n => rfl

/-- The proof data of pipeline 0 on core `c`: the arrays as the call finds them; after the body at point `t` each input's
    buffer at its block and the output's at the running sum; the invariant carrying the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) ((cfg0.win 0).stage (cfg0.slots t 0)) fullShare ((dat0 V c).before 0 t d))
    ∗ (∃ d, owns (c : Thread nD τ) ((cfg0.win 1).stage (cfg0.slots t 1)) fullShare ((dat0 V c).before 1 t d))
    ∗ (∃ d, owns (c : Thread nD τ) ((cfg0.win 2).stage (cfg0.slots t 2)) fullShare ((dat0 V c).before 2 t d))
    ∗ (∃ d, owns (c : Thread nD τ) ((cfg0.win 3).stage (cfg0.slots t 3)) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) ((cfg0.win 0).stage (cfg0.slots t 0)) fullShare ((dat0 V c).after 0 t)
    ∗ owns (c : Thread nD τ) ((cfg0.win 1).stage (cfg0.slots t 1)) fullShare ((dat0 V c).after 1 t)
    ∗ owns (c : Thread nD τ) ((cfg0.win 2).stage (cfg0.slots t 2)) fullShare ((dat0 V c).after 2 t)
    ∗ owns (c : Thread nD τ) ((cfg0.win 3).stage (cfg0.slots t 3)) fullShare ((dat0 V c).after 3 t))

set_option maxHeartbeats 4000000 in
/-- The body at any point: the inputs' memrefs hold their blocks; the invariant hands the body the scratch at what the
    point before left (at anything at the first point) and takes it back at this point's running sum. -/
theorem sound_body0 (c : Dev nD) (t : Fin cfg0.N) :
    bodyPre0 V c t ⊢ wp frame (wpE (defs₀ (F := F)) Variants.none c none) Set.univ
      (defs₀ (F := F) .tc cfg0.body (cfg0.bodyArgs t (cfg0.slots t))) (fun _ => bodyPost0 V c t) := by
  unfold bodyPre0 bodyPost0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  show _ ⊢ wp frame (wpE (defs₀ (F := F)) Variants.none c none) Set.univ
    (cc0__message_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)) _
  by_cases h0 : t.val % 98 = 0
  · rw [acc0_first V c t h0]
    by_cases hz : t.val = 0
    · rw [Phi0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (run0_A c (grid0.coords t) _ _ _ _ _ _ _ _ _ _ ((hcond0 t).mpr h0) (iblk0 V c 0 t) (iblk0 V c 1 t) (iblk0 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Phi0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (run0_A c (grid0.coords t) _ _ _ _ _ _ _ _ _ _ ((hcond0 t).mpr h0) (iblk0 V c 0 t) (iblk0 V c 1 t) (iblk0 V c 2 t) Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [acc0_next V c t h0]
    have hz : t.val ≠ 0 := fun e => h0 (by rw [e])
    rw [Phi0_castSucc V c t, PhiS0_pos V c _ _ hz]
    iintro ⟨⟨⟨HS, HR⟩, Hg⟩, Ho, ⟨%d0, H0⟩, ⟨%d1, H1⟩, ⟨%d2, H2⟩, ⟨%d3, H3⟩⟩
    iapply (run0_B c (grid0.coords t) _ _ _ _ _ _ _ _ _ _ (fun h => h0 ((hcond0 t).mp h)) (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 28714 := N_0; omega), PhiA0_eq]
  iintro ⟨⟨HS, HR⟩, Hg⟩
  isplitl [HS HR]
  · isplitl [HS]
    · iexists _; iexact HS
    iexact HR
  iexact Hg

end Region0

end Cert.KernelIdeal.Frame

end
-- ==== Proof.KI.Red1.lean ====
/-
  Pallas_call 1 (the reduce stage of the first hop) as a pipeline over its grid of 20 × 293 points.
  The body, at grid point (rb, nb), loads the row words of entries nb·1024 … nb·1024 + 1023 and the message block of
  the same entries, forms its payload (Skeleton's k1_pay2: the running block plus the one-hot block of the row words
  against rows rb·1024 … rb·1024 + 1023 times the message block) over the scratch accumulator — zeroed first when
  nb = 0 — stores the sum back into the scratch and copies it into the output block.  So after point n the scratch and
  the output's staging buffer both hold the running sum acc1: the payload over zero at the first point of a run of 293
  points, over what the point before left elsewhere.  The pipeline's proof data state exactly that, the invariant
  carrying the scratch from point to point, and the body obligation is the body's run in the two cases.
-/
import proofs.«402914_j8864812499579_1_alg».proof.Proof.KI.Common
import proofs.«402914_j8864812499579_1_alg».proof.Proof.Gen.KernelIdeal.Launch
import proofs.«402914_j8864812499579_1_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The reduce kernel of pallas_call 1 on any whole staging memrefs -/

/-- The reset branch's condition, from the grid coordinates: the second coordinate is zero. -/
abbrev cond1 (i : grid1.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run1_B (c : Dev nD) (i : grid1.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : ¬cond1 i)
    (x2 : Vec F S1x1024 .i32) (x3 : Vec F S1024x256 .f32) (xs : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ owns (c : Thread nD τ) arg5 fullShare xs
        ∗ (iprop(owns (c : Thread nD τ) arg2 fullShare x2 ∗ owns (c : Thread nD τ) arg3 fullShare x3
            ∗ owns (c : Thread nD τ) arg4 fullShare (k1_pay2 i x2 x3 xs) ∗ owns (c : Thread nD τ) arg5 fullShare (k1_pay2 i x2 x3 xs)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H5
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run1_A (c : Dev nD) (i : grid1.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : cond1 i)
    (x2 : Vec F S1x1024 .i32) (x3 : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg2 fullShare x2 ∗ owns (c : Thread nD τ) arg3 fullShare x3
            ∗ owns (c : Thread nD τ) arg4 fullShare (k1_pay2 i x2 x3 (k1_pay1 (F := F))) ∗ owns (c : Thread nD τ) arg5 fullShare (k1_pay2 i x2 x3 (k1_pay1 (F := F)))) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H5
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 1 as a pipeline: blocks, the running sum, the proof data -/

/-- The second grid coordinate of a point is the point's number modulo the inner extent. -/
theorem coords1_1 (t : Fin cfg1.N) : ((grid1.coords t) 1).val = t.val % 293 := by
  show t.val / grid1.stride 1 % grid1.bound 1 = t.val % 293
  rw [show grid1.stride 1 = 1 from by decide, Nat.div_one]; rfl

/-- The reset condition holds exactly where the second coordinate is zero. -/
theorem cond1_iff (i : grid1.Coords) : cond1 i ↔ (i 1).val = 0 :=
  (by decide : ∀ k : Fin 293, ((Scalar.cmpi .ne (Scalar.extui (Scalar.cmpi .eq (BitVec.ofNat 32 k.val) 0#32)) 0#32) = 1#1) ↔ k.val = 0) (i 1)

/-- It holds at the first point of each run of 293 points. -/
theorem hcond1 (t : Fin cfg1.N) : cond1 (grid1.coords t) ↔ t.val % 293 = 0 := by
  rw [cond1_iff, coords1_1]

/-- The scratch accumulator: a whole scoped buffer of the kernel's own. -/
abbrev scM1 : Memref sig .tc .vmem S1024x256 .f32 := Memref.whole cc1_scratch0

/-- The class invariant with the scratch as a memref owned at some contents. -/
abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1 fullShare d)) ∗ restBut1 c) ∗ (∃ r, prngReg c r)) := by
  unfold Pipeline.ΦA; rw [Pipeline.scopedRest_split_of_list spec1 c [cc1_scratch0] (by decide) (by decide)]; simp only [scM1, owns_whole]; try rfl

section Region1
-- the TensorCore's buffer contents when the call is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING SUM. What the scratch (and the output's staging buffer, which the body overwrites with it) holds after the
    body at point n: the payload of the point's row words and message block over zero at the first point of a run of
    293, over what the point before left elsewhere — the contributions to one block of 1024 rows of every chunk of
    entries met so far. -/
def acc1 (c : Dev nD) : (n : ℕ) → n < cfg1.N → Vec F S1024x256 .f32
  | 0, hn => k1_pay2 (grid1.coords ⟨0, hn⟩) (iblk1 V c 0 ⟨0, hn⟩) (iblk1 V c 1 ⟨0, hn⟩) (k1_pay1 (F := F))
  | n + 1, hn =>
    if (n + 1) % 293 = 0 then
      k1_pay2 (grid1.coords ⟨n + 1, hn⟩) (iblk1 V c 0 ⟨n + 1, hn⟩) (iblk1 V c 1 ⟨n + 1, hn⟩) (k1_pay1 (F := F))
    else
      k1_pay2 (grid1.coords ⟨n + 1, hn⟩) (iblk1 V c 0 ⟨n + 1, hn⟩) (iblk1 V c 1 ⟨n + 1, hn⟩) (acc1 c n (Nat.lt_of_succ_lt hn))

/-- The running sum at the first point of a run: over zero. -/
theorem acc1_first (c : Dev nD) (t : Fin cfg1.N) (h : t.val % 293 = 0) :
    acc1 V c t.val t.isLt = k1_pay2 (grid1.coords t) (iblk1 V c 0 t) (iblk1 V c 1 t) (k1_pay1 (F := F)) := by
  obtain ⟨n, hn⟩ := t
  cases n with
  | zero => rfl
  | succ n => exact if_pos h

/-- The running sum elsewhere: over what the point before left. -/
theorem acc1_next (c : Dev nD) (t : Fin cfg1.N) (h : ¬t.val % 293 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- The invariant before position n: before the first point the class's (the scratch at anything); afterwards the scratch
    at the running sum the point before left, and the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

/-- The proof data of pipeline 1 on core c: the arrays as the call finds them; after the body at point t each input's
    buffer at its block and the output's at the running sum; the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) :
    (dat1 V c).Φ t.castSucc = PhiS1 V c t.val (Nat.le_of_lt t.isLt) := by
  dsimp only [dat1]; simp only [Fin.coe_castSucc]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) ((cfg1.win 0).stage (cfg1.slots t 0)) fullShare ((dat1 V c).after 0 t)
    ∗ owns (c : Thread nD τ) ((cfg1.win 1).stage (cfg1.slots t 1)) fullShare ((dat1 V c).after 1 t)
    ∗ owns (c : Thread nD τ) ((cfg1.win 2).stage (cfg1.slots t 2)) fullShare ((dat1 V c).after 2 t))

set_option maxHeartbeats 4000000 in
/-- The body at any point: the inputs' memrefs hold their blocks; the invariant hands the body the scratch at what the
    point before left (at anything at the first point) and takes it back at this point's running sum. -/
theorem sound_body1 (c : Dev nD) (t : Fin cfg1.N) :
    bodyPre1 V c t ⊢ wp frame (wpE (defs₀ (F := F)) Variants.none c none) Set.univ
      (defs₀ (F := F) .tc cfg1.body (cfg1.bodyArgs t (cfg1.slots t))) (fun _ => bodyPost1 V c t) := by
  unfold bodyPre1 bodyPost1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  show _ ⊢ wp frame (wpE (defs₀ (F := F)) Variants.none c none) Set.univ
    (cc1__reduce_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)) _
  by_cases h0 : t.val % 293 = 0
  · rw [acc1_first V c t h0]
    by_cases hz : t.val = 0
    · rw [Phi1_castSucc V c t, PhiS1_zero V c _ _ hz, PhiA1_eq]
      iintro ⟨⟨⟨HS, HR⟩, Hg⟩, Ho, ⟨%d0, H0⟩, ⟨%d1, H1⟩, ⟨%d2, H2⟩⟩
      iapply (run1_A c (grid1.coords t) _ _ _ _ _ _ _ _ ((hcond1 t).mpr h0) (iblk1 V c 0 t) (iblk1 V c 1 t) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Phi1_castSucc V c t, PhiS1_pos V c _ _ hz]
      iintro ⟨⟨⟨HS, HR⟩, Hg⟩, Ho, ⟨%d0, H0⟩, ⟨%d1, H1⟩, ⟨%d2, H2⟩⟩
      iapply (run1_A c (grid1.coords t) _ _ _ _ _ _ _ _ ((hcond1 t).mpr h0) (iblk1 V c 0 t) (iblk1 V c 1 t) Set.univ _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · rw [acc1_next V c t h0]
    have hz : t.val ≠ 0 := fun e => h0 (by rw [e])
    rw [Phi1_castSucc V c t, PhiS1_pos V c _ _ hz]
    iintro ⟨⟨⟨HS, HR⟩, Hg⟩, Ho, ⟨%d0, H0⟩, ⟨%d1, H1⟩, ⟨%d2, H2⟩⟩
    iapply (run1_B c (grid1.coords t) _ _ _ _ _ _ _ _ (fun h => h0 ((hcond1 t).mp h)) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 5860 := N_1; omega), PhiA1_eq]
  iintro ⟨⟨HS, HR⟩, Hg⟩
  isplitl [HS HR]
  · isplitl [HS]
    · iexists _; iexact HS
    iexact HR
  iexact Hg

end Region1

end Cert.KernelIdeal.Frame

end
-- ==== Proof.KI.Msg2.lean ====
/-
  Pallas_call 2 (the message stage of the second hop) as a pipeline over its grid of 293 × 20 points.
  The body, at grid point (nb, cb), loads the column words and weights of entries nb·1024 … nb·1024 + 1023 and block cb
  of the dense table, forms its payload (Skeleton's `k2_pay2`) over the scratch accumulator — zeroed first when cb = 0 —
  stores the sum back into the scratch and copies it into the output block.  So after point n the scratch and the
  output's staging buffer both hold the running sum `acc2`: the payload over zero at the first point of a run of 20
  points, over what the point before left elsewhere.  The pipeline's proof data state exactly that, the invariant
  carrying the scratch from point to point, and the body obligation is the body's run in the two cases.
-/
import proofs.«402914_j8864812499579_1_alg».proof.Proof.KI.Common
import proofs.«402914_j8864812499579_1_alg».proof.Proof.Gen.KernelIdeal.Launch
import proofs.«402914_j8864812499579_1_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The message kernel of pallas_call 0 on any whole staging memrefs -/

/-- The reset branch's condition, from the grid coordinates: the second coordinate is zero. -/
abbrev cond2 (i : grid2.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run2_B (c : Dev nD) (i : grid2.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : ¬cond2 i)
    (x2 : Vec F S1x1024 .i32) (x3 : Vec F S1x1024 .f32) (x4 : Vec F S1024x256 .bf16) (xs : Vec F S1024x256 .f32) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k2_pay2 i x2 x3 x4 xs) ∗ owns (c : Thread nD τ) arg6 fullShare (k2_pay2 i x2 x3 x4 xs)) -∗ K ⟨⟩))
      ⊢ wp frame (wpE (defs₀ (F := F)) Variants.none c none) E (cc2__message_kernel i arg2 harg2 arg3 harg3 arg4 harg4 arg5 harg5 arg6 harg6) K := by
  simp only [cc2__message_kernel_eq_skeleton]; unfold cc2__message_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H6
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run2_A (c : Dev nD) (i : grid2.Coords) (arg2 : Memref sig .tc .vmem S1x1024 .i32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole)
    (hc : cond2 i)
    (x2 : Vec F S1x1024 .i32) (x3 : Vec F S1x1024 .f32) (x4 : Vec F S1024x256 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (k2_pay2 i x2 x3 x4 (k2_pay1 (F := F))) ∗ owns (c : Thread nD τ) arg6 fullShare (k2_pay2 i x2 x3 x4 (k2_pay1 (F := F)))) -∗ K ⟨⟩))
      ⊢ wp frame (wpE (defs₀ (F := F)) Variants.none c none) E (cc2__message_kernel i arg2 harg2 arg3 harg3 arg4 harg4 arg5 harg5 arg6 harg6) K := by
  simp only [cc2__message_kernel_eq_skeleton]; unfold cc2__message_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H6
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 0 as a pipeline: blocks, the running sum, the proof data -/

/-- The second grid coordinate of a point is the point's number modulo the inner extent. -/
theorem coords2_1 (t : Fin cfg2.N) : ((grid2.coords t) 1).val = t.val % 20 := by
  show t.val / grid2.stride 1 % grid2.bound 1 = t.val % 20
  rw [show grid2.stride 1 = 1 from by decide, Nat.div_one]; rfl

/-- The reset condition holds exactly where the second coordinate is zero. -/
theorem cond2_iff (i : grid2.Coords) : cond2 i ↔ (i 1).val = 0 :=
  (by decide : ∀ k : Fin 20, ((Scalar.cmpi .ne (Scalar.extui (Scalar.cmpi .eq (BitVec.ofNat 32 k.val) 0#32)) 0#32) = 1#1) ↔ k.val = 0) (i 1)

/-- It holds at the first point of each run of 20 points. -/
theorem hcond2 (t : Fin cfg2.N) : cond2 (grid2.coords t) ↔ t.val % 20 = 0 := by
  rw [cond2_iff, coords2_1]

/-- The scratch accumulator: a whole scoped buffer of the kernel's own. -/
abbrev scM2 : Memref sig .tc .vmem S1024x256 .f32 := Memref.whole cc2_scratch0

/-- The class invariant with the scratch as a memref owned at some contents. -/
abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2 fullShare d)) ∗ restBut2 c) ∗ (∃ r, prngReg c r)) := by
  unfold Pipeline.ΦA; rw [Pipeline.scopedRest_split_of_list spec2 c [cc2_scratch0] (by decide) (by decide)]; simp only [scM2, owns_whole]; try rfl

section Region2
-- the TensorCore's buffer contents when the call is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- THE RUNNING SUM. What the scratch (and the output's staging buffer, which the body overwrites with it) holds after the
    body at point `n`: the payload of the point's three input blocks over zero at the first point of a run of 20, over
    what the point before left elsewhere. -/
def acc2 (c : Dev nD) : (n : ℕ) → n < cfg2.N → Vec F S1024x256 .f32
  | 0, hn => k2_pay2 (grid2.coords ⟨0, hn⟩) (iblk2 V c 0 ⟨0, hn⟩) (iblk2 V c 1 ⟨0, hn⟩) (iblk2 V c 2 ⟨0, hn⟩) (k2_pay1 (F := F))
  | n + 1, hn =>
    if (n + 1) % 20 = 0 then
      k2_pay2 (grid2.coords ⟨n + 1, hn⟩) (iblk2 V c 0 ⟨n + 1, hn⟩) (iblk2 V c 1 ⟨n + 1, hn⟩) (iblk2 V c 2 ⟨n + 1, hn⟩) (k2_pay1 (F := F))
    else
      k2_pay2 (grid2.coords ⟨n + 1, hn⟩) (iblk2 V c 0 ⟨n + 1, hn⟩) (iblk2 V c 1 ⟨n + 1, hn⟩) (iblk2 V c 2 ⟨n + 1, hn⟩) (acc2 c n (Nat.lt_of_succ_lt hn))

/-- The running sum at the first point of a run: over zero. -/
theorem acc2_first (c : Dev nD) (t : Fin cfg2.N) (h : t.val % 20 = 0) :
    acc2 V c t.val t.isLt = k2_pay2 (grid2.coords t) (iblk2 V c 0 t) (iblk2 V c 1 t) (iblk2 V c 2 t) (k2_pay1 (F := F)) := by
  obtain ⟨n, hn⟩ := t
  cases n with
  | zero => rfl
  | succ n => exact if_pos h

/-- The running sum elsewhere: over what the point before left. -/
theorem acc2_next (c : Dev nD) (t : Fin cfg2.N) (h : ¬t.val % 20 = 0) :
    acc2 V c t.val t.isLt = k2_pay2 (grid2.coords t) (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the class's (the scratch at anything); afterwards the scratch
    at the running sum the point before left, and the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ restBut2 c) ∗ (∃ r, prngReg c r)) := by
  cases n with
  | zero => exact absurd rfl hz
  | succ n => rfl

/-- The proof data of pipeline 0 on core `c`: the arrays as the call finds them; after the body at point `t` each input's
    buffer at its block and the output's at the running sum; the invariant carrying the scratch; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = PhiS2 V c t.val (Nat.le_of_lt t.isLt) := by
  dsimp only [dat2]; simp only [Fin.coe_castSucc]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) ((cfg2.win 0).stage (cfg2.slots t 0)) fullShare ((dat2 V c).before 0 t d))
    ∗ (∃ d, owns (c : Thread nD τ) ((cfg2.win 1).stage (cfg2.slots t 1)) fullShare ((dat2 V c).before 1 t d))
    ∗ (∃ d, owns (c : Thread nD τ) ((cfg2.win 2).stage (cfg2.slots t 2)) fullShare ((dat2 V c).before 2 t d))
    ∗ (∃ d, owns (c : Thread nD τ) ((cfg2.win 3).stage (cfg2.slots t 3)) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) ((cfg2.win 0).stage (cfg2.slots t 0)) fullShare ((dat2 V c).after 0 t)
    ∗ owns (c : Thread nD τ) ((cfg2.win 1).stage (cfg2.slots t 1)) fullShare ((dat2 V c).after 1 t)
    ∗ owns (c : Thread nD τ) ((cfg2.win 2).stage (cfg2.slots t 2)) fullShare ((dat2 V c).after 2 t)
    ∗ owns (c : Thread nD τ) ((cfg2.win 3).stage (cfg2.slots t 3)) fullShare ((dat2 V c).after 3 t))

set_option maxHeartbeats 4000000 in
/-- The body at any point: the inputs' memrefs hold their blocks; the invariant hands the body the scratch at what the
    point before left (at anything at the first point) and takes it back at this point's running sum. -/
theorem sound_body2 (c : Dev nD) (t : Fin cfg2.N) :
    bodyPre2 V c t ⊢ wp frame (wpE (defs₀ (F := F)) Variants.none c none) Set.univ
      (defs₀ (F := F) .tc cfg2.body (cfg2.bodyArgs t (cfg2.slots t))) (fun _ => bodyPost2 V c t) := by
  unfold bodyPre2 bodyPost2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3]
  show _ ⊢ wp frame (wpE (defs₀ (F := F)) Variants.none c none) Set.univ
    (cc2__message_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)) _
  by_cases h0 : t.val % 20 = 0
  · rw [acc2_first V c t h0]
    by_cases hz : t.val = 0
    · rw [Phi2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c (grid2.coords t) _ _ _ _ _ _ _ _ _ _ ((hcond2 t).mpr h0) (iblk2 V c 0 t) (iblk2 V c 1 t) (iblk2 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Phi2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (run2_A c (grid2.coords t) _ _ _ _ _ _ _ _ _ _ ((hcond2 t).mpr h0) (iblk2 V c 0 t) (iblk2 V c 1 t) (iblk2 V c 2 t) Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [acc2_next V c t h0]
    have hz : t.val ≠ 0 := fun e => h0 (by rw [e])
    rw [Phi2_castSucc V c t, PhiS2_pos V c _ _ hz]
    iintro ⟨⟨⟨HS, HR⟩, Hg⟩, Ho, ⟨%d0, H0⟩, ⟨%d1, H1⟩, ⟨%d2, H2⟩, ⟨%d3, H3⟩⟩
    iapply (run2_B c (grid2.coords t) _ _ _ _ _ _ _ _ _ _ (fun h => h0 ((hcond2 t).mp h)) (iblk2 V c 0 t) (iblk2 V c 1 t) (iblk2 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5860 := N_2; omega), PhiA2_eq]
  iintro ⟨⟨HS, HR⟩, Hg⟩
  isplitl [HS HR]
  · isplitl [HS]
    · iexists _; iexact HS
    iexact HR
  iexact Hg

end Region2

end Cert.KernelIdeal.Frame

end
-- ==== Proof.KI.Red3.lean ====
/-
  Pallas_call 3 (the reduce stage of the second hop) as a pipeline over its grid of 98 × 293 points.
  The body, at grid point (rb, nb), loads the row words of entries nb·1024 … nb·1024 + 1023 and the message block of
  the same entries, forms its payload (Skeleton's k3_pay2: the running block plus the one-hot block of the row words
  against rows rb·1024 … rb·1024 + 1023 times the message block) over the scratch accumulator — zeroed first when
  nb = 0 — stores the sum back into the scratch and copies it into the output block.  So after point n the scratch and
  the output's staging buffer both hold the running sum acc3: the payload over zero at the first point of a run of 293
  points, over what the point before left elsewhere.  The pipeline's proof data state exactly that, the invariant
  carrying the scratch from point to point, and the body obligation is the body's run in the two cases.
-/
import proofs.«402914_j8864812499579_1_alg».proof.Proof.KI.Common
import proofs.«402914_j8864812499579_1_alg».proof.Proof.Gen.KernelIdeal.Launch
import proofs.«402914_j8864812499579_1_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The reduce kernel of pallas_call 3 on any whole staging memrefs -/

/-- The reset branch's condition, from the grid coordinates: the second coordinate is zero. -/
abbrev cond3 (i : grid3.Coords) : Prop := (Scalar.cmpi .ne (Scalar.extui (Scalar.cmpi .eq (BitVec.ofNat 32 (i 1).val) 0#32)) 0#32) = 1#1

set_option maxHeartbeats 1000000 in
/-- Away from a row block's first point the body adds its payload to what the scratch held and copies the sum out:
    both the scratch and the output buffer end at the payload over the scratch's previous contents. -/
theorem run3_B (c : Dev nD) (i : grid3.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : ¬cond3 i)
    (x2 : Vec F S1x1024 .i32) (x3 : Vec F S1024x256 .f32) (xs : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ owns (c : Thread nD τ) arg5 fullShare xs
        ∗ (iprop(owns (c : Thread nD τ) arg2 fullShare x2 ∗ owns (c : Thread nD τ) arg3 fullShare x3
            ∗ owns (c : Thread nD τ) arg4 fullShare (k3_pay2 i x2 x3 xs) ∗ owns (c : Thread nD τ) arg5 fullShare (k3_pay2 i x2 x3 xs)) -∗ K ⟨⟩))
      ⊢ wp frame (wpE (defs₀ (F := F)) Variants.none c none) E (cc3__reduce_kernel i arg2 harg2 arg3 harg3 arg4 harg4 arg5 harg5) K := by
  simp only [cc3__reduce_kernel_eq_skeleton]; unfold cc3__reduce_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
  iexists _; isplitr
  swap; · iexact H5
  ipureintro
  sl_unfold_words
  rw [View.read_writes_eq_canon _ _ _ (coverW _ _), View.canon_unit_zero hz]
  simp only [View.readAt_eq_ld, View.ld_unit_zero (S := S1x1024) hz, View.ld_unit_zero (S := S1024x256) hz]

set_option maxHeartbeats 1000000 in
/-- At a row block's first point the body first zeroes the scratch (whatever it held), then does the same. -/
theorem run3_A (c : Dev nD) (i : grid3.Coords) (arg2 : Memref sig .tc .vmem S1x1024 .i32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole)
    (hc : cond3 i)
    (x2 : Vec F S1x1024 .i32) (x3 : Vec F S1024x256 .f32) (E : Set ℕ) (K : PUnit → sProp 𝕄) :
    iprop(owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg2 fullShare x2 ∗ owns (c : Thread nD τ) arg3 fullShare x3
            ∗ owns (c : Thread nD τ) arg4 fullShare (k3_pay2 i x2 x3 (k3_pay1 (F := F))) ∗ owns (c : Thread nD τ) arg5 fullShare (k3_pay2 i x2 x3 (k3_pay1 (F := F)))) -∗ K ⟨⟩))
      ⊢ wp frame (wpE (defs₀ (F := F)) Variants.none c none) E (cc3__reduce_kernel i arg2 harg2 arg3 harg3 arg4 harg4 arg5 harg5) K := by
  simp only [cc3__reduce_kernel_eq_skeleton]; unfold cc3__reduce_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverW _ _)]
    sl_unfold_words
    rw [View.canon_unit_zero hz]
    simp only [View.readAt_eq_ld, View.ld_unit_zero (S := S1x1024) hz, View.ld_unit_zero (S := S1024x256) hz,
      View.readCov_unit_zero (S := S1024x256) _ hz]
    rw [View.readCov_eq_canon_ld _ _ _ (coverW _ _), View.canon_cons_unit_zero hz, View.ld_unit_zero hz]
  iexists _; isplitr
  swap; · iexact H5
  ipureintro
  sl_unfold_words
  rw [View.read_writes_eq_canon _ _ _ (coverW _ _), View.canon_cons_unit_zero hz]
  simp only [View.readAt_eq_ld, View.ld_unit_zero (S := S1x1024) hz, View.ld_unit_zero (S := S1024x256) hz,
    View.readCov_unit_zero (S := S1024x256) _ hz]

/-! ## Pallas_call 3 as a pipeline: blocks, the running sum, the proof data -/

/-- The second grid coordinate of a point is the point's number modulo the inner extent. -/
theorem coords3_1 (t : Fin cfg3.N) : ((grid3.coords t) 1).val = t.val % 293 := by
  show t.val / grid3.stride 1 % grid3.bound 1 = t.val % 293
  rw [show grid3.stride 1 = 1 from by decide, Nat.div_one]; rfl

/-- The reset condition holds exactly where the second coordinate is zero. -/
theorem cond3_iff (i : grid3.Coords) : cond3 i ↔ (i 1).val = 0 :=
  (by decide : ∀ k : Fin 293, ((Scalar.cmpi .ne (Scalar.extui (Scalar.cmpi .eq (BitVec.ofNat 32 k.val) 0#32)) 0#32) = 1#1) ↔ k.val = 0) (i 1)

/-- It holds at the first point of each run of 293 points. -/
theorem hcond3 (t : Fin cfg3.N) : cond3 (grid3.coords t) ↔ t.val % 293 = 0 := by
  rw [cond3_iff, coords3_1]

/-- The scratch accumulator: a whole scoped buffer of the kernel's own. -/
abbrev scM3 : Memref sig .tc .vmem S1024x256 .f32 := Memref.whole cc3_scratch0

/-- The class invariant with the scratch as a memref owned at some contents. -/
abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3 fullShare d)) ∗ restBut3 c) ∗ (∃ r, prngReg c r)) := by
  unfold Pipeline.ΦA; rw [Pipeline.scopedRest_split_of_list spec3 c [cc3_scratch0] (by decide) (by decide)]; simp only [scM3, owns_whole]; try rfl

section Region3
-- the TensorCore's buffer contents when the call is entered
variable (V : (c : Dev nD) → (b : Ref sig .tc) → Buf (Elt F) ((c : Thread nD τ).loc b))

/-- Window w's block at point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- THE RUNNING SUM. What the scratch (and the output's staging buffer, which the body overwrites with it) holds after the
    body at point n: the payload of the point's row words and message block over zero at the first point of a run of
    293, over what the point before left elsewhere — the contributions to one block of 1024 rows of every chunk of
    entries met so far. -/
def acc3 (c : Dev nD) : (n : ℕ) → n < cfg3.N → Vec F S1024x256 .f32
  | 0, hn => k3_pay2 (grid3.coords ⟨0, hn⟩) (iblk3 V c 0 ⟨0, hn⟩) (iblk3 V c 1 ⟨0, hn⟩) (k3_pay1 (F := F))
  | n + 1, hn =>
    if (n + 1) % 293 = 0 then
      k3_pay2 (grid3.coords ⟨n + 1, hn⟩) (iblk3 V c 0 ⟨n + 1, hn⟩) (iblk3 V c 1 ⟨n + 1, hn⟩) (k3_pay1 (F := F))
    else
      k3_pay2 (grid3.coords ⟨n + 1, hn⟩) (iblk3 V c 0 ⟨n + 1, hn⟩) (iblk3 V c 1 ⟨n + 1, hn⟩) (acc3 c n (Nat.lt_of_succ_lt hn))

/-- The running sum at the first point of a run: over zero. -/
theorem acc3_first (c : Dev nD) (t : Fin cfg3.N) (h : t.val % 293 = 0) :
    acc3 V c t.val t.isLt = k3_pay2 (grid3.coords t) (iblk3 V c 0 t) (iblk3 V c 1 t) (k3_pay1 (F := F)) := by
  obtain ⟨n, hn⟩ := t
  cases n with
  | zero => rfl
  | succ n => exact if_pos h

/-- The running sum elsewhere: over what the point before left. -/
theorem acc3_next (c : Dev nD) (t : Fin cfg3.N) (h : ¬t.val % 293 = 0) :
    acc3 V c t.val t.isLt = k3_pay2 (grid3.coords t) (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h
  | succ n => exact if_neg h

/-- The invariant before position n: before the first point the class's (the scratch at anything); afterwards the scratch
    at the running sum the point before left, and the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ restBut3 c) ∗ (∃ r, prngReg c r)) := by
  cases n with
  | zero => exact absurd rfl hz
  | succ n => rfl

/-- The proof data of pipeline 1 on core c: the arrays as the call finds them; after the body at point t each input's
    buffer at its block and the output's at the running sum; the invariant carrying the scratch; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem Phi3_castSucc (c : Dev nD) (t : Fin cfg3.N) :
    (dat3 V c).Φ t.castSucc = PhiS3 V c t.val (Nat.le_of_lt t.isLt) := by
  dsimp only [dat3]; simp only [Fin.coe_castSucc]

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) ((cfg3.win 0).stage (cfg3.slots t 0)) fullShare ((dat3 V c).before 0 t d))
    ∗ (∃ d, owns (c : Thread nD τ) ((cfg3.win 1).stage (cfg3.slots t 1)) fullShare ((dat3 V c).before 1 t d))
    ∗ (∃ d, owns (c : Thread nD τ) ((cfg3.win 2).stage (cfg3.slots t 2)) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) ((cfg3.win 0).stage (cfg3.slots t 0)) fullShare ((dat3 V c).after 0 t)
    ∗ owns (c : Thread nD τ) ((cfg3.win 1).stage (cfg3.slots t 1)) fullShare ((dat3 V c).after 1 t)
    ∗ owns (c : Thread nD τ) ((cfg3.win 2).stage (cfg3.slots t 2)) fullShare ((dat3 V c).after 2 t))

set_option maxHeartbeats 4000000 in
/-- The body at any point: the inputs' memrefs hold their blocks; the invariant hands the body the scratch at what the
    point before left (at anything at the first point) and takes it back at this point's running sum. -/
theorem sound_body3 (c : Dev nD) (t : Fin cfg3.N) :
    bodyPre3 V c t ⊢ wp frame (wpE (defs₀ (F := F)) Variants.none c none) Set.univ
      (defs₀ (F := F) .tc cfg3.body (cfg3.bodyArgs t (cfg3.slots t))) (fun _ => bodyPost3 V c t) := by
  unfold bodyPre3 bodyPost3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2]
  show _ ⊢ wp frame (wpE (defs₀ (F := F)) Variants.none c none) Set.univ
    (cc3__reduce_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)) _
  by_cases h0 : t.val % 293 = 0
  · rw [acc3_first V c t h0]
    by_cases hz : t.val = 0
    · rw [Phi3_castSucc V c t, PhiS3_zero V c _ _ hz, PhiA3_eq]
      iintro ⟨⟨⟨HS, HR⟩, Hg⟩, Ho, ⟨%d0, H0⟩, ⟨%d1, H1⟩, ⟨%d2, H2⟩⟩
      iapply (run3_A c (grid3.coords t) _ _ _ _ _ _ _ _ ((hcond3 t).mpr h0) (iblk3 V c 0 t) (iblk3 V c 1 t) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Phi3_castSucc V c t, PhiS3_pos V c _ _ hz]
      iintro ⟨⟨⟨HS, HR⟩, Hg⟩, Ho, ⟨%d0, H0⟩, ⟨%d1, H1⟩, ⟨%d2, H2⟩⟩
      iapply (run3_A c (grid3.coords t) _ _ _ _ _ _ _ _ ((hcond3 t).mpr h0) (iblk3 V c 0 t) (iblk3 V c 1 t) Set.univ _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · rw [acc3_next V c t h0]
    have hz : t.val ≠ 0 := fun e => h0 (by rw [e])
    rw [Phi3_castSucc V c t, PhiS3_pos V c _ _ hz]
    iintro ⟨⟨⟨HS, HR⟩, Hg⟩, Ho, ⟨%d0, H0⟩, ⟨%d1, H1⟩, ⟨%d2, H2⟩⟩
    iapply (run3_B c (grid3.coords t) _ _ _ _ _ _ _ _ (fun h => h0 ((hcond3 t).mp h)) (iblk3 V c 0 t) (iblk3 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call (the class invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the scratch's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 28714 := N_3; omega), PhiA3_eq]
  iintro ⟨⟨HS, HR⟩, Hg⟩
  isplitl [HS HR]
  · isplitl [HS]
    · iexists _; iexact HS
    iexact HR
  iexact Hg

end Region3

end Cert.KernelIdeal.Frame

end
-- ==== Proof.KI.Run.lean ====
/-
  The four pallas_calls put together.  Between two items of @main every unscoped buffer of the TensorCore is held at a
  known valuation: the launch contents, then the host operations' results, then — after each pallas_call — the call's
  output array replaced by what the pipeline's write-backs leave (`Dat.arrAt … N` of the call's proof data, which is
  stated at the valuation the call is entered from).  The four replacement contents are defined one after the other, each
  from the valuation the ones before it determine; the conditional frame of the program (its generated module) is then
  instantiated at them, once for the frame claim and once more, with the result's buffer added to the post, for the value.
-/
import proofs.«402914_j8864812499579_1_alg».proof.Proof.KI.Msg0
import proofs.«402914_j8864812499579_1_alg».proof.Proof.KI.Red1
import proofs.«402914_j8864812499579_1_alg».proof.Proof.KI.Msg2
import proofs.«402914_j8864812499579_1_alg».proof.Proof.KI.Red3
import proofs.«402914_j8864812499579_1_alg».proof.Proof.Gen.KernelIdeal.Regions
import Idealize.ShloMosaic.Lib.Pipeline.RegionsLoop
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A valuation read at the TensorCore's references: what a call's proof data take. -/
abbrev atTc (W : Dev nD → Valuation τ sig (Elt F)) : (c : Dev nD) → (b : Ref sig .tc) → Buf (Elt F) ((c : Thread nD τ).loc b) :=
  fun c b => W c b

/-! ## What the four calls leave in their output arrays -/

/-- The contents table of the conditional frame from the four output arrays' contents (anything else: as launched). -/
def outsOf (a0 : (c : Dev nD) → Buf (Elt F) ((c : Thread nD τ).loc main_v8)) (a1 : (c : Dev nD) → Buf (Elt F) ((c : Thread nD τ).loc main_v9))
    (a2 : (c : Dev nD) → Buf (Elt F) ((c : Thread nD τ).loc main_v19)) (a3 : (c : Dev nD) → Buf (Elt F) ((c : Thread nD τ).loc main_v20)) : Outs (F := F) :=
  fun _ r c =>
    if h : r = main_v8 then h ▸ a0 c
    else if h : r = main_v9 then h ▸ a1 c
    else if h : r = main_v19 then h ▸ a2 c
    else if h : r = main_v20 then h ▸ a3 c
    else m ((c : Thread nD τ).loc r)

section
variable (a0 : (c : Dev nD) → Buf (Elt F) ((c : Thread nD τ).loc main_v8)) (a1 : (c : Dev nD) → Buf (Elt F) ((c : Thread nD τ).loc main_v9))
  (a2 : (c : Dev nD) → Buf (Elt F) ((c : Thread nD τ).loc main_v19)) (a3 : (c : Dev nD) → Buf (Elt F) ((c : Thread nD τ).loc main_v20))
theorem outsOf_v8 (J : ℕ) (c : Dev nD) : outsOf m a0 a1 a2 a3 J main_v8 c = a0 c := by
  unfold outsOf; rw [dif_pos rfl]
theorem outsOf_v9 (J : ℕ) (c : Dev nD) : outsOf m a0 a1 a2 a3 J main_v9 c = a1 c := by
  unfold outsOf; rw [dif_neg (by decide), dif_pos rfl]
theorem outsOf_v19 (J : ℕ) (c : Dev nD) : outsOf m a0 a1 a2 a3 J main_v19 c = a2 c := by
  unfold outsOf; rw [dif_neg (by decide), dif_neg (by decide), dif_pos rfl]
theorem outsOf_v20 (J : ℕ) (c : Dev nD) : outsOf m a0 a1 a2 a3 J main_v20 c = a3 c := by
  unfold outsOf; rw [dif_neg (by decide), dif_neg (by decide), dif_neg (by decide), dif_pos rfl]
end

/-- A placeholder for an output array not yet determined: its launch contents. -/
abbrev asLaunched (r : Ref sig .tc) : (c : Dev nD) → Buf (Elt F) ((c : Thread nD τ).loc r) := fun c => m ((c : Thread nD τ).loc r)

/-- Call 0's output array after the call: its write-backs, from the entry valuation `V9`. -/
def o0 (c : Dev nD) : Buf (Elt F) ((c : Thread nD τ).loc main_v8) := (dat0 (atTc (V9 m)) c).arrAt 3 cfg0.N
def outsA : Outs (F := F) := outsOf m (o0 m) (asLaunched m main_v9) (asLaunched m main_v19) (asLaunched m main_v20)
/-- Call 1's, from the valuation after call 0. -/
def o1 (c : Dev nD) : Buf (Elt F) ((c : Thread nD τ).loc main_v9) := (dat1 (atTc (V10 m (outsA m))) c).arrAt 2 cfg1.N
def outsB : Outs (F := F) := outsOf m (o0 m) (o1 m) (asLaunched m main_v19) (asLaunched m main_v20)
/-- Call 2's, from the valuation at its entry. -/
def o2 (c : Dev nD) : Buf (Elt F) ((c : Thread nD τ).loc main_v19) := (dat2 (atTc (V20 m (outsB m))) c).arrAt 3 cfg2.N
def outsC : Outs (F := F) := outsOf m (o0 m) (o1 m) (o2 m) (asLaunched m main_v20)
/-- Call 3's, from the valuation after call 2. -/
def o3 (c : Dev nD) : Buf (Elt F) ((c : Thread nD τ).loc main_v20) := (dat3 (atTc (V21 m (outsC m))) c).arrAt 2 cfg3.N
/-- All four. -/
def outs : Outs (F := F) := outsOf m (o0 m) (o1 m) (o2 m) (o3 m)

/-! ## The valuations depend only on the contents determined so far -/

theorem V10_congr (u u' : Outs (F := F)) (c : Dev nD) (h : u 10 main_v8 c = u' 10 main_v8 c) : V10 m u c = V10 m u' c := by
  show Function.update _ _ _ = Function.update _ _ _; rw [h]
theorem V11_congr (u u' : Outs (F := F)) (c : Dev nD) (h : u 10 main_v8 c = u' 10 main_v8 c) (h' : u 11 main_v9 c = u' 11 main_v9 c) :
    V11 m u c = V11 m u' c := by
  show Function.update (V10 m u c) _ _ = Function.update (V10 m u' c) _ _; rw [V10_congr m u u' c h, h']
theorem V20_congr (u u' : Outs (F := F)) (c : Dev nD) (h : u 10 main_v8 c = u' 10 main_v8 c) (h' : u 11 main_v9 c = u' 11 main_v9 c) :
    V20 m u c = V20 m u' c :=
  congrArg (fun W => StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1 (StableHlo.after hostOps2 W)))))))))
    (V11_congr m u u' c h h')
theorem V21_congr (u u' : Outs (F := F)) (c : Dev nD) (h : u 10 main_v8 c = u' 10 main_v8 c) (h' : u 11 main_v9 c = u' 11 main_v9 c)
    (h'' : u 21 main_v19 c = u' 21 main_v19 c) : V21 m u c = V21 m u' c := by
  show Function.update (V20 m u c) _ _ = Function.update (V20 m u' c) _ _; rw [V20_congr m u u' c h h', h'']

theorem V10_outs (c : Dev nD) : V10 m (outs m) c = V10 m (outsA m) c :=
  V10_congr m _ _ c ((outsOf_v8 ..).trans (outsOf_v8 ..).symm)
theorem V11_outs (c : Dev nD) : V11 m (outs m) c = V11 m (outsB m) c :=
  V11_congr m _ _ c ((outsOf_v8 ..).trans (outsOf_v8 ..).symm) ((outsOf_v9 ..).trans (outsOf_v9 ..).symm)
theorem V11_outsB (c : Dev nD) : V10 m (outsB m) c = V10 m (outsA m) c :=
  V10_congr m _ _ c ((outsOf_v8 ..).trans (outsOf_v8 ..).symm)
theorem V20_outs (c : Dev nD) : V20 m (outs m) c = V20 m (outsB m) c :=
  V20_congr m _ _ c ((outsOf_v8 ..).trans (outsOf_v8 ..).symm) ((outsOf_v9 ..).trans (outsOf_v9 ..).symm)
theorem V20_outsC (c : Dev nD) : V20 m (outsC m) c = V20 m (outsB m) c :=
  V20_congr m _ _ c ((outsOf_v8 ..).trans (outsOf_v8 ..).symm) ((outsOf_v9 ..).trans (outsOf_v9 ..).symm)
theorem V21_outs (c : Dev nD) : V21 m (outs m) c = V21 m (outsC m) c :=
  V21_congr m _ _ c ((outsOf_v8 ..).trans (outsOf_v8 ..).symm) ((outsOf_v9 ..).trans (outsOf_v9 ..).symm) ((outsOf_v19 ..).trans (outsOf_v19 ..).symm)

/-- After a call its output array holds the table's entry for it. -/
theorem V10_v8 (u : Outs (F := F)) (c : Dev nD) : V10 m u c main_v8 = u 10 main_v8 c := Function.update_self ..
theorem V11_v9 (u : Outs (F := F)) (c : Dev nD) : V11 m u c main_v9 = u 11 main_v9 c := Function.update_self ..
theorem V21_v19 (u : Outs (F := F)) (c : Dev nD) : V21 m u c main_v19 = u 21 main_v19 c := Function.update_self ..
theorem V22_v20 (u : Outs (F := F)) (c : Dev nD) : V22 m u c main_v20 = u 22 main_v20 c := Function.update_self ..

/-- A call changes no buffer but its output array: the valuation after it against the one it was entered from. -/
theorem Vstep0 (c : Dev nD) (b : Ref sig .tc) (h : b ∉ ([main_v8] : List (Ref sig .tc))) : atTc (V10 m (outsA m)) c b = atTc (V9 m) c b :=
  V10_of m (outsA m) c b h
theorem Vstep1 (c : Dev nD) (b : Ref sig .tc) (h : b ∉ ([main_v9] : List (Ref sig .tc))) : atTc (V11 m (outsB m)) c b = atTc (V10 m (outsA m)) c b :=
  (V11_of m (outsB m) c b h).trans (congrFun (V11_outsB m c) _)
theorem Vstep2 (c : Dev nD) (b : Ref sig .tc) (h : b ∉ ([main_v19] : List (Ref sig .tc))) : atTc (V21 m (outsC m)) c b = atTc (V20 m (outsB m)) c b :=
  (V21_of m (outsC m) c b h).trans (congrFun (V20_outsC m c) _)
theorem Vstep3 (c : Dev nD) (b : Ref sig .tc) (h : b ∉ ([main_v20] : List (Ref sig .tc))) : atTc (V22 m (outs m)) c b = atTc (V21 m (outsC m)) c b :=
  (V22_of m (outs m) c b h).trans (congrFun (V21_outs m c) _)

/-! ## The proof data family and the thread state -/

/-- Every pipeline's proof data, each at its call's entry valuation — a literal match on the pipeline's number. -/
def pdats : (p : Fin 4) → (c : Dev nD) → Dat τ (Elt F) Unit ℕ (UR sig nD τ) ℕ (cfgs p) c
  | ⟨0, _⟩ => fun c => dat0 (atTc (V9 m)) c
  | ⟨1, _⟩ => fun c => dat1 (atTc (V10 m (outsA m))) c
  | ⟨2, _⟩ => fun c => dat2 (atTc (V20 m (outsB m))) c
  | ⟨3, _⟩ => fun c => dat3 (atTc (V21 m (outsC m))) c

/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

/-- At call 0's exit each of its arrays holds what the pipeline leaves: the output its write-backs, an input what it
    held at entry. -/
theorem hF0 (c : Dev nD) : ∀ w : Fin cfg0.W, (pdats m 0 c).arrAt w cfg0.N = atTc (V10 m (outsA m)) c (Pipeline.arrRef spec0 w)
  | ⟨0, _⟩ => ((pdats m 0 c).arrAt_in 0 rfl _).trans ((A_eq0 (atTc (V9 m)) c 0).trans (Vstep0 m c _ (by decide)).symm)
  | ⟨1, _⟩ => ((pdats m 0 c).arrAt_in 1 rfl _).trans ((A_eq0 (atTc (V9 m)) c 1).trans (Vstep0 m c _ (by decide)).symm)
  | ⟨2, _⟩ => ((pdats m 0 c).arrAt_in 2 rfl _).trans ((A_eq0 (atTc (V9 m)) c 2).trans (Vstep0 m c _ (by decide)).symm)
  | ⟨3, _⟩ => (show o0 m c = outsA m 10 main_v8 c from (outsOf_v8 ..).symm).trans (V10_v8 m (outsA m) c).symm

/-- and every other buffer what it held at entry. -/
theorem hrest0 (c : Dev nD) : ∀ b, b ∉ Finset.univ.image (Pipeline.arrRef spec0) → atTc (V10 m (outsA m)) c b = atTc (V9 m) c b :=
  fun b hb => Vstep0 m c b (fun h => hb (by
    rw [List.mem_singleton.mp h]; exact Finset.mem_image.mpr ⟨3, Finset.mem_univ _, rfl⟩))

set_option backward.isDefEq.respectTransparency.types false in
/-- Call 0 as a segment of @main: entered from every unscoped buffer at its entry contents, left with the output array
    at what its write-backs leave; its arrays split out of the unscoped buffers and put back; the generator register into
    the invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (V9 m)) c).loose
  hwaits := Pipeline.hwaits_of_owed_zero _ _ _ _ Lz lvz 0 fun _ _ => rfl
  pre c := iprop(StableHlo.held (c : Thread nD τ) (Pipeline.ucRefs τ sig) (V9 m c) ∗ Rst c)
  post c := iprop(StableHlo.held (c : Thread nD τ) (Pipeline.ucRefs τ sig) (V10 m (outsA m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V9 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (atTc (V9 m)) c)
    unfold Pipeline.ΦA
    iintro ⟨Hp, -, Hr⟩
    isplitl [Hr]; · iexact Hr
    iexact Hp
  hout c := by
    refine (hout0 (atTc (V9 m)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V9 m) c) (atTc (V10 m (outsA m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 1's exit each of its arrays holds what the pipeline leaves: the output its write-backs, an input what it
    held at entry. -/
theorem hF1 (c : Dev nD) : ∀ w : Fin cfg1.W, (pdats m 1 c).arrAt w cfg1.N = atTc (V11 m (outsB m)) c (Pipeline.arrRef spec1 w)
  | ⟨0, _⟩ => ((pdats m 1 c).arrAt_in 0 rfl _).trans ((A_eq1 (atTc (V10 m (outsA m))) c 0).trans (Vstep1 m c _ (by decide)).symm)
  | ⟨1, _⟩ => ((pdats m 1 c).arrAt_in 1 rfl _).trans ((A_eq1 (atTc (V10 m (outsA m))) c 1).trans (Vstep1 m c _ (by decide)).symm)
  | ⟨2, _⟩ => (show o1 m c = outsB m 11 main_v9 c from (outsOf_v9 ..).symm).trans (V11_v9 m (outsB m) c).symm

/-- and every other buffer what it held at entry. -/
theorem hrest1 (c : Dev nD) : ∀ b, b ∉ Finset.univ.image (Pipeline.arrRef spec1) → atTc (V11 m (outsB m)) c b = atTc (V10 m (outsA m)) c b :=
  fun b hb => Vstep1 m c b (fun h => hb (by
    rw [List.mem_singleton.mp h]; exact Finset.mem_image.mpr ⟨2, Finset.mem_univ _, rfl⟩))

set_option backward.isDefEq.respectTransparency.types false in
/-- Call 1 as a segment of @main: entered from every unscoped buffer at its entry contents, left with the output array
    at what its write-backs leave; its arrays split out of the unscoped buffers and put back; the generator register into
    the invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (V10 m (outsA m))) c).loose
  hwaits := Pipeline.hwaits_of_owed_zero _ _ _ _ Lz lvz 1 fun _ _ => rfl
  pre c := iprop(StableHlo.held (c : Thread nD τ) (Pipeline.ucRefs τ sig) (V10 m (outsA m) c) ∗ Rst c)
  post c := iprop(StableHlo.held (c : Thread nD τ) (Pipeline.ucRefs τ sig) (V11 m (outsB m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V10 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V10 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (V10 m (outsA m))) c)
    unfold Pipeline.ΦA
    iintro ⟨Hp, -, Hr⟩
    isplitl [Hr]; · iexact Hr
    iexact Hp
  hout c := by
    refine (hout1 (atTc (V10 m (outsA m))) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V10 m (outsA m)) c) (atTc (V11 m (outsB m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 2's exit each of its arrays holds what the pipeline leaves: the output its write-backs, an input what it
    held at entry. -/
theorem hF2 (c : Dev nD) : ∀ w : Fin cfg2.W, (pdats m 2 c).arrAt w cfg2.N = atTc (V21 m (outsC m)) c (Pipeline.arrRef spec2 w)
  | ⟨0, _⟩ => ((pdats m 2 c).arrAt_in 0 rfl _).trans ((A_eq2 (atTc (V20 m (outsB m))) c 0).trans (Vstep2 m c _ (by decide)).symm)
  | ⟨1, _⟩ => ((pdats m 2 c).arrAt_in 1 rfl _).trans ((A_eq2 (atTc (V20 m (outsB m))) c 1).trans (Vstep2 m c _ (by decide)).symm)
  | ⟨2, _⟩ => ((pdats m 2 c).arrAt_in 2 rfl _).trans ((A_eq2 (atTc (V20 m (outsB m))) c 2).trans (Vstep2 m c _ (by decide)).symm)
  | ⟨3, _⟩ => (show o2 m c = outsC m 21 main_v19 c from (outsOf_v19 ..).symm).trans (V21_v19 m (outsC m) c).symm

/-- and every other buffer what it held at entry. -/
theorem hrest2 (c : Dev nD) : ∀ b, b ∉ Finset.univ.image (Pipeline.arrRef spec2) → atTc (V21 m (outsC m)) c b = atTc (V20 m (outsB m)) c b :=
  fun b hb => Vstep2 m c b (fun h => hb (by
    rw [List.mem_singleton.mp h]; exact Finset.mem_image.mpr ⟨3, Finset.mem_univ _, rfl⟩))

set_option backward.isDefEq.respectTransparency.types false in
/-- Call 2 as a segment of @main: entered from every unscoped buffer at its entry contents, left with the output array
    at what its write-backs leave; its arrays split out of the unscoped buffers and put back; the generator register into
    the invariant and out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (V20 m (outsB m))) c).loose
  hwaits := Pipeline.hwaits_of_owed_zero _ _ _ _ Lz lvz 2 fun _ _ => rfl
  pre c := iprop(StableHlo.held (c : Thread nD τ) (Pipeline.ucRefs τ sig) (V20 m (outsB m) c) ∗ Rst c)
  post c := iprop(StableHlo.held (c : Thread nD τ) (Pipeline.ucRefs τ sig) (V21 m (outsC m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (V20 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V20 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (V20 m (outsB m))) c)
    unfold Pipeline.ΦA
    iintro ⟨Hp, -, Hr⟩
    isplitl [Hr]; · iexact Hr
    iexact Hp
  hout c := by
    refine (hout2 (atTc (V20 m (outsB m))) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V20 m (outsB m)) c) (atTc (V21 m (outsC m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 3's exit each of its arrays holds what the pipeline leaves: the output its write-backs, an input what it
    held at entry. -/
theorem hF3 (c : Dev nD) : ∀ w : Fin cfg3.W, (pdats m 3 c).arrAt w cfg3.N = atTc (V22 m (outs m)) c (Pipeline.arrRef spec3 w)
  | ⟨0, _⟩ => ((pdats m 3 c).arrAt_in 0 rfl _).trans ((A_eq3 (atTc (V21 m (outsC m))) c 0).trans (Vstep3 m c _ (by decide)).symm)
  | ⟨1, _⟩ => ((pdats m 3 c).arrAt_in 1 rfl _).trans ((A_eq3 (atTc (V21 m (outsC m))) c 1).trans (Vstep3 m c _ (by decide)).symm)
  | ⟨2, _⟩ => (show o3 m c = outs m 22 main_v20 c from (outsOf_v20 ..).symm).trans (V22_v20 m (outs m) c).symm

/-- and every other buffer what it held at entry. -/
theorem hrest3 (c : Dev nD) : ∀ b, b ∉ Finset.univ.image (Pipeline.arrRef spec3) → atTc (V22 m (outs m)) c b = atTc (V21 m (outsC m)) c b :=
  fun b hb => Vstep3 m c b (fun h => hb (by
    rw [List.mem_singleton.mp h]; exact Finset.mem_image.mpr ⟨2, Finset.mem_univ _, rfl⟩))

set_option backward.isDefEq.respectTransparency.types false in
/-- Call 3 as a segment of @main: entered from every unscoped buffer at its entry contents, left with the output array
    at what its write-backs leave; its arrays split out of the unscoped buffers and put back; the generator register into
    the invariant and out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atTc (V21 m (outsC m))) c).loose
  hwaits := Pipeline.hwaits_of_owed_zero _ _ _ _ Lz lvz 3 fun _ _ => rfl
  pre c := iprop(StableHlo.held (c : Thread nD τ) (Pipeline.ucRefs τ sig) (V21 m (outsC m) c) ∗ Rst c)
  post c := iprop(StableHlo.held (c : Thread nD τ) (Pipeline.ucRefs τ sig) (V22 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atTc (V21 m (outsC m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V21 m (outsC m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (V21 m (outsC m))) c)
    unfold Pipeline.ΦA
    iintro ⟨Hp, -, Hr⟩
    isplitl [Hr]; · iexact Hr
    iexact Hp
  hout c := by
    refine (hout3 (atTc (V21 m (outsC m))) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V21 m (outsC m)) c) (atTc (V22 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The rest state at every boundary. -/
abbrev Est : Fin 5 → Dev nD → sProp 𝕄 := fun _ c => Rst c

/-- The launch element: the pipelines' staging cells and launch tokens. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest state on every core: the generator register as dealt, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (Est (F := F) 0) : sProp 𝕄) := by
  refine Pipeline.initEach Lz lvz fun c => ?_
  iintro ⟨⟨-, HO, -, Hp, -⟩, -⟩
  imodintro
  isplitl [Hp]; · iexists _; iexact Hp
  iexists ∅; iexact HO

theorem hE4 (c : Dev nD) : Est (F := F) 4 c ⊢ (iprop(∃ W, owes (c : Thread nD τ) (0 : CellTallies nD τ sig Unit) W) : sProp 𝕄) := by
  iintro ⟨-, H⟩; iexact H

theorem hpost0 (c : Dev nD) : (reg0 m).post c ⊢ iprop(StableHlo.held (c : Thread nD τ) (Pipeline.ucRefs τ sig) (V10 m (outs m) c) ∗ Est (F := F) 1 c) := by
  rw [V10_outs]; exact .rfl
theorem hpre1 (c : Dev nD) : iprop(StableHlo.held (c : Thread nD τ) (Pipeline.ucRefs τ sig) (V10 m (outs m) c) ∗ Est (F := F) 1 c) ⊢ (reg1 m).pre c := by
  rw [V10_outs]; exact .rfl
theorem hpost1 (c : Dev nD) : (reg1 m).post c ⊢ iprop(StableHlo.held (c : Thread nD τ) (Pipeline.ucRefs τ sig) (V11 m (outs m) c) ∗ Est (F := F) 2 c) := by
  rw [V11_outs]; exact .rfl
theorem hpre2 (c : Dev nD) : iprop(StableHlo.held (c : Thread nD τ) (Pipeline.ucRefs τ sig) (V20 m (outs m) c) ∗ Est (F := F) 2 c) ⊢ (reg2 m).pre c := by
  rw [V20_outs]; exact .rfl
theorem hpost2 (c : Dev nD) : (reg2 m).post c ⊢ iprop(StableHlo.held (c : Thread nD τ) (Pipeline.ucRefs τ sig) (V21 m (outs m) c) ∗ Est (F := F) 3 c) := by
  rw [V21_outs]; exact .rfl
theorem hpre3 (c : Dev nD) : iprop(StableHlo.held (c : Thread nD τ) (Pipeline.ucRefs τ sig) (V21 m (outs m) c) ∗ Est (F := F) 3 c) ⊢ (reg3 m).pre c := by
  rw [V21_outs]; exact .rfl

/-- THE FRAME: every weakly fair execution of @main terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m (emb₁ : Emb (UR sig nD τ) 𝕄) () Variants.none Lz lvz (fun _ _ => rfl) ρ (outs m) (pdats m)
    (0 : Dev nD → CellTallies nD τ sig Unit) (fun _ => (BI.emp : sProp 𝕄)) u₀ hu₀ Est (hE0 ρ) hE4
    (reg0 m) (fun _ => .rfl) (hpost0 m) (reg1 m) (hpre1 m) (hpost1 m) (reg2 m) (hpre2 m) (hpost2 m) (reg3 m) (hpre3 m) (fun _ => .rfl)

set_option backward.isDefEq.respectTransparency.types false in
/-- THE RUN WITH ITS RESULT: the same execution, and the result's buffer ends at the last valuation's contents. -/
theorem run_val : θ_run defs (onTc (τ := τ) (main (F := F))) ⟨m, fun _ => 0, ρ⟩ (fun r => ∀ c : Dev nD,
      r.2.mem ((c.tc : Thread nD τ).loc main_v21) = V23 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj (emb₁ : Emb (UR sig nD τ) 𝕄) defs₀ Variants.none Lz lvz m ρ main
    (segs m (outs m) Variants.none Lz lvz Est () (pdats m) (reg0 m) (reg1 m) (reg2 m) (reg3 m))
    (fun c Q => by
      rewrite [main_chain c, Seg.run_eq_chain,
        show (segs m (outs m) Variants.none Lz lvz Est () (pdats m) (reg0 m) (reg1 m) (reg2 m) (reg3 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) u₀ hu₀
    (T₀ := fun c => iprop(StableHlo.held (c : Thread nD τ) (Pipeline.ucRefs τ sig) (V0 m c) ∗ Est 0 c))
    (Tₙ := fun c => StableHlo.held (c : Thread nD τ) (Pipeline.ucRefs τ sig) (V23 m (outs m) c))
    (hch := fun c => ⟨.rfl, .rfl, .rfl, .rfl, .rfl, .rfl, .rfl, .rfl, .rfl, .rfl, (hpost0 m c).trans (hpre1 m c), hpost1 m c, .rfl, .rfl, .rfl, .rfl, .rfl, .rfl, .rfl, .rfl, hpre2 m c, (hpost2 m c).trans (hpre3 m c), .rfl, sep_mono .rfl (hE4 c)⟩)
    (hinit := ?_) (QY := fun c s => s.mem ((c.tc : Thread nD τ).loc main_v21) = V23 m (outs m) c main_v21
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Est (F := F) 0 c)]
    isplitl [Hh]; · iexact Hh
    iexact HE
  · unfold StableHlo.held
    iintro ⟨Hh, HSI⟩
    ihave Hr := (pointsTo_read_all (Pipeline.ucRefs τ sig) (fun b => ((c : Thread nD τ).1, b)) (V23 m (outs m) c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (V23_main_arg0 m (outs m) c),
        (h (Proc.devRef .tc main_arg1) (Finset.mem_filter.mpr ⟨StableHlo.devRef_mem_tcRefs main_arg1, by decide⟩)).trans (V23_main_arg1 m (outs m) c),
        (h (Proc.devRef .tc main_arg2) (Finset.mem_filter.mpr ⟨StableHlo.devRef_mem_tcRefs main_arg2, by decide⟩)).trans (V23_main_arg2 m (outs m) c),
        (h (Proc.devRef .tc main_arg3) (Finset.mem_filter.mpr ⟨StableHlo.devRef_mem_tcRefs main_arg3, by decide⟩)).trans (V23_main_arg3 m (outs m) c),
        (h (Proc.devRef .tc main_arg4) (Finset.mem_filter.mpr ⟨StableHlo.devRef_mem_tcRefs main_arg4, by decide⟩)).trans (V23_main_arg4 m (outs m) c),
        (h (Proc.devRef .tc main_arg5) (Finset.mem_filter.mpr ⟨StableHlo.devRef_mem_tcRefs main_arg5, by decide⟩)).trans (V23_main_arg5 m (outs m) c),
        (h (Proc.devRef .tc main_arg6) (Finset.mem_filter.mpr ⟨StableHlo.devRef_mem_tcRefs main_arg6, by decide⟩)).trans (V23_main_arg6 m (outs m) c)⟩
    · iexact HSI

end Cert.KernelIdeal.Frame

end
-- ==== Proof.Spec.lean ====
/-
  The mathematics both programs compute, stated once over plain natural-number indices.

  One hop of sparse propagation: the stored entry n of a 300000-entry coordinate list carries a row word, a column word
  and a weight; row r of the result is the sum, over the entries whose row word (read as a signed integer) is r, of the
  weight times row (column word) of the dense table.  The whole operator is two hops, the second reading the table the
  first one produced.  Nothing here mentions a program: the two programs are each shown to compute `result`.
-/
import Idealize.ShloMosaic.PureOps.Ideal
import Idealize.ShloMosaic.Lib.ValueIdx

noncomputable section

open scoped BigOperators

namespace Cert.Spec

open Idealize.ShloMosaic Idealize.ShloMosaic.ValueIdx

/-- The number of stored entries of each coordinate list. -/
abbrev NNZ : ℕ := 300000

/-- A length-300000 array read at a natural number (the default outside). -/
def vecN {α : Type} (x : (⟨1, ![300000]⟩ : Shape).Idx → α) (dflt : α) (n : ℕ) : α :=
  if h : n < 300000 then x (ix1 ⟨n, h⟩) else dflt

/-- An R × 256 array of extended reals read at two natural numbers (zero outside). -/
def matN (R : ℕ) (x : (⟨2, ![R, 256]⟩ : Shape).Idx → EReal) (r d : ℕ) : EReal :=
  if h : r < R ∧ d < 256 then x (ix2 ⟨r, h.1⟩ ⟨d, h.2⟩) else 0

theorem vecN_of_lt {α : Type} (x : (⟨1, ![300000]⟩ : Shape).Idx → α) (dflt : α) {n : ℕ} (h : n < 300000) :
    vecN x dflt n = x (ix1 ⟨n, h⟩) := dif_pos h

theorem matN_of_lt (R : ℕ) (x : (⟨2, ![R, 256]⟩ : Shape).Idx → EReal) {r d : ℕ} (hr : r < R) (hd : d < 256) :
    matN R x r d = x (ix2 ⟨r, hr⟩ ⟨d, hd⟩) := dif_pos ⟨hr, hd⟩

/-- One hop: entry (r, d) of the propagated table. -/
def hop (rows cols : ℕ → BitVec 32) (vals : ℕ → EReal) (dense : ℕ → ℕ → EReal) (r d : ℕ) : EReal :=
  ∑ n ∈ Finset.range 300000, if (rows n).toInt = (r : ℤ) then vals n * dense (cols n).toNat d else 0

/-- The operator's result: two hops, the second over the first one's table. -/
def result (pois : (⟨2, ![100000, 256]⟩ : Shape).Idx → EReal)
    (upRows upCols : (⟨1, ![300000]⟩ : Shape).Idx → BitVec 32) (upVals : (⟨1, ![300000]⟩ : Shape).Idx → EReal)
    (puRows puCols : (⟨1, ![300000]⟩ : Shape).Idx → BitVec 32) (puVals : (⟨1, ![300000]⟩ : Shape).Idx → EReal) :
    (⟨2, ![100000, 256]⟩ : Shape).Idx → EReal :=
  fun j => hop (vecN puRows 0) (vecN puCols 0) (vecN puVals 0)
    (hop (vecN upRows 0) (vecN upCols 0) (vecN upVals 0) (matN 100000 pois)) (j 0).val (j 1).val

/-- The column words of a coordinate list all name a row of a table of C rows. -/
def ColsIn (C : ℕ) (cols : (⟨1, ![300000]⟩ : Shape).Idx → BitVec 32) : Prop :=
  ∀ n : Fin 300000, 0 ≤ (cols (ix1 n)).toInt ∧ (cols (ix1 n)).toInt < (C : ℤ)

end Cert.Spec

end
-- ==== Proof.RefValue.lean ====
import proofs.«402914_j8864812499579_1_alg».proof.Defs
import proofs.«402914_j8864812499579_1_alg».proof.Proof.Gen.ReferenceIdeal.Run
import proofs.«402914_j8864812499579_1_alg».proof.Proof.Gen.ReferenceIdeal.Read
import proofs.«402914_j8864812499579_1_alg».proof.Proof.Spec
import Idealize.ShloMosaic.PureOps.Ideal.Laws

/-
  The reference program computes the two-hop sparse propagation of the specification.

  Each hop of the program is: a gather of rows of a dense table at the column words, a multiplication of each gathered
  row by its entry's weight, and an accumulating scatter of the weighted rows to the row words, into a table of zeros.
  Read at one entry (r, q) of its result, such a hop is the sum, over the stored entries n whose row word is r, of the
  weight of n times the dense table at (column word of n, q): the specification's `hop`.  The gather reads its start
  word signed and clamped, which is the word itself when the word names a row of the table; the negative-index wrap in
  front of it leaves a non-negative word alone.  The scatter reads its start word signed and drops an update whose row
  is outside the table, and an entry (r, q) of the table only ever equals the row word of an update when that word is r.
-/

noncomputable section

open scoped BigOperators

namespace Cert.ReferenceIdeal.RefValue

open Cert.ReferenceIdeal Cert.ReferenceIdeal.Gen Idealize.ShloMosaic Idealize.ShloMosaic.ValueIdx Idealize.SL.Sem
open Cert.Spec

/-! ## A gather of rows, read at an index -/

section Gather
variable {α : Type} {R w : Nat}
  (d : GatherDims ⟨2, ![R, 256]⟩ ⟨2, ![300000, 1]⟩ ⟨2, ![300000, 256]⟩)
  (hoff : d.offsetDims = [1]) (hcoll : d.collapsedSliceDims = [0]) (hob : d.operandBatchingDims = [])
  (hsim : d.startIndexMap = [0]) (hivd : d.indexVectorDim = 1)

include hoff hsim hivd in
/-- Result entry (n, q) reads its start word at (n, 0) of the column of start words: the result's first axis is the
    batch axis, and the index vector has the one component. -/
theorem gather_siIdx (n : Fin 300000) (q : Fin 256) (c : Fin d.startIndexMap.length) :
    d.siIdx (ix2 n q) c = ix2 n (0 : Fin 1) := by
  funext b
  match b with
  | ⟨0, _⟩ =>
    unfold GatherDims.siIdx
    rw [dif_neg (by rw [hivd]; exact Nat.zero_ne_one)]
    unfold GatherDims.siCoord
    refine Fin.ext ?_
    simp only [Fin.val_cast]
    have hall : ∀ e ∈ d.batchDims, e = 0 := by
      unfold GatherDims.batchDims; rw [hoff]; decide
    exact congrArg (fun e => ((ix2 n q : (⟨2, ![300000, 256]⟩ : Shape).Idx) e).val) (hall _ (List.getElem_mem _))
  | ⟨1, _⟩ =>
    unfold GatherDims.siIdx
    rw [dif_pos (by rw [hivd])]
    refine Fin.ext ?_
    have hl : d.startIndexMap.length = 1 := by rw [hsim]; rfl
    have := c.isLt
    show c.val = 0
    omega

include hoff hcoll hob hsim hivd in
/-- The gather at (n, q) is the table at (start word of n read signed and clamped into the table's rows, q): on the row
    axis the clamped start and nothing else (the axis is collapsed), on the column axis the offset coordinate q. -/
theorem gather_row (x : (⟨2, ![R, 256]⟩ : Shape).Idx → α) (idx : IVec ⟨2, ![300000, 1]⟩ w)
    (n : Fin 300000) (q : Fin 256) (hR : 0 < R) :
    Host.gather d x idx (ix2 n q)
      = x (ix2 ⟨min (idx (ix2 n (0 : Fin 1))).toInt.toNat (R - 1), by omega⟩ q) := by
  unfold Host.gather
  congr 1
  funext a
  have hb : ∀ a : Fin 2, a ∉ d.operandBatchingDims := by intro a; rw [hob]; exact List.not_mem_nil
  match a with
  | ⟨0, _⟩ =>
    refine Fin.ext ?_
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 n q) idx 0 + d.batchCoord (ix2 n q) 0 + d.offCoord (ix2 n q) 0 = _
    rw [GatherDims.batchCoord_eq_zero _ _ _ (hb 0), GatherDims.offCoord_eq_zero _ _ _ hk]
    simp only [Nat.add_zero]
    unfold GatherDims.start
    rw [dif_pos hm, gather_siIdx d hoff hsim hivd, hsl]
    rfl
  | ⟨1, _⟩ =>
    refine Fin.ext ?_
    have hk : (1 : Fin 2) ∈ d.sKept := by rw [GatherDims.mem_sKept, hcoll, hob]; simp
    have hm : (1 : Fin 2) ∉ d.startIndexMap := by rw [hsim]; simp
    have hall : ∀ e ∈ d.offsetDims, e = 1 := by rw [hoff]; simp
    show d.start (ix2 n q) idx 1 + d.batchCoord (ix2 n q) 1 + d.offCoord (ix2 n q) 1 = q.val
    rw [GatherDims.batchCoord_eq_zero _ _ _ (hb 1)]
    unfold GatherDims.start GatherDims.offCoord
    rw [dif_neg hm, dif_pos hk]
    simp only [Nat.add_zero, Nat.zero_add]
    exact congrArg (fun e => ((ix2 n q : (⟨2, ![300000, 256]⟩ : Shape).Idx) e).val) (hall _ (List.getElem_mem _))

end Gather

/-! ## An accumulating scatter of rows, read at an index -/

section Scatter
variable {R w : Nat}
  (d : ScatterDims ⟨2, ![R, 256]⟩ ⟨2, ![300000, 1]⟩ ⟨2, ![300000, 256]⟩)
  (huw : d.updateWindowDims = [1]) (hiw : d.insertedWindowDims = [0])
  (hsd : d.scatterDimsToOperandDims = [0]) (hivd : d.indexVectorDim = 1)

include huw hsd hivd in
/-- Update entry (n, q) reads its start word at (n, 0) of the column of start words. -/
theorem scatter_siIdx (n : Fin 300000) (q : Fin 256) (c : Fin d.scatterDimsToOperandDims.length) :
    d.siIdx (ix2 n q) c = ix2 n (0 : Fin 1) := by
  funext b
  match b with
  | ⟨0, _⟩ =>
    unfold ScatterDims.siIdx
    rw [dif_neg (by rw [hivd]; exact Nat.zero_ne_one)]
    unfold ScatterDims.siCoord
    refine Fin.ext ?_
    simp only [Fin.val_cast]
    have hall : ∀ e ∈ d.uScatter, e = 0 := by
      unfold ScatterDims.uScatter; rw [huw]; decide
    exact congrArg (fun e => ((ix2 n q : (⟨2, ![300000, 256]⟩ : Shape).Idx) e).val) (hall _ (List.getElem_mem _))
  | ⟨1, _⟩ =>
    unfold ScatterDims.siIdx
    rw [dif_pos (by rw [hivd])]
    refine Fin.ext ?_
    have hl : d.scatterDimsToOperandDims.length = 1 := by rw [hsd]; rfl
    have := c.isLt
    show c.val = 0
    omega

include huw hsd hivd in
/-- On the row axis the window of update (n, q) starts at the start word of n, read signed. -/
theorem scatter_start0 (idx : IVec ⟨2, ![300000, 1]⟩ w) (n : Fin 300000) (q : Fin 256) :
    d.start (ix2 n q) idx 0 = (idx (ix2 n (0 : Fin 1))).toInt := by
  have hm : (0 : Fin 2) ∈ d.scatterDimsToOperandDims := by rw [hsd]; exact List.mem_singleton.mpr rfl
  unfold ScatterDims.start
  rw [dif_pos hm, scatter_siIdx d huw hsd hivd]

include hsd in
/-- On the column axis it starts at 0 (the axis is not indexed). -/
theorem scatter_start1 (idx : IVec ⟨2, ![300000, 1]⟩ w) (n : Fin 300000) (q : Fin 256) :
    d.start (ix2 n q) idx 1 = 0 := by
  have hm : (1 : Fin 2) ∉ d.scatterDimsToOperandDims := by rw [hsd]; simp
  unfold ScatterDims.start
  rw [dif_neg hm]

include hiw in
/-- The window coordinate on the row axis is 0 (the axis is inserted) … -/
theorem scatter_window0 (n : Fin 300000) (q : Fin 256) : d.window (ix2 n q) 0 = 0 := by
  have hk : (0 : Fin 2) ∉ d.sKept := by
    unfold ScatterDims.sKept Shape.kept; rw [hiw]; simp
  unfold ScatterDims.window
  rw [dif_neg hk]

include huw hiw in
/-- … and on the column axis it is q. -/
theorem scatter_window1 (n : Fin 300000) (q : Fin 256) : d.window (ix2 n q) 1 = q.val := by
  have hk : (1 : Fin 2) ∈ d.sKept := by
    unfold ScatterDims.sKept Shape.kept; rw [hiw]; simp [List.mem_finRange]
  have hall : ∀ e ∈ d.updateWindowDims, e = 1 := by rw [huw]; simp
  unfold ScatterDims.window
  rw [dif_pos hk]
  exact congrArg (fun e => ((ix2 n q : (⟨2, ![300000, 256]⟩ : Shape).Idx) e).val) (hall _ (List.getElem_mem _))

include huw hiw hsd hivd in
/-- Update (n, q') lands on entry (r, q) exactly when the start word of n, read signed, is r and q' = q: the landing
    index is (start word, q') when the start word names a row of the table, and there is none otherwise. -/
theorem scatter_resultIdx (idx : IVec ⟨2, ![300000, 1]⟩ w) (n : Fin 300000) (q' q : Fin 256) (r : Fin R) :
    d.resultIdx? (ix2 n q') idx = some (ix2 r q)
      ↔ (idx (ix2 n (0 : Fin 1))).toInt = (r.val : ℤ) ∧ q' = q := by
  have h0 := scatter_start0 d huw hsd hivd idx n q'
  have h1 := scatter_start1 d hsd idx n q'
  have w0 := scatter_window0 d hiw n q'
  have w1 := scatter_window1 d huw hiw n q'
  unfold ScatterDims.resultIdx?
  split
  · rename_i h
    rw [Option.some.injEq]
    constructor
    · intro e
      have e0 : (d.start (ix2 n q') idx 0 + (d.window (ix2 n q') 0 : ℕ)).toNat = r.val :=
        congrArg (fun f : (⟨2, ![R, 256]⟩ : Shape).Idx => (f 0).val) e
      have e1 : (d.start (ix2 n q') idx 1 + (d.window (ix2 n q') 1 : ℕ)).toNat = q.val :=
        congrArg (fun f : (⟨2, ![R, 256]⟩ : Shape).Idx => (f 1).val) e
      have hh := (h 0).1
      rw [h0, w0] at e0 hh
      rw [h1, w1] at e1
      refine ⟨by omega, Fin.ext (by omega)⟩
    · rintro ⟨er, eq⟩
      funext a
      match a with
      | ⟨0, _⟩ =>
        refine Fin.ext ?_
        show (d.start (ix2 n q') idx 0 + (d.window (ix2 n q') 0 : ℕ)).toNat = r.val
        rw [h0, w0]; omega
      | ⟨1, _⟩ =>
        refine Fin.ext ?_
        show (d.start (ix2 n q') idx 1 + (d.window (ix2 n q') 1 : ℕ)).toNat = q.val
        rw [h1, w1, eq]; omega
  · rename_i h
    constructor
    · intro e; exact absurd e (by simp)
    · rintro ⟨er, eq⟩
      exfalso
      apply h
      intro a
      match a with
      | ⟨0, _⟩ =>
        show 0 ≤ d.start (ix2 n q') idx 0 + (d.window (ix2 n q') 0 : ℕ)
          ∧ d.start (ix2 n q') idx 0 + (d.window (ix2 n q') 0 : ℕ) < (R : ℤ)
        rw [h0, w0]
        have := r.isLt
        omega
      | ⟨1, _⟩ =>
        show 0 ≤ d.start (ix2 n q') idx 1 + (d.window (ix2 n q') 1 : ℕ)
          ∧ d.start (ix2 n q') idx 1 + (d.window (ix2 n q') 1 : ℕ) < (256 : ℤ)
        rw [h1, w1]
        have := q'.isLt
        omega

include huw hiw hsd hivd in
/-- The accumulating scatter at (r, q): the operand's entry plus the sum, over the stored entries n whose start word
    read signed is r, of the update at (n, q).  The sum over all updates (n, q') that land on (r, q) is first a double
    sum over n and q'; for each n the inner sum keeps the one term q' = q. -/
theorem scatterAdd_row (x : (⟨2, ![R, 256]⟩ : Shape).Idx → EReal) (idx : IVec ⟨2, ![300000, 1]⟩ w)
    (upd : (⟨2, ![300000, 256]⟩ : Shape).Idx → EReal) (r : Fin R) (q : Fin 256) :
    Ideal.hostScatterAdd d x idx upd (ix2 r q)
      = x (ix2 r q) + ∑ n : Fin 300000, if (idx (ix2 n (0 : Fin 1))).toInt = (r.val : ℤ) then upd (ix2 n q) else 0 := by
  show x (ix2 r q) + ∑ j ∈ Finset.univ.filter (fun j => d.resultIdx? j idx = some (ix2 r q)), upd j = _
  refine congrArg (fun t => x (ix2 r q) + t) ?_
  rw [Finset.sum_filter, sum_idx2]
  refine Finset.sum_congr rfl (fun n _ => ?_)
  simp only [scatter_resultIdx d huw hiw hsd hivd idx n _ q r]
  by_cases hr : (idx (ix2 n (0 : Fin 1))).toInt = (r.val : ℤ)
  · simp only [hr, true_and, if_true]
    rw [Finset.sum_ite_eq' Finset.univ q (fun q' => upd (ix2 n q'))]
    simp
  · simp only [hr, false_and, if_false]
    exact Finset.sum_const_zero

end Scatter

/-! ## Words -/

/-- A word that is non-negative read signed has the same value read unsigned. -/
theorem toNat_of_nonneg (v : BitVec 32) (h : 0 ≤ v.toInt) : (v.toNat : ℤ) = v.toInt := by
  have := BitVec.toInt_eq_toNat_cond v
  have := v.isLt
  split_ifs at * <;> omega

/-- The negative-index wrap (add the table's height to a word below zero) leaves a non-negative word alone. -/
theorem wrap_of_nonneg (v N : BitVec 32) (h : 0 ≤ v.toInt) :
    Scalar.select (IntOp.cmpi .slt v 0#32) (IntOp.addi v N) v = v := by
  have hlt : v.slt 0#32 = false := by
    simp only [BitVec.slt, BitVec.toInt_zero, decide_eq_false_iff_not, not_lt]
    exact h
  unfold Scalar.select IntOp.cmpi
  simp only [hlt]
  exact if_neg (by decide)

/-! ## One hop -/

/-- The specification's hop depends on the dense table only at the rows the column words name. -/
theorem hop_congr (rows cols : ℕ → BitVec 32) (vals : ℕ → EReal) (dense dense' : ℕ → ℕ → EReal) (r q : ℕ)
    (h : ∀ n, n < 300000 → dense (cols n).toNat q = dense' (cols n).toNat q) :
    hop rows cols vals dense r q = hop rows cols vals dense' r q := by
  unfold hop
  refine Finset.sum_congr rfl (fun n hn => ?_)
  rw [h n (Finset.mem_range.mp hn)]

section Hop
variable {R C : Nat}
  (ds : ScatterDims ⟨2, ![R, 256]⟩ ⟨2, ![300000, 1]⟩ ⟨2, ![300000, 256]⟩)
  (huw : ds.updateWindowDims = [1]) (hiw : ds.insertedWindowDims = [0])
  (hsd : ds.scatterDimsToOperandDims = [0]) (hsiv : ds.indexVectorDim = 1)
  (dg : GatherDims ⟨2, ![C, 256]⟩ ⟨2, ![300000, 1]⟩ ⟨2, ![300000, 256]⟩)
  (hoff : dg.offsetDims = [1]) (hcoll : dg.collapsedSliceDims = [0]) (hob : dg.operandBatchingDims = [])
  (hsim : dg.startIndexMap = [0]) (hgiv : dg.indexVectorDim = 1)

include huw hiw hsd hsiv hoff hcoll hob hsim hgiv in
/-- Gather rows of `dense` at the column words, weight row n by `vals n`, scatter-add the rows to the row words into
    zeros: entry (r, q) of the result is the specification's hop at (r, q), when the column words name rows of `dense`.
    The columns of start words and the weights come as arrays that read, at (n, 0) and at (n, q), the entry n of the
    coordinate lists, and the updates as an array that reads, at (n, q), the weight times the gathered entry. -/
theorem hop_eq (rows cols : (⟨1, ![300000]⟩ : Shape).Idx → BitVec 32) (vals : (⟨1, ![300000]⟩ : Shape).Idx → EReal)
    (dense : (⟨2, ![C, 256]⟩ : Shape).Idx → EReal)
    (x : (⟨2, ![R, 256]⟩ : Shape).Idx → EReal) (hx : ∀ i, x i = 0)
    (idxS idxG : IVec ⟨2, ![300000, 1]⟩ 32)
    (hS : ∀ n : Fin 300000, idxS (ix2 n (0 : Fin 1)) = rows (ix1 n))
    (hG : ∀ n : Fin 300000, idxG (ix2 n (0 : Fin 1)) = cols (ix1 n))
    (wts upd : (⟨2, ![300000, 256]⟩ : Shape).Idx → EReal)
    (hW : ∀ (n : Fin 300000) (q : Fin 256), wts (ix2 n q) = vals (ix1 n))
    (hU : ∀ (n : Fin 300000) (q : Fin 256), upd (ix2 n q) = wts (ix2 n q) * Host.gather dg dense idxG (ix2 n q))
    (hc : ColsIn C cols) (r : Fin R) (q : Fin 256) :
    Ideal.hostScatterAdd ds x idxS upd (ix2 r q)
      = hop (vecN rows 0) (vecN cols 0) (vecN vals 0) (matN C dense) r.val q.val := by
  have hCpos : 0 < C := by have := hc ⟨0, by decide⟩; omega
  rw [scatterAdd_row ds huw hiw hsd hsiv, hx, zero_add]
  unfold hop
  rw [Finset.sum_range]
  refine Finset.sum_congr rfl (fun n _ => ?_)
  rw [vecN_of_lt rows 0 n.isLt, vecN_of_lt cols 0 n.isLt, vecN_of_lt vals 0 n.isLt]
  simp only [Fin.eta]
  obtain ⟨hc0, hc1⟩ := hc n
  have htn : ((cols (ix1 n)).toNat : ℤ) = (cols (ix1 n)).toInt := toNat_of_nonneg _ hc0
  have hlt : (cols (ix1 n)).toNat < C := by omega
  rw [matN_of_lt C dense hlt q.isLt, hS n, hU n q, hW n q, gather_row dg hoff hcoll hob hsim hgiv dense idxG n q hCpos]
  have hrow : (⟨min (idxG (ix2 n (0 : Fin 1))).toInt.toNat (C - 1), by omega⟩ : Fin C) = ⟨(cols (ix1 n)).toNat, hlt⟩ :=
    Fin.ext (by show min (idxG (ix2 n (0 : Fin 1))).toInt.toNat (C - 1) = (cols (ix1 n)).toNat; rw [hG n]; omega)
  rw [hrow]

end Hop

/-! ## The program's stages at an entry of the coordinate lists -/

section Program

/-- A coordinate list laid out as a column reads, at (n, 0), the list's entry n. -/
theorem v11_at (x1 : (⟨1, ![300000]⟩ : Shape).Idx → BitVec 32) (n : Fin 300000) :
    Read.val_main_v11 (F := Ideal) x1 (ix2 n (0 : Fin 1)) = x1 (ix1 n) := by
  rw [Read.val_main_v11_apply]
  exact congrArg x1 (funext fun a => by match a with | ⟨0, _⟩ => rfl)

theorem v24_at (x4 : (⟨1, ![300000]⟩ : Shape).Idx → BitVec 32) (n : Fin 300000) :
    Read.val_main_v24 (F := Ideal) x4 (ix2 n (0 : Fin 1)) = x4 (ix1 n) := by
  rw [Read.val_main_v24_apply]
  exact congrArg x4 (funext fun a => by match a with | ⟨0, _⟩ => rfl)

/-- The wrapped column words laid out as a column read, at (n, 0), the column word n itself when it is not negative. -/
theorem v6_at (x2 : (⟨1, ![300000]⟩ : Shape).Idx → BitVec 32) (n : Fin 300000) (h : 0 ≤ (x2 (ix1 n)).toInt) :
    Read.val_main_v6 (F := Ideal) x2 (ix2 n (0 : Fin 1)) = x2 (ix1 n) := by
  have e : Read.idx_main_v6 (ix2 n (0 : Fin 1)) = ix1 n := funext fun a => by match a with | ⟨0, _⟩ => rfl
  rw [Read.val_main_v6_apply, e, Read.val_main_v5_apply, Read.val_main_v2_apply, Read.val_main_v4_apply,
    Read.val_main_v1_apply, Read.val_main_c_apply]
  exact wrap_of_nonneg _ _ h

theorem v19_at (x5 : (⟨1, ![300000]⟩ : Shape).Idx → BitVec 32) (n : Fin 300000) (h : 0 ≤ (x5 (ix1 n)).toInt) :
    Read.val_main_v19 (F := Ideal) x5 (ix2 n (0 : Fin 1)) = x5 (ix1 n) := by
  have e : Read.idx_main_v19 (ix2 n (0 : Fin 1)) = ix1 n := funext fun a => by match a with | ⟨0, _⟩ => rfl
  rw [Read.val_main_v19_apply, e, Read.val_main_v18_apply, Read.val_main_v15_apply, Read.val_main_v17_apply,
    Read.val_main_v14_apply, Read.val_main_c_1_apply]
  exact wrap_of_nonneg _ _ h

/-- The weights broadcast along the rows read, at (n, q), the weight of entry n. -/
theorem v8_at (x3 : (⟨1, ![300000]⟩ : Shape).Idx → EReal) (n : Fin 300000) (q : Fin 256) :
    Read.val_main_v8 (F := Ideal) x3 (ix2 n q) = x3 (ix1 n) := by
  rw [Read.val_main_v8_apply, Read.val_main_v0_apply]
  exact congrArg x3 (funext fun a => by match a with | ⟨0, _⟩ => rfl)

theorem v21_at (x6 : (⟨1, ![300000]⟩ : Shape).Idx → EReal) (n : Fin 300000) (q : Fin 256) :
    Read.val_main_v21 (F := Ideal) x6 (ix2 n q) = x6 (ix1 n) := by
  rw [Read.val_main_v21_apply, Read.val_main_v13_apply]
  exact congrArg x6 (funext fun a => by match a with | ⟨0, _⟩ => rfl)

/-- The tables the scatters accumulate into are zero: the broadcast of the zero word's value. -/
theorem v10_zero (i : (⟨2, ![20000, 256]⟩ : Shape).Idx) : (Read.val_main_v10 (F := Ideal) i : EReal) = 0 := by
  rw [Read.val_main_v10_apply, Read.val_main_cst_apply]
  exact Ideal.ofBits_zero_f32

theorem v23_zero (i : (⟨2, ![100000, 256]⟩ : Shape).Idx) : (Read.val_main_v23 (F := Ideal) i : EReal) = 0 := by
  rw [Read.val_main_v23_apply, Read.val_main_cst_3_apply]
  exact Ideal.ofBits_zero_f32

/-! ## The two hops of the program -/

/-- The first hop's table (20000 rows) at (r, q) is the specification's hop over the 100000-row input table. -/
theorem hop1 (x0 : (⟨2, ![100000, 256]⟩ : Shape).Idx → EReal)
    (x1 x2 : (⟨1, ![300000]⟩ : Shape).Idx → BitVec 32) (x3 : (⟨1, ![300000]⟩ : Shape).Idx → EReal)
    (h2 : ColsIn 100000 x2) (r : Fin 20000) (q : Fin 256) :
    Read.val_main_v12 (F := Ideal) x0 x1 x2 x3 (ix2 r q)
      = hop (vecN x1 0) (vecN x2 0) (vecN x3 0) (matN 100000 x0) r.val q.val := by
  unfold Read.val_main_v12 Host.scatterAdd
  rw [Ideal.hostScatterAdd_def]
  exact hop_eq scatter_S20000x256_S300000x1_S300000x256_1_0_0_1 rfl rfl rfl rfl
    gather_S100000x256_S300000x1_S300000x256_1_0_n_n_0_1_1256 rfl rfl rfl rfl rfl
    x1 x2 x3 x0 (Read.val_main_v10 (F := Ideal)) v10_zero
    (Read.val_main_v11 (F := Ideal) x1) (Read.val_main_v6 (F := Ideal) x2) (v11_at x1) (fun n => v6_at x2 n (h2 n).1)
    (Read.val_main_v8 (F := Ideal) x3) (Read.val_main_v9 (F := Ideal) x0 x2 x3) (v8_at x3)
    (fun n q => by rw [Read.val_main_v9_apply, Ideal.mulf_def]; unfold Read.val_main_v7; rfl) h2 r q

/-- The second hop's table (100000 rows) at (r, q) is the specification's hop over the first hop's table: the second
    hop reads the first table only at the rows its column words name, all below 20000, where the first table is the
    specification's first hop. -/
theorem hop2 (x0 : (⟨2, ![100000, 256]⟩ : Shape).Idx → EReal)
    (x1 x2 : (⟨1, ![300000]⟩ : Shape).Idx → BitVec 32) (x3 : (⟨1, ![300000]⟩ : Shape).Idx → EReal)
    (x4 x5 : (⟨1, ![300000]⟩ : Shape).Idx → BitVec 32) (x6 : (⟨1, ![300000]⟩ : Shape).Idx → EReal)
    (h2 : ColsIn 100000 x2) (h5 : ColsIn 20000 x5) (r : Fin 100000) (q : Fin 256) :
    Read.val_main_v25 (F := Ideal) x0 x1 x2 x3 x4 x5 x6 (ix2 r q)
      = hop (vecN x4 0) (vecN x5 0) (vecN x6 0)
          (hop (vecN x1 0) (vecN x2 0) (vecN x3 0) (matN 100000 x0)) r.val q.val := by
  have e : Read.val_main_v25 (F := Ideal) x0 x1 x2 x3 x4 x5 x6 (ix2 r q)
      = hop (vecN x4 0) (vecN x5 0) (vecN x6 0) (matN 20000 (Read.val_main_v12 (F := Ideal) x0 x1 x2 x3)) r.val q.val := by
    unfold Read.val_main_v25 Host.scatterAdd
    rw [Ideal.hostScatterAdd_def]
    exact hop_eq scatter_S100000x256_S300000x1_S300000x256_1_0_0_1 rfl rfl rfl rfl
      gather_S20000x256_S300000x1_S300000x256_1_0_n_n_0_1_1256 rfl rfl rfl rfl rfl
      x4 x5 x6 (Read.val_main_v12 (F := Ideal) x0 x1 x2 x3) (Read.val_main_v23 (F := Ideal)) v23_zero
      (Read.val_main_v24 (F := Ideal) x4) (Read.val_main_v19 (F := Ideal) x5) (v24_at x4) (fun n => v19_at x5 n (h5 n).1)
      (Read.val_main_v21 (F := Ideal) x6) (Read.val_main_v22 (F := Ideal) x0 x1 x2 x3 x5 x6) (v21_at x6)
      (fun n q => by rw [Read.val_main_v22_apply, Ideal.mulf_def]; unfold Read.val_main_v20; rfl) h5 r q
  refine e.trans (hop_congr _ _ _ _ _ _ _ (fun n hn => ?_))
  rw [vecN_of_lt x5 0 hn]
  obtain ⟨hc0, hc1⟩ := h5 ⟨n, hn⟩
  have hlt : (x5 (ix1 ⟨n, hn⟩)).toNat < 20000 := by have := toNat_of_nonneg _ hc0; omega
  rw [matN_of_lt 20000 _ hlt q.isLt]
  exact hop1 x0 x1 x2 x3 h2 ⟨_, hlt⟩ ⟨q.val, q.isLt⟩

/-- The program's result is the specification's, when the column words of both lists name rows of their tables. -/
theorem val25_eq_result (x0 : (⟨2, ![100000, 256]⟩ : Shape).Idx → EReal)
    (x1 x2 : (⟨1, ![300000]⟩ : Shape).Idx → BitVec 32) (x3 : (⟨1, ![300000]⟩ : Shape).Idx → EReal)
    (x4 x5 : (⟨1, ![300000]⟩ : Shape).Idx → BitVec 32) (x6 : (⟨1, ![300000]⟩ : Shape).Idx → EReal)
    (h2 : ColsIn 100000 x2) (h5 : ColsIn 20000 x5) :
    Read.val_main_v25 (F := Ideal) x0 x1 x2 x3 x4 x5 x6 = result x0 x1 x2 x3 x4 x5 x6 := by
  funext j
  obtain ⟨r, q, rfl⟩ : ∃ (r : Fin 100000) (q : Fin 256), j = ix2 r q := ⟨j 0, j 1, eq_ix2 j⟩
  exact hop2 x0 x1 x2 x3 x4 x5 x6 h2 h5 r q

end Program

/-! ## The run -/

open Idealize.ShloMosaic.TcCoe in
/-- Every weakly fair execution of the reference program ends with its result buffer at the specification's two-hop
    propagation of its seven arguments and with the arguments unchanged, when the column words of the two coordinate
    lists name rows of the tables they index: the run's composed term is the last stage's value, which is the
    specification's result. -/
theorem run_spec (m : (ℓ : Loc nD τ sig) → Buf (Elt Ideal) ℓ) (ρ : Dev nD → PrngReg)
    (h2 : ∀ c : Dev nD, ColsIn 100000 (m ((c.tc : Thread nD τ).loc main_arg2)))
    (h5 : ∀ c : Dev nD, ColsIn 20000 (m ((c.tc : Thread nD τ).loc main_arg5))) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
        r.2.mem ((c.tc : Thread nD τ).loc main_v25)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run Cert.ReferenceIdeal.defs _ _).mono
    (fun _ h c => ⟨(h c).1.trans ((Read.val_main_v25_eq _ _ _ _ _ _ _).trans
        (val25_eq_result _ _ _ _ _ _ _ (h2 c) (h5 c))), (h c).2⟩)
    (Cert.ReferenceIdeal.Value.run (F := Ideal) m ρ)

end Cert.ReferenceIdeal.RefValue

end
-- ==== Proof.PreFacts.lean ====
/-
  The precondition, decoded.  The precondition is one scalar: the conjunction of five tests, each an
  and-reduction over a whole array — three finiteness tests of the float inputs, then (column words of the first
  coordinate list ≥ 0 and < 100000) and (column words of the second coordinate list ≥ 0 and < 20000), every compare
  signed.  It is stated to be 1.  A conjunction that is 1 has every conjunct 1; an and-reduction that is 1 met a 1 at
  every element; a signed compare that is 1 says its order relation of the two words read as signed integers.  So every
  column word of the first list lies in [0, 100000) and every column word of the second in [0, 20000).
-/
import proofs.«402914_j8864812499579_1_alg».proof.Pre_finite_inputs
import proofs.«402914_j8864812499579_1_alg».proof.Proof.Gen.Pre_finite_inputs
import proofs.«402914_j8864812499579_1_alg».proof.Proof.Spec
import Idealize.ShloMosaic.Lib.ValueIdx
import Idealize.ShloMosaic.Lib.Affine
import Idealize.ShloMosaic.Lib.ReduceAll
import Idealize.ShloMosaic.Lib.StableHlo.Predicate

namespace Cert.PreFacts

open Idealize.ShloMosaic Idealize.ShloMosaic.ValueIdx
open Cert.Pre_finite_inputs Cert.Pre_finite_inputs.Facts

/-- The rank-0 shape has one index. -/
instance subsingleton_S_Idx : Subsingleton S_.Idx := ⟨fun a b => funext fun d => d.elim0⟩

/-- At one word: the conjunction of the two signed compares (w ≥ 0 and w < C, C a small literal) being 1 says that
    w, read signed, lies in [0, C). -/
theorem range_of_word (w : BitVec 32) (C : ℕ) (hC : C < 2 ^ 31)
    (h : IntOp.andi (IntOp.cmpi .sge w 0#32) (IntOp.cmpi .slt w (BitVec.ofNat 32 C)) = 1#1) :
    0 ≤ w.toInt ∧ w.toInt < (C : ℤ) := by
  obtain ⟨h0, h1⟩ := IntOp.andi_eq_one.1 h
  rw [IntOp.cmpi_sge, show (0#32 : BitVec 32).toInt = 0 from by decide] at h0
  rw [IntOp.cmpi_slt, StableHlo.Predicate.toInt_ofNat_small C hC] at h1
  exact ⟨h0, h1⟩

/-- One range conjunct of the precondition: the and-reduction, over the whole vector, of (cols ≥ 0) and (cols < C)
    being 1 says every word of cols lies in [0, C).  A reduction by and that comes out 1 met a 1 at every element; at
    element n the two broadcast constants read 0 and C, and the element is the conjunction of the two compares of
    cols[n]. -/
theorem colsIn_of_all [Facts] (cols : IVec S300000 32) (C : ℕ) (hC : C < 2 ^ 31)
    (h : Host.reduce IntOp.andi
        (andi (cmpi .sge cols (broadcastInDim S300000 ![] bcast_S_S300000 (constantI S_ 32 0#32)))
          (cmpi .slt cols (broadcastInDim S300000 ![] bcast_S_S300000 (constantI S_ 32 (BitVec.ofNat 32 C)))))
        (constantI S_ 1 1#1) reducesTo_S300000_S_d0 h_S_ ix0 = 1#1) :
    Cert.Spec.ColsIn C cols := by
  intro n
  have hn := Host.reduce_andi_all _ _ _ _ _ h (ix1 n)
  exact range_of_word (cols (ix1 n)) C hC hn

/-- THE PRECONDITION DECODED: its last two conjuncts say that the column words of the first coordinate list name rows
    of a 100000-row table and those of the second name rows of a 20000-row table.  The precondition is a conjunction
    of five scalars (three finiteness tests, then the two range tests); it is 1, so each conjunct is 1. -/
theorem cols_of_pre {F : FTy → Type} [FloatOps F] [hP : Cert.Pre_finite_inputs.Facts]
    (a0 : FVec F Cert.Pre_finite_inputs.S100000x256 .f32) (a1 a2 : IVec Cert.Pre_finite_inputs.S300000 32) (a3 : FVec F Cert.Pre_finite_inputs.S300000 .f32)
    (a4 a5 : IVec Cert.Pre_finite_inputs.S300000 32) (a6 : FVec F Cert.Pre_finite_inputs.S300000 .f32)
    (h : Cert.Pre_finite_inputs.fn (F := F) a0 a1 a2 a3 a4 a5 a6 = fun _ => 1#1) :
    Cert.Spec.ColsIn 100000 a2 ∧ Cert.Spec.ColsIn 20000 a5 := by
  have e := congrFun h ValueIdx.ix0
  dsimp only [Cert.Pre_finite_inputs.fn, Cert.Pre_finite_inputs.fn_part1] at e
  obtain ⟨e4, e5⟩ := IntOp.andi_eq_one.1 e
  obtain ⟨-, e3⟩ := IntOp.andi_eq_one.1 e4
  exact ⟨colsIn_of_all a2 100000 (by decide) e3, colsIn_of_all a5 20000 (by decide) e5⟩

end Cert.PreFacts
-- ==== Proof.HostVals.lean ====
/-
  What the host operations around the four calls leave in the buffers the calls read, on extended reals.

  Before call 0 each index vector of the first coordinate list (300000 words) is padded with 32 copies of the word -1
  and laid as the one row of a [1, 300032] array; the weight vector likewise with zeros; the dense [100000, 256] table is
  padded with 352 zero rows (the change of float format that follows is the identity on extended reals).  So such a row
  reads, at column n, the list's entry n when n < 300000 and the padding value (the word -1, or 0) from there on, and the
  padded table reads, at row r, the table's row r when r < 100000 and zero below.  Call 0 may change main_v8 only, call 1
  main_v9 only.  Between call 1 and call 2 the same is done with the second coordinate list, and the table call 2 reads
  is the first 20000 rows of what call 1 left in main_v9, padded again with 480 zero rows.  Call 2 may change main_v19
  only, call 3 main_v20 only; the result main_v21 is the first 100000 rows of what call 3 left in main_v20.

  Each statement is proved in two steps: the buffer's contents as a function (a buffer a stretch of host operations does
  not write keeps its contents; a buffer it writes holds the operation's value of its operands' contents), then that
  function read at an index (a pad inside and outside its operand, a reshape that adds a leading unit axis, a slice at
  offset zero).
-/
import proofs.«402914_j8864812499579_1_alg».proof.Proof.Gen.KernelIdeal.Regions
import proofs.«402914_j8864812499579_1_alg».proof.Proof.Spec
import Idealize.ShloMosaic.Lib.KernelVsHost
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostVals

open Cert.KernelIdeal Cert.KernelIdeal.Gen
open Idealize.ShloMosaic Idealize.ShloMosaic.TcCoe Idealize.ShloMosaic.ValueIdx Idealize.SL.Sem

/-! ## The layout operations read at an index -/

section Layout
variable {α : Type}

/-- A length-300000 vector padded with 32 entries at its end and laid as the one row of a [1, 300032] array reads, at
    column n, the vector's entry n when n < 300000 and the padding value from there on. -/
theorem padRow_apply (x : S300000.Idx → α) (v : S_.Idx → α) (n : Fin 300032) :
    shapeCast S1x300032 (pad S300032 ![0] ![32] ![0] x v Gen.pads_S300000_S300032_0320 Gen.h_S_)
        Gen.shapeCasts_S300032_S1x300032 (ix2 (0 : Fin 1) n)
      = if h : n.val < 300000 then x (ix1 ⟨n.val, h⟩) else v ix0 := by
  refine (shapeCast_a_1a_apply _ Gen.shapeCasts_S300032_S1x300032 (0 : Fin 1) n).trans ?_
  by_cases h : n.val < 300000
  · rw [dif_pos h]
    exact pad_apply_of_inside _ _ _ x v Gen.pads_S300000_S300032_0320 Gen.h_S_ (ix1 n) (ix1 ⟨n.val, h⟩) (fun a => by
      match a with
      | ⟨0, _⟩ => show n.val = 0 + n.val * (0 + 1); omega)
  · rw [dif_neg h]
    refine (pad_apply_of_not_inside _ _ _ x v Gen.pads_S300000_S300032_0320 Gen.h_S_ (ix1 n) (0 : Fin 1) (fun hin => h ?_)).trans
      (congrArg v (Subsingleton.elim _ _))
    have h3 : (n.val - 0) / (0 + 1) < 300000 := hin.2.2
    omega

/-- A [100000, 256] table padded with 352 zero rows at its end reads, at (r, d), the table's entry when r < 100000 and the
    padding value below. -/
theorem padRows100352_apply (x : S100000x256.Idx → α) (v : S_.Idx → α) (r : Fin 100352) (d : Fin 256) :
    pad S100352x256 ![0, 0] ![352, 0] ![0, 0] x v Gen.pads_S100000x256_S100352x256_03520_000 Gen.h_S_ (ix2 r d)
      = if h : r.val < 100000 then x (ix2 ⟨r.val, h⟩ d) else v ix0 := by
  by_cases h : r.val < 100000
  · rw [dif_pos h]
    exact pad_apply_of_inside _ _ _ x v Gen.pads_S100000x256_S100352x256_03520_000 Gen.h_S_ (ix2 r d) (ix2 ⟨r.val, h⟩ d) (fun a => by
      match a with
      | ⟨0, _⟩ => show r.val = 0 + r.val * (0 + 1); omega
      | ⟨1, _⟩ => show d.val = 0 + d.val * (0 + 1); omega)
  · rw [dif_neg h]
    refine (pad_apply_of_not_inside _ _ _ x v Gen.pads_S100000x256_S100352x256_03520_000 Gen.h_S_ (ix2 r d) (0 : Fin 2) (fun hin => h ?_)).trans
      (congrArg v (Subsingleton.elim _ _))
    have h3 : (r.val - 0) / (0 + 1) < 100000 := hin.2.2
    omega

/-- A [20000, 256] table padded with 480 zero rows at its end reads, at (r, d), the table's entry when r < 20000 and the
    padding value below. -/
theorem padRows20480_apply (x : S20000x256.Idx → α) (v : S_.Idx → α) (r : Fin 20480) (d : Fin 256) :
    pad S20480x256 ![0, 0] ![480, 0] ![0, 0] x v Gen.pads_S20000x256_S20480x256_04800_000 Gen.h_S_ (ix2 r d)
      = if h : r.val < 20000 then x (ix2 ⟨r.val, h⟩ d) else v ix0 := by
  by_cases h : r.val < 20000
  · rw [dif_pos h]
    exact pad_apply_of_inside _ _ _ x v Gen.pads_S20000x256_S20480x256_04800_000 Gen.h_S_ (ix2 r d) (ix2 ⟨r.val, h⟩ d) (fun a => by
      match a with
      | ⟨0, _⟩ => show r.val = 0 + r.val * (0 + 1); omega
      | ⟨1, _⟩ => show d.val = 0 + d.val * (0 + 1); omega)
  · rw [dif_neg h]
    refine (pad_apply_of_not_inside _ _ _ x v Gen.pads_S20000x256_S20480x256_04800_000 Gen.h_S_ (ix2 r d) (0 : Fin 2) (fun hin => h ?_)).trans
      (congrArg v (Subsingleton.elim _ _))
    have h3 : (r.val - 0) / (0 + 1) < 20000 := hin.2.2
    omega

/-- The first 20000 rows of a [20480, 256] table, read at (r, d): the table at (r, d). -/
theorem sliceRows20000_apply (x : S20480x256.Idx → α) (r : Fin 20000) (d : Fin 256) :
    extractStridedSlice S20000x256 ![0, 0] x Gen.slices_S20480x256_S20000x256_0_0 (ix2 r d) = x (ix2 ⟨r.val, by omega⟩ d) :=
  extractStridedSlice_apply _ x Gen.slices_S20480x256_S20000x256_0_0 (ix2 r d) (ix2 ⟨r.val, by omega⟩ d) (fun a => by
    match a with
    | ⟨0, _⟩ => show r.val = 0 + r.val; omega
    | ⟨1, _⟩ => show d.val = 0 + d.val; omega)

/-- The first 100000 rows of a [100352, 256] table, read at (r, d): the table at (r, d). -/
theorem sliceRows100000_apply (x : S100352x256.Idx → α) (r : Fin 100000) (d : Fin 256) :
    extractStridedSlice S100000x256 ![0, 0] x Gen.slices_S100352x256_S100000x256_0_0 (ix2 r d) = x (ix2 ⟨r.val, by omega⟩ d) :=
  extractStridedSlice_apply _ x Gen.slices_S100352x256_S100000x256_0_0 (ix2 r d) (ix2 ⟨r.val, by omega⟩ d) (fun a => by
    match a with
    | ⟨0, _⟩ => show r.val = 0 + r.val; omega
    | ⟨1, _⟩ => show d.val = 0 + d.val; omega)

end Layout

/-! ## The buffers the first two calls read -/

section Vals

variable (m : (ℓ : Loc nD τ sig) → Buf (Elt Ideal) ℓ) (outs : Outs (F := Ideal)) (c : Dev nD)

/-- Before call 0, main_v1 holds the first list's column words padded and laid as a row. -/
theorem V9_v1_eq : (V9 m c main_v1 : S1x300032.Idx → BitVec 32)
    = shapeCast S1x300032 (pad S300032 ![0] ![32] ![0] (m ((c.tc : Thread nD τ).loc main_arg2) : S300000.Idx → BitVec 32)
        (constantI S_ 32 4294967295#32) Gen.pads_S300000_S300032_0320 Gen.h_S_) Gen.shapeCasts_S300032_S1x300032 := by
  rw [V9_of m c main_v1 (by decide), V8_of m c main_v1 (by decide), V7_of m c main_v1 (by decide), V6_of m c main_v1 (by decide),
    V5_of m c main_v1 (by decide), V4_of m c main_v1 (by decide)]
  show StableHlo.after hostOps0_2 (V2 m c) (Proc.devRef .tc main_v1) = _
  after_results
  rfl

theorem V9_v1 (n : Fin 300032) : (V9 m c main_v1 : S1x300032.Idx → BitVec 32) (ix2 (0 : Fin 1) n)
    = if h : n.val < 300000 then (m ((c.tc : Thread nD τ).loc main_arg2) : S300000.Idx → BitVec 32) (ix1 ⟨n.val, h⟩)
      else 4294967295#32 := by
  rw [V9_v1_eq, padRow_apply]
  rfl

/-- Before call 0, main_v3 holds the first list's weights padded with zeros and laid as a row. -/
theorem V9_v3_eq : (V9 m c main_v3 : S1x300032.Idx → EReal)
    = shapeCast S1x300032 (pad S300032 ![0] ![32] ![0] (m ((c.tc : Thread nD τ).loc main_arg3) : S300000.Idx → EReal)
        (constant (F := Ideal) S_ .f32 0x00000000#32) Gen.pads_S300000_S300032_0320 Gen.h_S_) Gen.shapeCasts_S300032_S1x300032 := by
  rw [V9_of m c main_v3 (by decide), V8_of m c main_v3 (by decide), V7_of m c main_v3 (by decide), V6_of m c main_v3 (by decide)]
  show StableHlo.after hostOps0_4 (V4 m c) (Proc.devRef .tc main_v3) = _
  after_results
  rfl

theorem V9_v3 (n : Fin 300032) : (V9 m c main_v3 : S1x300032.Idx → EReal) (ix2 (0 : Fin 1) n)
    = if h : n.val < 300000 then (m ((c.tc : Thread nD τ).loc main_arg3) : S300000.Idx → EReal) (ix1 ⟨n.val, h⟩)
      else (0 : EReal) := by
  rw [V9_v3_eq, padRow_apply]
  by_cases h : n.val < 300000
  · rw [dif_pos h, dif_pos h]
  · rw [dif_neg h, dif_neg h, constant_apply, Ideal.ofBits_zero_f32]

/-- Before call 0, main_v5 holds the first list's row words padded and laid as a row. -/
theorem V9_v5_eq : (V9 m c main_v5 : S1x300032.Idx → BitVec 32)
    = shapeCast S1x300032 (pad S300032 ![0] ![32] ![0] (m ((c.tc : Thread nD τ).loc main_arg1) : S300000.Idx → BitVec 32)
        (constantI S_ 32 4294967295#32) Gen.pads_S300000_S300032_0320 Gen.h_S_) Gen.shapeCasts_S300032_S1x300032 := by
  rw [V9_of m c main_v5 (by decide), V8_of m c main_v5 (by decide)]
  show StableHlo.after hostOps0_6 (V6 m c) (Proc.devRef .tc main_v5) = _
  after_results
  rfl

theorem V9_v5 (n : Fin 300032) : (V9 m c main_v5 : S1x300032.Idx → BitVec 32) (ix2 (0 : Fin 1) n)
    = if h : n.val < 300000 then (m ((c.tc : Thread nD τ).loc main_arg1) : S300000.Idx → BitVec 32) (ix1 ⟨n.val, h⟩)
      else 4294967295#32 := by
  rw [V9_v5_eq, padRow_apply]
  rfl

/-- Before call 0, main_v7 holds the dense table padded with zero rows (the change of format is the identity on
    extended reals). -/
theorem V9_v7_eq : (V9 m c main_v7 : S100352x256.Idx → EReal)
    = truncf .bf16 (pad S100352x256 ![0, 0] ![352, 0] ![0, 0] (m ((c.tc : Thread nD τ).loc main_arg0) : S100000x256.Idx → EReal)
        (constant (F := Ideal) S_ .f32 0x00000000#32) Gen.pads_S100000x256_S100352x256_03520_000 Gen.h_S_ : FVec Ideal S100352x256 .f32)
        Gen.bitsLt_bf16_f32 := by
  show StableHlo.after hostOps0_8 (V8 m c) (Proc.devRef .tc main_v7) = _
  after_results
  rfl

theorem V9_v7 (r : Fin 100352) (d : Fin 256) : (V9 m c main_v7 : S100352x256.Idx → EReal) (ix2 r d)
    = if h : r.val < 100000 then (m ((c.tc : Thread nD τ).loc main_arg0) : S100000x256.Idx → EReal) (ix2 ⟨r.val, h⟩ d)
      else (0 : EReal) := by
  rw [V9_v7_eq, truncf_apply, padRows100352_apply]
  by_cases h : r.val < 100000
  · rw [dif_pos h, dif_pos h]
  · rw [dif_neg h, dif_neg h, constant_apply, Ideal.ofBits_zero_f32]

/-- Call 0 may change main_v8 only: main_v5 is as before it, and main_v8 is what the call leaves. -/
theorem V10_v5 : V10 m outs c main_v5 = V9 m c main_v5 := V10_of m outs c main_v5 (by decide)
theorem V10_v8 : V10 m outs c main_v8 = outs 10 main_v8 c := Function.update_self _ _ _

/-! ## The buffers the last two calls read, and the result -/

/-- The arguments reach the second half as launched, and main_v9 is what call 1 leaves. -/
theorem V11_arg4 : V11 m outs c (Proc.devRef .tc main_arg4) = m ((c.tc : Thread nD τ).loc main_arg4) :=
  (V11_of m outs c main_arg4 (by decide)).trans <| (V10_of m outs c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem V11_arg5 : V11 m outs c (Proc.devRef .tc main_arg5) = m ((c.tc : Thread nD τ).loc main_arg5) :=
  (V11_of m outs c main_arg5 (by decide)).trans <| (V10_of m outs c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem V11_arg6 : V11 m outs c (Proc.devRef .tc main_arg6) = m ((c.tc : Thread nD τ).loc main_arg6) :=
  (V11_of m outs c main_arg6 (by decide)).trans <| (V10_of m outs c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem V11_v9 : V11 m outs c (Proc.devRef .tc main_v9) = outs 11 main_v9 c := Function.update_self _ _ _

/-- The host stretches between call 1 and call 2, from any contents W: main_v12 is W's main_arg5 padded and laid as a row. -/
theorem mid_v12 (W : Valuation τ sig (Elt Ideal)) :
    (StableHlo.after hostOps2_2 (StableHlo.after hostOps2_1 (StableHlo.after hostOps2 W)) (Proc.devRef .tc main_v12) : S1x300032.Idx → BitVec 32)
    = shapeCast S1x300032 (pad S300032 ![0] ![32] ![0] (W (Proc.devRef .tc main_arg5) : S300000.Idx → BitVec 32)
        (constantI S_ 32 4294967295#32) Gen.pads_S300000_S300032_0320 Gen.h_S_) Gen.shapeCasts_S300032_S1x300032 := by
  after_results
  rfl

theorem V20_v12_eq : (V20 m outs c main_v12 : S1x300032.Idx → BitVec 32)
    = shapeCast S1x300032 (pad S300032 ![0] ![32] ![0] (m ((c.tc : Thread nD τ).loc main_arg5) : S300000.Idx → BitVec 32)
        (constantI S_ 32 4294967295#32) Gen.pads_S300000_S300032_0320 Gen.h_S_) Gen.shapeCasts_S300032_S1x300032 := by
  rw [V20_of m outs c main_v12 (by decide), V19_of m outs c main_v12 (by decide), V18_of m outs c main_v12 (by decide),
    V17_of m outs c main_v12 (by decide), V16_of m outs c main_v12 (by decide), V15_of m outs c main_v12 (by decide)]
  refine (mid_v12 (V11 m outs c)).trans ?_
  rw [V11_arg5]

theorem V20_v12 (n : Fin 300032) : (V20 m outs c main_v12 : S1x300032.Idx → BitVec 32) (ix2 (0 : Fin 1) n)
    = if h : n.val < 300000 then (m ((c.tc : Thread nD τ).loc main_arg5) : S300000.Idx → BitVec 32) (ix1 ⟨n.val, h⟩)
      else 4294967295#32 := by
  rw [V20_v12_eq, padRow_apply]
  rfl

/-- From any contents W: main_v14 is W's main_arg6 padded with zeros and laid as a row. -/
theorem mid_v14 (W : Valuation τ sig (Elt Ideal)) :
    (StableHlo.after hostOps2_4 (StableHlo.after hostOps2_3 (StableHlo.after hostOps2_2 (StableHlo.after hostOps2_1 (StableHlo.after hostOps2 W))))
        (Proc.devRef .tc main_v14) : S1x300032.Idx → EReal)
    = shapeCast S1x300032 (pad S300032 ![0] ![32] ![0] (W (Proc.devRef .tc main_arg6) : S300000.Idx → EReal)
        (constant (F := Ideal) S_ .f32 0x00000000#32) Gen.pads_S300000_S300032_0320 Gen.h_S_) Gen.shapeCasts_S300032_S1x300032 := by
  after_results
  rfl

theorem V20_v14_eq : (V20 m outs c main_v14 : S1x300032.Idx → EReal)
    = shapeCast S1x300032 (pad S300032 ![0] ![32] ![0] (m ((c.tc : Thread nD τ).loc main_arg6) : S300000.Idx → EReal)
        (constant (F := Ideal) S_ .f32 0x00000000#32) Gen.pads_S300000_S300032_0320 Gen.h_S_) Gen.shapeCasts_S300032_S1x300032 := by
  rw [V20_of m outs c main_v14 (by decide), V19_of m outs c main_v14 (by decide), V18_of m outs c main_v14 (by decide),
    V17_of m outs c main_v14 (by decide)]
  refine (mid_v14 (V11 m outs c)).trans ?_
  rw [V11_arg6]

theorem V20_v14 (n : Fin 300032) : (V20 m outs c main_v14 : S1x300032.Idx → EReal) (ix2 (0 : Fin 1) n)
    = if h : n.val < 300000 then (m ((c.tc : Thread nD τ).loc main_arg6) : S300000.Idx → EReal) (ix1 ⟨n.val, h⟩)
      else (0 : EReal) := by
  rw [V20_v14_eq, padRow_apply]
  by_cases h : n.val < 300000
  · rw [dif_pos h, dif_pos h]
  · rw [dif_neg h, dif_neg h, constant_apply, Ideal.ofBits_zero_f32]

/-- From any contents W: main_v16 is W's main_arg4 padded and laid as a row. -/
theorem mid_v16 (W : Valuation τ sig (Elt Ideal)) :
    (StableHlo.after hostOps2_6 (StableHlo.after hostOps2_5 (StableHlo.after hostOps2_4 (StableHlo.after hostOps2_3 (StableHlo.after hostOps2_2
        (StableHlo.after hostOps2_1 (StableHlo.after hostOps2 W)))))) (Proc.devRef .tc main_v16) : S1x300032.Idx → BitVec 32)
    = shapeCast S1x300032 (pad S300032 ![0] ![32] ![0] (W (Proc.devRef .tc main_arg4) : S300000.Idx → BitVec 32)
        (constantI S_ 32 4294967295#32) Gen.pads_S300000_S300032_0320 Gen.h_S_) Gen.shapeCasts_S300032_S1x300032 := by
  after_results
  rfl

theorem V20_v16_eq : (V20 m outs c main_v16 : S1x300032.Idx → BitVec 32)
    = shapeCast S1x300032 (pad S300032 ![0] ![32] ![0] (m ((c.tc : Thread nD τ).loc main_arg4) : S300000.Idx → BitVec 32)
        (constantI S_ 32 4294967295#32) Gen.pads_S300000_S300032_0320 Gen.h_S_) Gen.shapeCasts_S300032_S1x300032 := by
  rw [V20_of m outs c main_v16 (by decide), V19_of m outs c main_v16 (by decide)]
  refine (mid_v16 (V11 m outs c)).trans ?_
  rw [V11_arg4]

theorem V20_v16 (n : Fin 300032) : (V20 m outs c main_v16 : S1x300032.Idx → BitVec 32) (ix2 (0 : Fin 1) n)
    = if h : n.val < 300000 then (m ((c.tc : Thread nD τ).loc main_arg4) : S300000.Idx → BitVec 32) (ix1 ⟨n.val, h⟩)
      else 4294967295#32 := by
  rw [V20_v16_eq, padRow_apply]
  rfl

/-- Call 2 may change main_v19 only. -/
theorem V21_v16 (n : Fin 300032) : (V21 m outs c main_v16 : S1x300032.Idx → BitVec 32) (ix2 (0 : Fin 1) n)
    = if h : n.val < 300000 then (m ((c.tc : Thread nD τ).loc main_arg4) : S300000.Idx → BitVec 32) (ix1 ⟨n.val, h⟩)
      else 4294967295#32 := by
  rw [V21_of m outs c main_v16 (by decide)]
  exact V20_v16 m outs c n
theorem V21_v19 : V21 m outs c main_v19 = outs 21 main_v19 c := Function.update_self _ _ _

/-- From any contents W: main_v18 is the first 20000 rows of W's main_v9, padded again with 480 zero rows (the change of
    format is the identity on extended reals). -/
theorem mid_v18 (W : Valuation τ sig (Elt Ideal)) :
    (StableHlo.after hostOps2_8 (StableHlo.after hostOps2_7 (StableHlo.after hostOps2_6 (StableHlo.after hostOps2_5 (StableHlo.after hostOps2_4
        (StableHlo.after hostOps2_3 (StableHlo.after hostOps2_2 (StableHlo.after hostOps2_1 (StableHlo.after hostOps2 W))))))))
        (Proc.devRef .tc main_v18) : S20480x256.Idx → EReal)
    = truncf .bf16 (pad S20480x256 ![0, 0] ![480, 0] ![0, 0]
        (extractStridedSlice S20000x256 ![0, 0] (W (Proc.devRef .tc main_v9) : S20480x256.Idx → EReal) Gen.slices_S20480x256_S20000x256_0_0)
        (constant (F := Ideal) S_ .f32 0x00000000#32) Gen.pads_S20000x256_S20480x256_04800_000 Gen.h_S_ : FVec Ideal S20480x256 .f32)
        Gen.bitsLt_bf16_f32 := by
  after_results
  rfl

theorem V20_v18 (r : Fin 20480) (d : Fin 256) : (V20 m outs c main_v18 : S20480x256.Idx → EReal) (ix2 r d)
    = if h : r.val < 20000 then (outs 11 main_v9 c : S20480x256.Idx → EReal) (ix2 ⟨r.val, by omega⟩ d) else (0 : EReal) := by
  refine (congrFun (mid_v18 (V11 m outs c)) (ix2 r d)).trans ?_
  rw [V11_v9, truncf_apply, padRows20480_apply]
  by_cases h : r.val < 20000
  · rw [dif_pos h, dif_pos h, sliceRows20000_apply]
  · rw [dif_neg h, dif_neg h, constant_apply, Ideal.ofBits_zero_f32]

/-- The result: main_v21 is the first 100000 rows of what call 3 leaves in main_v20. -/
theorem mid_v21 (W : Valuation τ sig (Elt Ideal)) :
    (StableHlo.after hostOps4 W (Proc.devRef .tc main_v21) : S100000x256.Idx → EReal)
    = extractStridedSlice S100000x256 ![0, 0] (W (Proc.devRef .tc main_v20) : S100352x256.Idx → EReal) Gen.slices_S100352x256_S100000x256_0_0 := by
  after_results

theorem V22_v20 : V22 m outs c (Proc.devRef .tc main_v20) = outs 22 main_v20 c := Function.update_self _ _ _

theorem V23_v21 (r : Fin 100000) (d : Fin 256) : (V23 m outs c main_v21 : S100000x256.Idx → EReal) (ix2 r d)
    = (outs 22 main_v20 c : S100352x256.Idx → EReal) (ix2 ⟨r.val, by omega⟩ d) := by
  refine (congrFun (mid_v21 (V22 m outs c)) (ix2 r d)).trans ?_
  rw [V22_v20, sliceRows100000_apply]

end Vals

end Cert.KernelIdeal.HostVals

end
-- ==== Proof.MsgPay.lean ====
/-
  The message kernels' arithmetic read at one index, at the ideal values.

  Each of the two message kernels works on a block of 1024 stored entries (rows `p`) against a block of 1024 table rows
  (`k`), 256 columns wide (`q`). It forms the 1024 × 1024 matrix whose entry `(p, k)` is `1` where entry `p`'s column
  word equals the word of `cb * 1024 + k` (`cb` the grid point's second coordinate) and `0` elsewhere, multiplies it
  into the table block, scales row `p` by entry `p`'s weight and adds the running block. Read at `(p, q)` that is
      running (p, q) + (∑ k, [cols p = cb * 1024 + k] * table (k, q)) * weight p.
  The steps: a row stood up as a column and copied across reads the row's entry; the compared word is the word of a
  number; the equality bit converted is `1` or `0`; the product into the zero accumulator is the sum over the one
  contracted coordinate; narrowing is the identity on the extended reals.
-/
import proofs.«402914_j8864812499579_1_alg».proof.Proof.Gen.KernelIdeal.Skeleton
import proofs.«402914_j8864812499579_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.MsgPay

open Idealize.ShloMosaic Idealize.ShloMosaic.ValueIdx Cert.KernelIdeal Cert.KernelIdeal.Gen

/-! ## Two layout facts: a vector stood up as a column, and a column copied across the columns of a matrix -/

section Layout
variable {α : Type}

/-- An `[a]` array cast to `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, a]` row read as a vector, stood up as a column and copied across `b` columns reads, at `(p, c)`, the
    row's entry `p`. -/
theorem column_of_row_apply {a b : ℕ} (x : (⟨2, ![1, a]⟩ : Shape).Idx → α)
    (h1 : (⟨2, ![1, a]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ (shapeCast ⟨1, ![a]⟩ x h1) h2) h3 (ix2 p c) = x (ix2 (0 : Fin 1) p) :=
  (broadcastTo_a1_ab_apply _ h3 p c).trans ((shapeCast_a_a1_apply _ h2 p 0).trans (shapeCast_1a_a_apply x h1 p))

end Layout

/-! ## Words: the compared word, and the comparison's bit as a number -/

/-- Block `cb` of 1024 columns, column `k` inside it: the word product and sum are the word of the number
    `cb * 1024 + k` (the words of naturals add and multiply as the naturals do, modulo `2 ^ 32`). -/
theorem word_mul_add (cb k : ℕ) :
    IntOp.addi (Scalar.muli (BitVec.ofNat 32 cb) 1024#32) (BitVec.ofNat 32 k) = BitVec.ofNat 32 (cb * 1024 + k) := by
  show BitVec.ofNat 32 cb * BitVec.ofNat 32 1024 + BitVec.ofNat 32 k = _
  rw [← BitVec.ofNat_mul, ← BitVec.ofNat_add]

/-- The equality bit of two words, widened to a word and converted as a signed integer, is `1` where the words are
    equal and `0` elsewhere. -/
theorem sitofp_eq_bit (x y : BitVec 32) :
    (FloatOps.sitofp .f32 ((IntOp.cmpi .eq x y).setWidth 32) : Ideal .f32) = if x = y then (1 : EReal) else 0 := by
  show ((((IntOp.cmpi .eq x y).setWidth 32).toInt : ℝ) : EReal) = _
  rw [toInt_setWidth_bit]
  by_cases h : x = y
  · subst h; simp [IntOp.cmpi]
  · simp [IntOp.cmpi, h]

/-! ## The matrix product read at an index -/

/-- On the left operand's row axis the operand index is the output's row … -/
theorem lhs_axis0 (j : S1024x256.Idx) (c : dot_S1024x1024_S1024x256_S1024x256_1_0_0_1_n_n.contr.Idx) :
    (dot_S1024x1024_S1024x256_S1024x256_1_0_0_1_n_n.lhsIdx j c 0).val = (j 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
/-- … on its column axis the contracted coordinate; -/
theorem lhs_axis1 (j : S1024x256.Idx) (c : dot_S1024x1024_S1024x256_S1024x256_1_0_0_1_n_n.contr.Idx) :
    (dot_S1024x1024_S1024x256_S1024x256_1_0_0_1_n_n.lhsIdx j c 1).val = (c ⟨0, by decide⟩).val :=
  dot_S1024x1024_S1024x256_S1024x256_1_0_0_1_n_n.lhsIdx_val_of_single rfl j c
/-- on the right operand's row axis the contracted coordinate … -/
theorem rhs_axis0 (j : S1024x256.Idx) (c : dot_S1024x1024_S1024x256_S1024x256_1_0_0_1_n_n.contr.Idx) :
    (dot_S1024x1024_S1024x256_S1024x256_1_0_0_1_n_n.rhsIdx j c 0).val = (c ⟨0, by decide⟩).val :=
  dot_S1024x1024_S1024x256_S1024x256_1_0_0_1_n_n.rhsIdx_val_of_single rfl j c
/-- … and on its column axis the output's column. -/
theorem rhs_axis1 (j : S1024x256.Idx) (c : dot_S1024x1024_S1024x256_S1024x256_1_0_0_1_n_n.contr.Idx) :
    (dot_S1024x1024_S1024x256_S1024x256_1_0_0_1_n_n.rhsIdx j c 1).val = (j 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The product of a 1024 × 1024 by a 1024 × 256 matrix into the zero accumulator, at `(p, q)`: the sum over the
    contracted coordinate `k` of `A (p, k) * B (k, q)`. -/
theorem matmul_at (A : FVec Ideal S1024x1024 .bf16) (B : FVec Ideal S1024x256 .bf16) (p : Fin 1024) (q : Fin 256) :
    matmul dot_S1024x1024_S1024x256_S1024x256_1_0_0_1_n_n none A B (constant (F := Ideal) S1024x256 .f32 0x00000000#32) (ix2 p q)
      = ∑ k : Fin 1024, A (ix2 p k) * B (ix2 k q) := by
  show FloatOps.matmul dot_S1024x1024_S1024x256_S1024x256_1_0_0_1_n_n none A B _ (ix2 p q) = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k :=
    funext fun a => Fin.ext (by
      match a with
      | ⟨0, _⟩ => exact lhs_axis0 _ _
      | ⟨1, _⟩ => exact (lhs_axis1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q :=
    funext fun a => Fin.ext (by
      match a with
      | ⟨0, _⟩ => exact (rhs_axis0 _ _).trans hk
      | ⟨1, _⟩ => exact rhs_axis1 _ _)
  rw [el, er]

/-! ## Kernel 0's two stored blocks -/

/-- The cleared block of kernel 0's first step is the zero block. -/
theorem k0_pay1_apply (j : S1024x256.Idx) : k0_pay1 (F := Ideal) j = 0 := by
  unfold k0_pay1
  rw [shapeCast_self]
  show Ideal.ofBits .f32 0x00000000#32 = 0
  exact Ideal.ofBits_zero_f32

/-- The block kernel 0 stores at a grid point, at `(p, q)`: the running block there, plus the weight of row `p`
    times the sum over the 1024 table rows `k` of the block of (row `p`'s column word is `cb * 1024 + k`, as `1`
    or `0`) times the table block at `(k, q)`, where `cb` is the grid point's second coordinate. -/
theorem k0_pay2_apply (i : grid0.Coords) (v3 : Vec Ideal S1x1024 .i32) (v5 : Vec Ideal S1x1024 .f32)
    (v17 : Vec Ideal S1024x256 .bf16) (v20 : Vec Ideal S1024x256 .f32) (p : Fin 1024) (q : Fin 256) :
    k0_pay2 (F := Ideal) i v3 v5 v17 v20 (ix2 p q)
      = v20 (ix2 p q) + (∑ k : Fin 1024, (if v3 (ix2 0 p) = BitVec.ofNat 32 ((i 1).val * 1024 + k.val) then (1 : EReal) else 0)
          * v17 (ix2 k q)) * v5 (ix2 0 p) := by
  unfold k0_pay2
  rw [shapeCast_self]
  refine (addf_apply _ _ _).trans (congrArg (v20 (ix2 p q) + ·) ?_)
  refine (mulf_apply _ _ _).trans ?_
  rw [shapeCast_self]
  refine congrArg₂ (· * ·) ((matmul_at _ _ p q).trans (Finset.sum_congr rfl fun k _ => congrArg (· * v17 (ix2 k q)) ?_))
    (column_of_row_apply (b := 256) v5 _ _ _ p q)
  refine (truncf_apply (φ := .f32) (ψ := .bf16) _ bitsLt_bf16_f32 (ix2 p k)).trans ?_
  refine (sitofp_apply (F := Ideal) (φ := .f32) _ (ix2 p k)).trans ?_
  refine (congrArg (FloatOps.sitofp (F := Ideal) .f32) (extui_apply _ natLt_1_32 (ix2 p k))).trans ?_
  show (FloatOps.sitofp .f32 ((IntOp.cmpi .eq _ (IntOp.addi _ _)).setWidth 32) : Ideal .f32) = _
  rw [column_of_row_apply (b := 1024) v3 _ _ _ p k, broadcast_apply, iota_single_apply]
  show (FloatOps.sitofp .f32 ((IntOp.cmpi .eq (v3 (ix2 0 p))
    (IntOp.addi (Scalar.muli (BitVec.ofNat 32 (i 1).val) 1024#32) (BitVec.ofNat 32 k.val))).setWidth 32) : Ideal .f32) = _
  rw [word_mul_add, sitofp_eq_bit]

/-! ## Kernel 2's two stored blocks: the same text over the other grid -/

/-- The cleared block of kernel 2's first step is the zero block. -/
theorem k2_pay1_apply (j : S1024x256.Idx) : k2_pay1 (F := Ideal) j = 0 := by
  unfold k2_pay1
  rw [shapeCast_self]
  show Ideal.ofBits .f32 0x00000000#32 = 0
  exact Ideal.ofBits_zero_f32

/-- The block kernel 2 stores at a grid point, at `(p, q)`: the running block there, plus the weight of row `p`
    times the sum over the 1024 table rows `k` of the block of (row `p`'s column word is `cb * 1024 + k`, as `1`
    or `0`) times the table block at `(k, q)`, where `cb` is the grid point's second coordinate. -/
theorem k2_pay2_apply (i : grid2.Coords) (v3 : Vec Ideal S1x1024 .i32) (v5 : Vec Ideal S1x1024 .f32)
    (v17 : Vec Ideal S1024x256 .bf16) (v20 : Vec Ideal S1024x256 .f32) (p : Fin 1024) (q : Fin 256) :
    k2_pay2 (F := Ideal) i v3 v5 v17 v20 (ix2 p q)
      = v20 (ix2 p q) + (∑ k : Fin 1024, (if v3 (ix2 0 p) = BitVec.ofNat 32 ((i 1).val * 1024 + k.val) then (1 : EReal) else 0)
          * v17 (ix2 k q)) * v5 (ix2 0 p) := by
  unfold k2_pay2
  rw [shapeCast_self]
  refine (addf_apply _ _ _).trans (congrArg (v20 (ix2 p q) + ·) ?_)
  refine (mulf_apply _ _ _).trans ?_
  rw [shapeCast_self]
  refine congrArg₂ (· * ·) ((matmul_at _ _ p q).trans (Finset.sum_congr rfl fun k _ => congrArg (· * v17 (ix2 k q)) ?_))
    (column_of_row_apply (b := 256) v5 _ _ _ p q)
  refine (truncf_apply (φ := .f32) (ψ := .bf16) _ bitsLt_bf16_f32 (ix2 p k)).trans ?_
  refine (sitofp_apply (F := Ideal) (φ := .f32) _ (ix2 p k)).trans ?_
  refine (congrArg (FloatOps.sitofp (F := Ideal) .f32) (extui_apply _ natLt_1_32 (ix2 p k))).trans ?_
  show (FloatOps.sitofp .f32 ((IntOp.cmpi .eq _ (IntOp.addi _ _)).setWidth 32) : Ideal .f32) = _
  rw [column_of_row_apply (b := 1024) v3 _ _ _ p k, broadcast_apply, iota_single_apply]
  show (FloatOps.sitofp .f32 ((IntOp.cmpi .eq (v3 (ix2 0 p))
    (IntOp.addi (Scalar.muli (BitVec.ofNat 32 (i 1).val) 1024#32) (BitVec.ofNat 32 k.val))).setWidth 32) : Ideal .f32) = _
  rw [word_mul_add, sitofp_eq_bit]

end Cert.KernelIdeal.MsgPay
end
-- ==== Proof.KSpec.lean ====
/-
  The two stages of one hop as the kernel program computes them over its PADDED operands, each as one function of the
  stage's operand arrays: the message stage (one row of the dense table per stored entry, scaled by the entry's weight;
  a column word that names no row of the padded table selects nothing) and the reduce stage (row r of the result is the
  sum of the messages whose row word is r).  Nothing here mentions a program.
-/
import Idealize.ShloMosaic.PureOps.Ideal
import Idealize.ShloMosaic.Lib.ValueIdx

noncomputable section

open scoped BigOperators

namespace Cert.KSpec

open Idealize.ShloMosaic Idealize.ShloMosaic.ValueIdx

/-- The message stage: entry (n, d) of the 300032 × 256 message table, from the padded column words, the padded
    weights and the padded dense table of C rows. The column word is read as a natural number: a word that is not below
    C (a negative word among them) matches no row, and the entry is zero times the weight. -/
def msgOut (C : ℕ) (cols : (⟨2, ![1, 300032]⟩ : Shape).Idx → BitVec 32) (vals : (⟨2, ![1, 300032]⟩ : Shape).Idx → EReal)
    (dense : (⟨2, ![C, 256]⟩ : Shape).Idx → EReal) : (⟨2, ![300032, 256]⟩ : Shape).Idx → EReal :=
  fun j =>
    (if h : (cols (ix2 (0 : Fin 1) (⟨(j 0).val, idx2_lt0 j⟩ : Fin 300032))).toNat < C then
        dense (ix2 (⟨(cols (ix2 (0 : Fin 1) (⟨(j 0).val, idx2_lt0 j⟩ : Fin 300032))).toNat, h⟩ : Fin C) (⟨(j 1).val, idx2_lt1 j⟩ : Fin 256))
      else 0)
      * vals (ix2 (0 : Fin 1) (⟨(j 0).val, idx2_lt0 j⟩ : Fin 300032))

/-- The reduce stage: entry (r, d) of the R × 256 result: the sum of the messages of the entries whose row word is r. -/
def redOut (R : ℕ) (rows : (⟨2, ![1, 300032]⟩ : Shape).Idx → BitVec 32) (msg : (⟨2, ![300032, 256]⟩ : Shape).Idx → EReal) :
    (⟨2, ![R, 256]⟩ : Shape).Idx → EReal :=
  fun j => ∑ n : Fin 300032,
    if rows (ix2 (0 : Fin 1) n) = BitVec.ofNat 32 (j 0).val then msg (ix2 n (⟨(j 1).val, idx2_lt1 j⟩ : Fin 256)) else 0

end Cert.KSpec

end
-- ==== Proof.Compose.lean ====
/-
  The two hops of the kernel program over its padded operands are the operator's result.

  One stage pair (messages, then their reduction by row word) over the coordinate lists padded from 300000 to 300032
  entries and a dense table padded from Cn to C rows is one hop of the specification: the 32 padding entries carry the
  row word of -1, which is the word of no row below 2 ^ 31, so they add nothing; for a stored entry "the row word is
  the word of r" is "the row word, read signed, is r" (r below 2 ^ 31), its column word names a row below Cn, so the
  message is that row of the table times the weight, which is the hop's weight times that row. The second pair reads
  the first pair's result as its table. Before that, the sums the blockwise kernels meet: a one-hot row against a block
  of 1024 table rows selects one of them, the selections of the blocks add up to the selection from the whole table, and
  a sum over blocks of 1024 is the sum over the whole range.
-/
import proofs.«402914_j8864812499579_1_alg».proof.Proof.Spec
import proofs.«402914_j8864812499579_1_alg».proof.Proof.KSpec
import Idealize.ShloMosaic.Lib.ValueIdx
import Mathlib.Algebra.BigOperators.Fin
import Mathlib.Algebra.BigOperators.Group.Finset.Basic
import Mathlib.Data.EReal.Basic

noncomputable section

open scoped BigOperators

namespace Cert.Compose

open Idealize.ShloMosaic Idealize.ShloMosaic.ValueIdx Cert.Spec Cert.KSpec

/-! ## Words -/

/-- A word is the word of a number below `2 ^ 32` exactly when it reads, unsigned, as that number. -/
theorem word_eq_ofNat_iff_toNat (w : BitVec 32) {m : ℕ} (hm : m < 2 ^ 32) : w = BitVec.ofNat 32 m ↔ w.toNat = m := by
  constructor
  · rintro rfl
    rw [BitVec.toNat_ofNat, Nat.mod_eq_of_lt hm]
  · intro h
    apply BitVec.eq_of_toNat_eq
    rw [BitVec.toNat_ofNat, Nat.mod_eq_of_lt hm]
    exact h

/-- A word is the word of a number below `2 ^ 31` exactly when it reads, signed, as that number. -/
theorem word_eq_ofNat_iff_toInt (w : BitVec 32) {r : ℕ} (hr : r < 2 ^ 31) : w = BitVec.ofNat 32 r ↔ w.toInt = (r : ℤ) := by
  rw [word_eq_ofNat_iff_toNat w (by omega)]
  have e := BitVec.toInt_eq_toNat_cond w
  have := w.isLt
  split at e <;> omega

/-- The word of -1 reads, unsigned, as `2 ^ 32 - 1` … -/
theorem toNat_neg_one : (4294967295#32 : BitVec 32).toNat = 4294967295 := rfl

/-- … so it is the word of no number below `2 ^ 31`. -/
theorem neg_one_ne_ofNat {r : ℕ} (hr : r < 2 ^ 31) : (4294967295#32 : BitVec 32) ≠ BitVec.ofNat 32 r := by
  intro h
  have h2 := (word_eq_ofNat_iff_toNat _ (by omega)).mp h
  rw [toNat_neg_one] at h2
  omega

/-- A word that reads, signed, as a number in `[0, C)` reads, unsigned, below `C`. -/
theorem toNat_lt_of_toInt (w : BitVec 32) {C : ℕ} (h0 : 0 ≤ w.toInt) (h1 : w.toInt < (C : ℤ)) : w.toNat < C := by
  have e := BitVec.toInt_eq_toNat_cond w
  have := w.isLt
  split at e <;> omega

/-! ## The sums of the blockwise kernels -/

/-- A one-hot row against block `b` of 1024 table rows: the row `w - b * 1024` of the block when the word `w` falls in
    the block, and nothing otherwise. -/
theorem sum_onehot_block (w : BitVec 32) (b : ℕ) (hb : b * 1024 + 1024 ≤ 2 ^ 31) (f : Fin 1024 → EReal) :
    ∑ k : Fin 1024, (if w = BitVec.ofNat 32 (b * 1024 + k.val) then (1 : EReal) else 0) * f k
      = if h : b * 1024 ≤ w.toNat ∧ w.toNat < b * 1024 + 1024 then f ⟨w.toNat - b * 1024, by omega⟩ else 0 := by
  have key : ∀ k : Fin 1024, w = BitVec.ofNat 32 (b * 1024 + k.val) ↔ w.toNat = b * 1024 + k.val := fun k =>
    word_eq_ofNat_iff_toNat w (by have := k.isLt; omega)
  by_cases h : b * 1024 ≤ w.toNat ∧ w.toNat < b * 1024 + 1024
  · rw [dif_pos h, Finset.sum_eq_single (⟨w.toNat - b * 1024, by omega⟩ : Fin 1024)]
    · rw [if_pos ((key _).mpr (by show w.toNat = b * 1024 + (w.toNat - b * 1024); omega)), one_mul]
    · intro k _ hk
      rw [if_neg (fun e => hk (Fin.ext (by have := (key k).mp e; show k.val = w.toNat - b * 1024; omega))), zero_mul]
    · intro hn
      exact absurd (Finset.mem_univ _) hn
  · rw [dif_neg h]
    refine Finset.sum_eq_zero fun k _ => ?_
    rw [if_neg (fun e => h (by have := (key k).mp e; have := k.isLt; omega)), zero_mul]

/-- The blocks' selections added up: row `x` is in exactly one block of 1024 when it is below `B * 1024`, in none
    otherwise. -/
theorem sum_block_select (x B : ℕ) (g : ℕ → EReal) (v : EReal) :
    ∑ cb ∈ Finset.range B, (if cb * 1024 ≤ x ∧ x < cb * 1024 + 1024 then g x else 0) * v
      = if x < B * 1024 then g x * v else 0 := by
  by_cases hx : x < B * 1024
  · rw [if_pos hx, Finset.sum_eq_single_of_mem (x / 1024) (Finset.mem_range.mpr (by omega))]
    · rw [if_pos (by omega)]
    · intro cb _ hcb
      rw [if_neg (by omega), zero_mul]
  · rw [if_neg hx]
    refine Finset.sum_eq_zero fun cb hcb => ?_
    have := Finset.mem_range.mp hcb
    rw [if_neg (by omega), zero_mul]

/-- A sum over `B` blocks of 1024 is the sum over the range `B * 1024`. -/
theorem sum_blocks_flat (B : ℕ) (f : ℕ → EReal) :
    ∑ nb ∈ Finset.range B, ∑ k : Fin 1024, f (nb * 1024 + k.val) = ∑ n ∈ Finset.range (B * 1024), f n := by
  induction B with
  | zero => simp
  | succ B ih =>
    have e : (B + 1) * 1024 = B * 1024 + 1024 := by omega
    rw [Finset.sum_range_succ, ih, e, Finset.sum_range_add]
    exact congrArg (∑ n ∈ Finset.range (B * 1024), f n + ·) (Finset.sum_range (fun x => f (B * 1024 + x))).symm

/-! ## A padded coordinate list read at an entry -/

section Padded
variable {α : Type}

/-- A stored entry of a padded list is the list's entry. -/
theorem padded_of_lt {x : (⟨1, ![300000]⟩ : Shape).Idx → α} {xP : (⟨2, ![1, 300032]⟩ : Shape).Idx → α} {pad : α}
    (hx : ∀ n : Fin 300032, xP (ix2 (0 : Fin 1) n) = if h : n.val < 300000 then x (ix1 ⟨n.val, h⟩) else pad)
    (n : Fin 300032) (h : n.val < 300000) (dflt : α) : xP (ix2 (0 : Fin 1) n) = vecN x dflt n.val :=
  (hx n).trans ((dif_pos h).trans (vecN_of_lt x dflt h).symm)

/-- A padding entry of a padded list is the padding value. -/
theorem padded_of_ge {x : (⟨1, ![300000]⟩ : Shape).Idx → α} {xP : (⟨2, ![1, 300032]⟩ : Shape).Idx → α} {pad : α}
    (hx : ∀ n : Fin 300032, xP (ix2 (0 : Fin 1) n) = if h : n.val < 300000 then x (ix1 ⟨n.val, h⟩) else pad)
    (n : Fin 300032) (h : 300000 ≤ n.val) : xP (ix2 (0 : Fin 1) n) = pad :=
  (hx n).trans (dif_neg (by omega))

end Padded

/-- A sum over the 300032 padded entries whose 32 padding terms vanish is the sum over the 300000 stored ones. -/
theorem sum_padded (F : Fin 300032 → EReal) (hz : ∀ n : Fin 300032, 300000 ≤ n.val → F n = 0) :
    ∑ n : Fin 300032, F n = ∑ n : Fin 300000, F ⟨n.val, by omega⟩ := by
  refine (Fin.sum_univ_add (a := 300000) (b := 32) F).trans ?_
  rw [Finset.sum_eq_zero (s := Finset.univ) (f := fun i : Fin 32 => F (Fin.natAdd 300000 i))
    (fun i _ => hz _ (by show 300000 ≤ 300000 + i.val; omega)), add_zero]
  rfl

/-! ## One stage pair is one hop -/

/-- The messages over padded lists and a padded table of `C` rows, reduced by row word into `R` rows, read at row `r`
    below `2 ^ 31`: the hop of the unpadded lists over any table `dense` that the padded one agrees with on the rows
    below `Cn`, the bound on the column words. -/
theorem stage_eq_hop {R C Cn : ℕ} (hCn : Cn ≤ C)
    (rows cols : (⟨1, ![300000]⟩ : Shape).Idx → BitVec 32) (vals : (⟨1, ![300000]⟩ : Shape).Idx → EReal)
    (hcols : ColsIn Cn cols)
    (rowsP colsP : (⟨2, ![1, 300032]⟩ : Shape).Idx → BitVec 32) (valsP : (⟨2, ![1, 300032]⟩ : Shape).Idx → EReal)
    (denseP : (⟨2, ![C, 256]⟩ : Shape).Idx → EReal) (dense : ℕ → ℕ → EReal)
    (hc : ∀ n : Fin 300032, colsP (ix2 (0 : Fin 1) n) = if h : n.val < 300000 then cols (ix1 ⟨n.val, h⟩) else 4294967295#32)
    (hr : ∀ n : Fin 300032, rowsP (ix2 (0 : Fin 1) n) = if h : n.val < 300000 then rows (ix1 ⟨n.val, h⟩) else 4294967295#32)
    (hv : ∀ n : Fin 300032, valsP (ix2 (0 : Fin 1) n) = if h : n.val < 300000 then vals (ix1 ⟨n.val, h⟩) else 0)
    (hd : ∀ (t : Fin C) (d : Fin 256), t.val < Cn → denseP (ix2 t d) = dense t.val d.val)
    (r : Fin R) (hr31 : r.val < 2 ^ 31) (d : Fin 256) :
    redOut R rowsP (msgOut C colsP valsP denseP) (ix2 r d)
      = hop (vecN rows 0) (vecN cols 0) (vecN vals 0) dense r.val d.val := by
  unfold redOut hop
  show ∑ n : Fin 300032, (if rowsP (ix2 (0 : Fin 1) n) = BitVec.ofNat 32 r.val
      then msgOut C colsP valsP denseP (ix2 n d) else 0) = _
  refine (sum_padded _ fun n hn => ?_).trans ?_
  · rw [padded_of_ge hr n hn]
    exact if_neg (neg_one_ne_ofNat hr31)
  refine Eq.trans ?_ (Finset.sum_range _).symm
  refine Finset.sum_congr rfl fun n _ => ?_
  have e_r := padded_of_lt hr ⟨n.val, by omega⟩ n.isLt 0
  have e_c := padded_of_lt hc ⟨n.val, by omega⟩ n.isLt 0
  have e_v := padded_of_lt hv ⟨n.val, by omega⟩ n.isLt 0
  have hlt : (vecN cols 0 n.val).toNat < Cn := by
    rw [vecN_of_lt cols 0 n.isLt]
    exact toNat_lt_of_toInt _ (hcols n).1 (hcols n).2
  show (if rowsP (ix2 (0 : Fin 1) ⟨n.val, _⟩) = BitVec.ofNat 32 r.val
      then msgOut C colsP valsP denseP (ix2 ⟨n.val, _⟩ d) else 0)
    = if (vecN rows 0 n.val).toInt = (r.val : ℤ) then vecN vals 0 n.val * dense (vecN cols 0 n.val).toNat d.val else 0
  rw [e_r]
  by_cases h : (vecN rows 0 n.val).toInt = (r.val : ℤ)
  · rw [if_pos ((word_eq_ofNat_iff_toInt _ hr31).mpr h), if_pos h]
    show (if h : (colsP (ix2 (0 : Fin 1) ⟨n.val, _⟩)).toNat < C
        then denseP (ix2 ⟨(colsP (ix2 (0 : Fin 1) ⟨n.val, _⟩)).toNat, h⟩ d) else 0)
      * valsP (ix2 (0 : Fin 1) ⟨n.val, _⟩) = _
    have hlt' : (colsP (ix2 (0 : Fin 1) (⟨n.val, by omega⟩ : Fin 300032))).toNat < Cn := by rw [e_c]; exact hlt
    rw [dif_pos (lt_of_lt_of_le hlt' hCn), hd _ d hlt', e_v, mul_comm]
    show vecN vals 0 n.val * dense (colsP (ix2 (0 : Fin 1) ⟨n.val, _⟩)).toNat d.val = _
    rw [e_c]
  · rw [if_neg (fun e => h ((word_eq_ofNat_iff_toInt _ hr31).mp e)), if_neg h]

/-! ## The composition -/

/-- The kernel program's two stage pairs over the padded operands, the second reading the first one's result padded
    to 20480 rows as its table, compute the operator's result at every row below 100000. -/
theorem compose
    (pois : (⟨2, ![100000, 256]⟩ : Shape).Idx → EReal)
    (upRows upCols : (⟨1, ![300000]⟩ : Shape).Idx → BitVec 32) (upVals : (⟨1, ![300000]⟩ : Shape).Idx → EReal)
    (puRows puCols : (⟨1, ![300000]⟩ : Shape).Idx → BitVec 32) (puVals : (⟨1, ![300000]⟩ : Shape).Idx → EReal)
    (hU : ColsIn 100000 upCols) (hP : ColsIn 20000 puCols)
    (c1 r1 : (⟨2, ![1, 300032]⟩ : Shape).Idx → BitVec 32) (v1 : (⟨2, ![1, 300032]⟩ : Shape).Idx → EReal)
    (d1 : (⟨2, ![100352, 256]⟩ : Shape).Idx → EReal)
    (c2 r2 : (⟨2, ![1, 300032]⟩ : Shape).Idx → BitVec 32) (v2 : (⟨2, ![1, 300032]⟩ : Shape).Idx → EReal)
    (d2 : (⟨2, ![20480, 256]⟩ : Shape).Idx → EReal)
    (hc1 : ∀ n : Fin 300032, c1 (ix2 (0 : Fin 1) n) = if h : n.val < 300000 then upCols (ix1 ⟨n.val, h⟩) else 4294967295#32)
    (hr1 : ∀ n : Fin 300032, r1 (ix2 (0 : Fin 1) n) = if h : n.val < 300000 then upRows (ix1 ⟨n.val, h⟩) else 4294967295#32)
    (hv1 : ∀ n : Fin 300032, v1 (ix2 (0 : Fin 1) n) = if h : n.val < 300000 then upVals (ix1 ⟨n.val, h⟩) else 0)
    (hd1 : ∀ (r : Fin 100352) (d : Fin 256), d1 (ix2 r d) = if h : r.val < 100000 then pois (ix2 ⟨r.val, h⟩ d) else 0)
    (hc2 : ∀ n : Fin 300032, c2 (ix2 (0 : Fin 1) n) = if h : n.val < 300000 then puCols (ix1 ⟨n.val, h⟩) else 4294967295#32)
    (hr2 : ∀ n : Fin 300032, r2 (ix2 (0 : Fin 1) n) = if h : n.val < 300000 then puRows (ix1 ⟨n.val, h⟩) else 4294967295#32)
    (hv2 : ∀ n : Fin 300032, v2 (ix2 (0 : Fin 1) n) = if h : n.val < 300000 then puVals (ix1 ⟨n.val, h⟩) else 0)
    (hd2 : ∀ (r : Fin 20480) (d : Fin 256), d2 (ix2 r d)
      = if h : r.val < 20000 then redOut 20480 r1 (msgOut 100352 c1 v1 d1) (ix2 ⟨r.val, by omega⟩ d) else 0)
    (r : Fin 100000) (d : Fin 256) :
    redOut 100352 r2 (msgOut 20480 c2 v2 d2) (ix2 ⟨r.val, by omega⟩ d)
      = result pois upRows upCols upVals puRows puCols puVals (ix2 r d) := by
  have inner : ∀ (t : Fin 20480) (d : Fin 256), t.val < 20000 →
      d2 (ix2 t d) = hop (vecN upRows 0) (vecN upCols 0) (vecN upVals 0) (matN 100000 pois) t.val d.val := by
    intro t d ht
    rw [hd2 t d, dif_pos ht]
    exact stage_eq_hop (R := 20480) (C := 100352) (Cn := 100000) (by omega) upRows upCols upVals hU r1 c1 v1 d1
      (matN 100000 pois) hc1 hr1 hv1
      (fun t' d' ht' => (hd1 t' d').trans ((dif_pos ht').trans (matN_of_lt 100000 pois ht' d'.isLt).symm))
      ⟨t.val, by omega⟩ (by show t.val < 2 ^ 31; omega) d
  show _ = hop (vecN puRows 0) (vecN puCols 0) (vecN puVals 0)
    (hop (vecN upRows 0) (vecN upCols 0) (vecN upVals 0) (matN 100000 pois)) r.val d.val
  exact stage_eq_hop (R := 100352) (C := 20480) (Cn := 20000) (by omega) puRows puCols puVals hP r2 c2 v2 d2
    _ hc2 hr2 hv2 inner ⟨r.val, by omega⟩ (by show r.val < 2 ^ 31; omega) d

end Cert.Compose

end
-- ==== Proof.MsgArr.lean ====
/-
  The value of the message stage's output array, for each of the two message kernels.

  Kernel 0 runs over 293 × 98 grid points; point t works on row block t / 98 (the 1024 stored entries
  (t / 98) * 1024 + p) against column block t % 98 (the 1024 table rows (t % 98) * 1024 + k). Its running block, zeroed
  at the first point of each run of 98 points, holds after point t, at (p, q), the sum over the column blocks
  cb ≤ t % 98 of (∑ k, [the entry's column word is the word of cb * 1024 + k] * table (cb * 1024 + k, q)) * weight —
  by induction on the point from the payload read at an index. Each inner sum selects the table row the column word
  names if it lies in block cb; over all 98 blocks the selections add up to that row when it is below
  98 * 1024 = 100352 and to nothing otherwise: the message of the entry. The block is written back at the last point
  of each run, the written blocks cover the 300032 rows, so the array ends holding the message stage's closed form.
  Kernel 2 is the same over 293 × 20 points and a table of 20 * 1024 = 20480 rows.
-/
import proofs.«402914_j8864812499579_1_alg».proof.Proof.KI.Msg0
import proofs.«402914_j8864812499579_1_alg».proof.Proof.KI.Msg2
import proofs.«402914_j8864812499579_1_alg».proof.Proof.MsgPay
import proofs.«402914_j8864812499579_1_alg».proof.Proof.Compose
import proofs.«402914_j8864812499579_1_alg».proof.Proof.KSpec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

/-! # Kernel 0: a grid of 293 × 98 points, a table of 100352 rows -/

variable (V : (c : Dev nD) → (b : Ref sig .tc) → Buf (Elt Ideal) ((c : Thread nD τ).loc b))

/-- Kernel 0's grid has 293 × 98 points. -/
theorem lt0 (t : Fin cfg0.N) : t.val < 28714 := lt_of_lt_of_eq t.isLt N_0

/-- The first grid coordinate of a point is the point's number divided by the inner extent. -/
theorem coords0_0 (t : Fin cfg0.N) : ((grid0.coords t) 0).val = t.val / 98 := by
  have := lt0 t
  show t.val / grid0.stride 0 % grid0.bound 0 = t.val / 98
  rw [show grid0.stride 0 = 98 from by decide]
  show t.val / 98 % 293 = t.val / 98
  omega

/-- The block indices of the four windows at a point: the column words and the weights move with the row block
    `t / 98`, the table with the column block `t % 98`, the output with the row block. -/
theorem idx0_0 (t : Fin cfg0.N) : win0_0.index t 0 = 0 ∧ win0_0.index t 1 = t.val / 98 := by
  have := lt0 t
  refine ⟨rfl, ?_⟩
  show (BitVec.ofNat 32 ((grid0.coords t) 0).val).toNat = _
  rw [BitVec.toNat_ofNat, coords0_0, Nat.mod_eq_of_lt (by omega)]
/-- The weights' window moves as the column words'. -/
theorem idx0_1 (t : Fin cfg0.N) : win0_1.index t 0 = 0 ∧ win0_1.index t 1 = t.val / 98 := by
  have := lt0 t
  refine ⟨rfl, ?_⟩
  show (BitVec.ofNat 32 ((grid0.coords t) 0).val).toNat = _
  rw [BitVec.toNat_ofNat, coords0_0, Nat.mod_eq_of_lt (by omega)]
/-- The table's window moves with the column block. -/
theorem idx0_2 (t : Fin cfg0.N) : win0_2.index t 0 = t.val % 98 ∧ win0_2.index t 1 = 0 := by
  refine ⟨?_, rfl⟩
  show (BitVec.ofNat 32 ((grid0.coords t) 1).val).toNat = _
  rw [BitVec.toNat_ofNat, coords0_1, Nat.mod_eq_of_lt (by omega)]
/-- The output's window moves with the row block. -/
theorem idx0_3 (t : Fin cfg0.N) : win0_3.index t 0 = t.val / 98 ∧ win0_3.index t 1 = 0 := by
  have := lt0 t
  refine ⟨?_, rfl⟩
  show (BitVec.ofNat 32 ((grid0.coords t) 0).val).toNat = _
  rw [BitVec.toNat_ofNat, coords0_0, Nat.mod_eq_of_lt (by omega)]

/-! ## The operand arrays read at natural numbers -/

/-- The call's three operand arrays as the call finds them, at their literal types. -/
abbrev colsA0 (c : Dev nD) : S1x300032.Idx → BitVec 32 := V c main_v1
abbrev valsA0 (c : Dev nD) : S1x300032.Idx → EReal := V c main_v3
abbrev denseA0 (c : Dev nD) : S100352x256.Idx → EReal := V c main_v7

/-- The padded column words at entry `n` (the zero word past the end). -/
def colsN0 (c : Dev nD) (n : ℕ) : BitVec 32 :=
  if h : n < 300032 then colsA0 V c (ix2 (0 : Fin 1) ⟨n, h⟩) else 0
/-- The padded weights at entry `n` (zero past the end). -/
def valsN0 (c : Dev nD) (n : ℕ) : EReal :=
  if h : n < 300032 then valsA0 V c (ix2 (0 : Fin 1) ⟨n, h⟩) else 0
/-- The padded table at row `r`, column `q` (zero past the last row). -/
def denseN0 (c : Dev nD) (q : Fin 256) (r : ℕ) : EReal :=
  if h : r < 100352 then denseA0 V c (ix2 ⟨r, h⟩ q) else 0

/-- The column-word block at a point: entries `(t / 98) * 1024 + p`. -/
theorem blk0_0 (c : Dev nD) (t : Fin cfg0.N) (u : Fin 1) (p : Fin 1024) :
    (iblk0 V c 0 t : Vec Ideal S1x1024 .i32) (ix2 u p) = colsN0 V c (t.val / 98 * 1024 + p.val) := by
  have := lt0 t
  have hlt : t.val / 98 * 1024 + p.val < 300032 := by omega
  unfold colsN0
  rw [dif_pos hlt]
  unfold iblk0
  rw [View.read_apply]
  show colsA0 V c _ = colsA0 V c _
  congr 1
  funext a
  apply Fin.ext
  match a with
  | ⟨0, _⟩ => show win0_0.index t 0 * 1 + 1 * u.val = 0; rw [(idx0_0 t).1]; omega
  | ⟨1, _⟩ => show win0_0.index t 1 * 1024 + 1 * p.val = t.val / 98 * 1024 + p.val; rw [(idx0_0 t).2]; omega

/-- The weight block at a point: entries `(t / 98) * 1024 + p`. -/
theorem blk0_1 (c : Dev nD) (t : Fin cfg0.N) (u : Fin 1) (p : Fin 1024) :
    (iblk0 V c 1 t : Vec Ideal S1x1024 .f32) (ix2 u p) = valsN0 V c (t.val / 98 * 1024 + p.val) := by
  have := lt0 t
  have hlt : t.val / 98 * 1024 + p.val < 300032 := by omega
  unfold valsN0
  rw [dif_pos hlt]
  unfold iblk0
  rw [View.read_apply]
  show valsA0 V c _ = valsA0 V c _
  congr 1
  funext a
  apply Fin.ext
  match a with
  | ⟨0, _⟩ => show win0_1.index t 0 * 1 + 1 * u.val = 0; rw [(idx0_1 t).1]; omega
  | ⟨1, _⟩ => show win0_1.index t 1 * 1024 + 1 * p.val = t.val / 98 * 1024 + p.val; rw [(idx0_1 t).2]; omega

/-- The table block at a point: rows `(t % 98) * 1024 + k`. -/
theorem blk0_2 (c : Dev nD) (t : Fin cfg0.N) (k : Fin 1024) (q : Fin 256) :
    (iblk0 V c 2 t : Vec Ideal S1024x256 .bf16) (ix2 k q) = denseN0 V c q (t.val % 98 * 1024 + k.val) := by
  have hlt : t.val % 98 * 1024 + k.val < 100352 := by omega
  unfold denseN0
  rw [dif_pos hlt]
  unfold iblk0
  rw [View.read_apply]
  show denseA0 V c _ = denseA0 V c _
  congr 1
  funext a
  apply Fin.ext
  match a with
  | ⟨0, _⟩ => show win0_2.index t 0 * 1024 + 1 * k.val = t.val % 98 * 1024 + k.val; rw [(idx0_2 t).1]; omega
  | ⟨1, _⟩ => show win0_2.index t 1 * 256 + 1 * q.val = q.val; rw [(idx0_2 t).2]; omega

/-! ## The running sum at an index -/

/-- Column block `cb`'s contribution to entry `n`, column `q`: the block's rows against the entry's one-hot row,
    times the entry's weight. -/
def term0 (c : Dev nD) (q : Fin 256) (n cb : ℕ) : EReal :=
  (∑ k : Fin 1024, (if colsN0 V c n = BitVec.ofNat 32 (cb * 1024 + k.val) then (1 : EReal) else 0)
      * denseN0 V c q (cb * 1024 + k.val)) * valsN0 V c n

/-- What a point's payload adds at `(p, q)` to the block `acc` it runs over. -/
theorem step0 (c : Dev nD) (t : Fin cfg0.N) (acc : Vec Ideal S1024x256 .f32) (p : Fin 1024) (q : Fin 256) :
    k0_pay2 (F := Ideal) (grid0.coords t) (iblk0 V c 0 t) (iblk0 V c 1 t) (iblk0 V c 2 t) acc (ix2 p q)
      = acc (ix2 p q) + term0 V c q (t.val / 98 * 1024 + p.val) (t.val % 98) := by
  refine (MsgPay.k0_pay2_apply (grid0.coords t) (iblk0 V c 0 t) (iblk0 V c 1 t) (iblk0 V c 2 t) acc p q).trans ?_
  unfold term0
  rw [blk0_0 V c t 0 p, blk0_1 V c t 0 p, coords0_1]
  refine congrArg (acc (ix2 p q) + ·) (congrArg (· * valsN0 V c (t.val / 98 * 1024 + p.val)) ?_)
  exact Finset.sum_congr rfl fun k _ => by rw [blk0_2 V c t k q]

/-- THE RUNNING SUM at `(p, q)` after point `n`: the contributions of the column blocks `0 … n % 98` to entry
    `(n / 98) * 1024 + p`. -/
theorem acc0_apply (c : Dev nD) (p : Fin 1024) (q : Fin 256) : ∀ (n : ℕ) (h : n < cfg0.N),
    (acc0 V c n h : Vec Ideal S1024x256 .f32) (ix2 p q)
      = ∑ cb ∈ Finset.range (n % 98 + 1), term0 V c q (n / 98 * 1024 + p.val) cb
  | 0, h => by
    rw [acc0_first V c ⟨0, h⟩ rfl, step0 V c ⟨0, h⟩, MsgPay.k0_pay1_apply, zero_add]
    show term0 V c q (0 / 98 * 1024 + p.val) (0 % 98) = _
    rw [Finset.sum_range_one]
  | n + 1, h => by
    by_cases h0 : (n + 1) % 98 = 0
    · rw [acc0_first V c ⟨n + 1, h⟩ h0, step0 V c ⟨n + 1, h⟩, MsgPay.k0_pay1_apply, zero_add]
      show term0 V c q ((n + 1) / 98 * 1024 + p.val) ((n + 1) % 98) = _
      rw [h0, Finset.sum_range_one]
    · rw [acc0_next V c ⟨n + 1, h⟩ h0, step0 V c ⟨n + 1, h⟩]
      show (acc0 V c n _ : Vec Ideal S1024x256 .f32) (ix2 p q) + term0 V c q ((n + 1) / 98 * 1024 + p.val) ((n + 1) % 98) = _
      rw [acc0_apply c p q n (Nat.lt_of_succ_lt h), show n / 98 = (n + 1) / 98 from by omega,
        show n % 98 + 1 = (n + 1) % 98 from by omega, ← Finset.sum_range_succ]

/-! ## A whole run's sum is the message -/

/-- The message stage's closed form over the call's three operand arrays. -/
abbrev G0 (c : Dev nD) : S300032x256.Idx → EReal :=
  Cert.KSpec.msgOut 100352 (colsA0 V c) (valsA0 V c) (denseA0 V c)

/-- The contributions of all 98 column blocks to entry `m`: each block's one-hot sum selects the table row the
    column word names if it lies in the block; the blocks' selections add up to that row if it is below
    `98 * 1024 = 100352`, and to nothing otherwise — the message of entry `m`. -/
theorem sum_terms0 (c : Dev nD) (q : Fin 256) (m : ℕ) (hm : m < 300032) :
    ∑ cb ∈ Finset.range 98, term0 V c q m cb = G0 V c (ix2 ⟨m, hm⟩ q) := by
  have inner : ∀ cb ∈ Finset.range 98, term0 V c q m cb
      = (if cb * 1024 ≤ (colsN0 V c m).toNat ∧ (colsN0 V c m).toNat < cb * 1024 + 1024
          then denseN0 V c q (colsN0 V c m).toNat else 0) * valsN0 V c m := by
    intro cb hcb
    have := Finset.mem_range.mp hcb
    unfold term0
    rw [Cert.Compose.sum_onehot_block (colsN0 V c m) cb (by omega) (fun k => denseN0 V c q (cb * 1024 + k.val))]
    congr 1
    by_cases h : cb * 1024 ≤ (colsN0 V c m).toNat ∧ (colsN0 V c m).toNat < cb * 1024 + 1024
    · rw [dif_pos h, if_pos h]
      show denseN0 V c q (cb * 1024 + ((colsN0 V c m).toNat - cb * 1024)) = _
      congr 1
      omega
    · rw [dif_neg h, if_neg h]
  rw [Finset.sum_congr rfl inner,
    Cert.Compose.sum_block_select (colsN0 V c m).toNat 98 (denseN0 V c q) (valsN0 V c m)]
  have ec : colsN0 V c m = colsA0 V c (ix2 (0 : Fin 1) ⟨m, hm⟩) := dif_pos hm
  have ev : valsN0 V c m = valsA0 V c (ix2 (0 : Fin 1) ⟨m, hm⟩) := dif_pos hm
  show _ = (if h : (colsA0 V c (ix2 (0 : Fin 1) ⟨m, hm⟩)).toNat < 100352
      then denseA0 V c (ix2 ⟨(colsA0 V c (ix2 (0 : Fin 1) ⟨m, hm⟩)).toNat, h⟩ q) else 0)
    * valsA0 V c (ix2 (0 : Fin 1) ⟨m, hm⟩)
  rw [ev, ec]
  by_cases hx : (colsA0 V c (ix2 (0 : Fin 1) ⟨m, hm⟩)).toNat < 100352
  · rw [if_pos (by omega), dif_pos hx]
    unfold denseN0
    rw [dif_pos hx]
  · rw [if_neg (by omega), dif_neg hx, zero_mul]

/-! ## The schedule: the output block is written back at the last point of each run of 98 -/

/-- A point that writes the output block back is the last of its run: elsewhere the next point has the same row block. -/
theorem flush0_3_mod (t : Fin cfg0.N) (hf : (cfg0.win 3).flush t = true) : t.val % 98 = 97 := by
  have := lt0 t
  by_contra hne
  have hf' : win0_3.flush t = true := hf
  simp only [Pipeline.Window.flush, Bool.and_eq_true, Bool.or_eq_true, decide_eq_true_eq] at hf'
  rcases hf'.2 with h | ⟨h, hidx⟩
  · have h' : t.val + 1 = 28714 := h.trans N_0
    omega
  · refine hidx (funext fun a => ?_)
    match a with
    | ⟨0, _⟩ =>
      show win0_3.index ⟨t.val + 1, h⟩ 0 = win0_3.index t 0
      rw [(idx0_3 _).1, (idx0_3 t).1]
      show (t.val + 1) / 98 = t.val / 98
      omega
    | ⟨1, _⟩ =>
      show win0_3.index ⟨t.val + 1, h⟩ 1 = win0_3.index t 1
      rw [(idx0_3 _).2, (idx0_3 t).2]

/-- The last point of a run writes the output block back: it is the grid's last point or the next point's row block is the next one. -/
theorem flush0_3_of (t : Fin cfg0.N) (h97 : t.val % 98 = 97) : (cfg0.win 3).flush t = true := by
  have := lt0 t
  show win0_3.flush t = true
  simp only [Pipeline.Window.flush, Bool.and_eq_true, Bool.or_eq_true, decide_eq_true_eq]
  refine ⟨trivial, ?_⟩
  by_cases hl : t.val + 1 = grid0.N
  · exact .inl hl
  · have hlt : t.val + 1 < grid0.N := by rw [N_0] at hl ⊢; omega
    refine .inr ⟨hlt, fun e => ?_⟩
    have e0 := congrFun e 0
    rw [(idx0_3 _).1, (idx0_3 t).1] at e0
    have e1 : (t.val + 1) / 98 = t.val / 98 := e0
    omega

/-! ## What a write-back writes, the cover, the array -/

/-- What a writing point leaves in the output array's block is the closed form read through the block: at
    `(p, q)` both are the message of entry `(t / 98) * 1024 + p`. -/
theorem flushed0_eq (c : Dev nD) (t : Fin cfg0.N) (hf : (cfg0.win 3).flush t = true) :
    (dat0 V c).flushed 3 t = ((cfg0.win 3).blk t).view.read (Elt Ideal) (G0 V c) := by
  have h97 := flush0_3_mod t hf
  have := lt0 t
  show (cfg0.win 3).cut (grid0.coords t) ((dat0 V c).after 3 t) = _
  rw [after0_3]
  funext j
  obtain ⟨p, q, rfl⟩ : ∃ (p : Fin 1024) (q : Fin 256), j = ix2 p q :=
    ⟨(j : S1024x256.Idx) 0, (j : S1024x256.Idx) 1, eq_ix2 (n0 := 1024) (n1 := 256) j⟩
  rw [View.read_apply]
  show (acc0 V c t.val t.isLt : Vec Ideal S1024x256 .f32) (ix2 p q) = G0 V c (((cfg0.win 3).blk t).view.emb (ix2 p q))
  rw [acc0_apply V c p q t.val t.isLt, h97, sum_terms0 V c q (t.val / 98 * 1024 + p.val) (by omega)]
  congr 1
  funext a
  apply Fin.ext
  match a with
  | ⟨0, _⟩ => show t.val / 98 * 1024 + p.val = win0_3.index t 0 * 1024 + 1 * p.val; rw [(idx0_3 t).1]; omega
  | ⟨1, _⟩ => show q.val = win0_3.index t 1 * 256 + 1 * q.val; rw [(idx0_3 t).2]; omega

/-- THE ARRAY after the call: every row `r` lies in the block written back at the last point of row block
    `r / 1024`'s run, so the array ends holding the message stage's closed form. -/
theorem arr0 (c : Dev nD) :
    ((dat0 (F := Ideal) V c).arrAt 3 cfg0.N : S300032x256.Idx → EReal)
      = Cert.KSpec.msgOut 100352 (V c main_v1) (V c main_v3) (V c main_v7) :=
  (dat0 V c).arrAt_eq_of_cover 3 (G0 V c) (flushed0_eq V c) fun i => by
    have hi0 : ((i : S300032x256.Idx) 0).val < 300032 := ((i : S300032x256.Idx) 0).isLt
    have hi1 : ((i : S300032x256.Idx) 1).val < 256 := ((i : S300032x256.Idx) 1).isLt
    have hlt : ((i : S300032x256.Idx) 0).val / 1024 * 98 + 97 < cfg0.N := by
      show _ < grid0.N
      rw [N_0]; omega
    refine ⟨⟨((i : S300032x256.Idx) 0).val / 1024 * 98 + 97, hlt⟩, flush0_3_of _ (by
      show (((i : S300032x256.Idx) 0).val / 1024 * 98 + 97) % 98 = 97
      omega), ?_⟩
    show i ∈ ((View.whole main_v8).slice (win0_3.rect ⟨((i : S300032x256.Idx) 0).val / 1024 * 98 + 97, hlt⟩)).set
    rw [View.set_slice_whole, Rect.mem_set_unit]
    intro a
    match a with
    | ⟨0, _⟩ =>
      show win0_3.index ⟨_, hlt⟩ 0 * 1024 ≤ ((i : S300032x256.Idx) 0).val
        ∧ ((i : S300032x256.Idx) 0).val < win0_3.index ⟨_, hlt⟩ 0 * 1024 + 1024
      rw [(idx0_3 _).1]
      show (((i : S300032x256.Idx) 0).val / 1024 * 98 + 97) / 98 * 1024 ≤ ((i : S300032x256.Idx) 0).val
        ∧ ((i : S300032x256.Idx) 0).val < (((i : S300032x256.Idx) 0).val / 1024 * 98 + 97) / 98 * 1024 + 1024
      omega
    | ⟨1, _⟩ =>
      show win0_3.index ⟨_, hlt⟩ 1 * 256 ≤ ((i : S300032x256.Idx) 1).val
        ∧ ((i : S300032x256.Idx) 1).val < win0_3.index ⟨_, hlt⟩ 1 * 256 + 256
      rw [(idx0_3 _).2]
      omega

/-! # Kernel 2: the same over its grid of 293 × 20 points and its table of 20480 rows -/

/-- Kernel 2's grid has 293 × 20 points. -/
theorem lt2 (t : Fin cfg2.N) : t.val < 5860 := lt_of_lt_of_eq t.isLt N_2

/-- The first grid coordinate of a point is the point's number divided by the inner extent. -/
theorem coords2_0 (t : Fin cfg2.N) : ((grid2.coords t) 0).val = t.val / 20 := by
  have := lt2 t
  show t.val / grid2.stride 0 % grid2.bound 0 = t.val / 20
  rw [show grid2.stride 0 = 20 from by decide]
  show t.val / 20 % 293 = t.val / 20
  omega

/-- The block indices of the four windows at a point: the column words and the weights move with the row block
    `t / 20`, the table with the column block `t % 20`, the output with the row block. -/
theorem idx2_0 (t : Fin cfg2.N) : win2_0.index t 0 = 0 ∧ win2_0.index t 1 = t.val / 20 := by
  have := lt2 t
  refine ⟨rfl, ?_⟩
  show (BitVec.ofNat 32 ((grid2.coords t) 0).val).toNat = _
  rw [BitVec.toNat_ofNat, coords2_0, Nat.mod_eq_of_lt (by omega)]
/-- The weights' window moves as the column words'. -/
theorem idx2_1 (t : Fin cfg2.N) : win2_1.index t 0 = 0 ∧ win2_1.index t 1 = t.val / 20 := by
  have := lt2 t
  refine ⟨rfl, ?_⟩
  show (BitVec.ofNat 32 ((grid2.coords t) 0).val).toNat = _
  rw [BitVec.toNat_ofNat, coords2_0, Nat.mod_eq_of_lt (by omega)]
/-- The table's window moves with the column block. -/
theorem idx2_2 (t : Fin cfg2.N) : win2_2.index t 0 = t.val % 20 ∧ win2_2.index t 1 = 0 := by
  refine ⟨?_, rfl⟩
  show (BitVec.ofNat 32 ((grid2.coords t) 1).val).toNat = _
  rw [BitVec.toNat_ofNat, coords2_1, Nat.mod_eq_of_lt (by omega)]
/-- The output's window moves with the row block. -/
theorem idx2_3 (t : Fin cfg2.N) : win2_3.index t 0 = t.val / 20 ∧ win2_3.index t 1 = 0 := by
  have := lt2 t
  refine ⟨?_, rfl⟩
  show (BitVec.ofNat 32 ((grid2.coords t) 0).val).toNat = _
  rw [BitVec.toNat_ofNat, coords2_0, Nat.mod_eq_of_lt (by omega)]

/-! ## The operand arrays read at natural numbers -/

/-- The call's three operand arrays as the call finds them, at their literal types. -/
abbrev colsA2 (c : Dev nD) : S1x300032.Idx → BitVec 32 := V c main_v12
abbrev valsA2 (c : Dev nD) : S1x300032.Idx → EReal := V c main_v14
abbrev denseA2 (c : Dev nD) : S20480x256.Idx → EReal := V c main_v18

/-- The padded column words at entry `n` (the zero word past the end). -/
def colsN2 (c : Dev nD) (n : ℕ) : BitVec 32 :=
  if h : n < 300032 then colsA2 V c (ix2 (0 : Fin 1) ⟨n, h⟩) else 0
/-- The padded weights at entry `n` (zero past the end). -/
def valsN2 (c : Dev nD) (n : ℕ) : EReal :=
  if h : n < 300032 then valsA2 V c (ix2 (0 : Fin 1) ⟨n, h⟩) else 0
/-- The padded table at row `r`, column `q` (zero past the last row). -/
def denseN2 (c : Dev nD) (q : Fin 256) (r : ℕ) : EReal :=
  if h : r < 20480 then denseA2 V c (ix2 ⟨r, h⟩ q) else 0

/-- The column-word block at a point: entries `(t / 20) * 1024 + p`. -/
theorem blk2_0 (c : Dev nD) (t : Fin cfg2.N) (u : Fin 1) (p : Fin 1024) :
    (iblk2 V c 0 t : Vec Ideal S1x1024 .i32) (ix2 u p) = colsN2 V c (t.val / 20 * 1024 + p.val) := by
  have := lt2 t
  have hlt : t.val / 20 * 1024 + p.val < 300032 := by omega
  unfold colsN2
  rw [dif_pos hlt]
  unfold iblk2
  rw [View.read_apply]
  show colsA2 V c _ = colsA2 V c _
  congr 1
  funext a
  apply Fin.ext
  match a with
  | ⟨0, _⟩ => show win2_0.index t 0 * 1 + 1 * u.val = 0; rw [(idx2_0 t).1]; omega
  | ⟨1, _⟩ => show win2_0.index t 1 * 1024 + 1 * p.val = t.val / 20 * 1024 + p.val; rw [(idx2_0 t).2]; omega

/-- The weight block at a point: entries `(t / 20) * 1024 + p`. -/
theorem blk2_1 (c : Dev nD) (t : Fin cfg2.N) (u : Fin 1) (p : Fin 1024) :
    (iblk2 V c 1 t : Vec Ideal S1x1024 .f32) (ix2 u p) = valsN2 V c (t.val / 20 * 1024 + p.val) := by
  have := lt2 t
  have hlt : t.val / 20 * 1024 + p.val < 300032 := by omega
  unfold valsN2
  rw [dif_pos hlt]
  unfold iblk2
  rw [View.read_apply]
  show valsA2 V c _ = valsA2 V c _
  congr 1
  funext a
  apply Fin.ext
  match a with
  | ⟨0, _⟩ => show win2_1.index t 0 * 1 + 1 * u.val = 0; rw [(idx2_1 t).1]; omega
  | ⟨1, _⟩ => show win2_1.index t 1 * 1024 + 1 * p.val = t.val / 20 * 1024 + p.val; rw [(idx2_1 t).2]; omega

/-- The table block at a point: rows `(t % 20) * 1024 + k`. -/
theorem blk2_2 (c : Dev nD) (t : Fin cfg2.N) (k : Fin 1024) (q : Fin 256) :
    (iblk2 V c 2 t : Vec Ideal S1024x256 .bf16) (ix2 k q) = denseN2 V c q (t.val % 20 * 1024 + k.val) := by
  have hlt : t.val % 20 * 1024 + k.val < 20480 := by omega
  unfold denseN2
  rw [dif_pos hlt]
  unfold iblk2
  rw [View.read_apply]
  show denseA2 V c _ = denseA2 V c _
  congr 1
  funext a
  apply Fin.ext
  match a with
  | ⟨0, _⟩ => show win2_2.index t 0 * 1024 + 1 * k.val = t.val % 20 * 1024 + k.val; rw [(idx2_2 t).1]; omega
  | ⟨1, _⟩ => show win2_2.index t 1 * 256 + 1 * q.val = q.val; rw [(idx2_2 t).2]; omega

/-! ## The running sum at an index -/

/-- Column block `cb`'s contribution to entry `n`, column `q`: the block's rows against the entry's one-hot row,
    times the entry's weight. -/
def term2 (c : Dev nD) (q : Fin 256) (n cb : ℕ) : EReal :=
  (∑ k : Fin 1024, (if colsN2 V c n = BitVec.ofNat 32 (cb * 1024 + k.val) then (1 : EReal) else 0)
      * denseN2 V c q (cb * 1024 + k.val)) * valsN2 V c n

/-- What a point's payload adds at `(p, q)` to the block `acc` it runs over. -/
theorem step2 (c : Dev nD) (t : Fin cfg2.N) (acc : Vec Ideal S1024x256 .f32) (p : Fin 1024) (q : Fin 256) :
    k2_pay2 (F := Ideal) (grid2.coords t) (iblk2 V c 0 t) (iblk2 V c 1 t) (iblk2 V c 2 t) acc (ix2 p q)
      = acc (ix2 p q) + term2 V c q (t.val / 20 * 1024 + p.val) (t.val % 20) := by
  refine (MsgPay.k2_pay2_apply (grid2.coords t) (iblk2 V c 0 t) (iblk2 V c 1 t) (iblk2 V c 2 t) acc p q).trans ?_
  unfold term2
  rw [blk2_0 V c t 0 p, blk2_1 V c t 0 p, coords2_1]
  refine congrArg (acc (ix2 p q) + ·) (congrArg (· * valsN2 V c (t.val / 20 * 1024 + p.val)) ?_)
  exact Finset.sum_congr rfl fun k _ => by rw [blk2_2 V c t k q]

/-- THE RUNNING SUM at `(p, q)` after point `n`: the contributions of the column blocks `0 … n % 20` to entry
    `(n / 20) * 1024 + p`. -/
theorem acc2_apply (c : Dev nD) (p : Fin 1024) (q : Fin 256) : ∀ (n : ℕ) (h : n < cfg2.N),
    (acc2 V c n h : Vec Ideal S1024x256 .f32) (ix2 p q)
      = ∑ cb ∈ Finset.range (n % 20 + 1), term2 V c q (n / 20 * 1024 + p.val) cb
  | 0, h => by
    rw [acc2_first V c ⟨0, h⟩ rfl, step2 V c ⟨0, h⟩, MsgPay.k2_pay1_apply, zero_add]
    show term2 V c q (0 / 20 * 1024 + p.val) (0 % 20) = _
    rw [Finset.sum_range_one]
  | n + 1, h => by
    by_cases h0 : (n + 1) % 20 = 0
    · rw [acc2_first V c ⟨n + 1, h⟩ h0, step2 V c ⟨n + 1, h⟩, MsgPay.k2_pay1_apply, zero_add]
      show term2 V c q ((n + 1) / 20 * 1024 + p.val) ((n + 1) % 20) = _
      rw [h0, Finset.sum_range_one]
    · rw [acc2_next V c ⟨n + 1, h⟩ h0, step2 V c ⟨n + 1, h⟩]
      show (acc2 V c n _ : Vec Ideal S1024x256 .f32) (ix2 p q) + term2 V c q ((n + 1) / 20 * 1024 + p.val) ((n + 1) % 20) = _
      rw [acc2_apply c p q n (Nat.lt_of_succ_lt h), show n / 20 = (n + 1) / 20 from by omega,
        show n % 20 + 1 = (n + 1) % 20 from by omega, ← Finset.sum_range_succ]

/-! ## A whole run's sum is the message -/

/-- The message stage's closed form over the call's three operand arrays. -/
abbrev G2 (c : Dev nD) : S300032x256.Idx → EReal :=
  Cert.KSpec.msgOut 20480 (colsA2 V c) (valsA2 V c) (denseA2 V c)

/-- The contributions of all 20 column blocks to entry `m`: each block's one-hot sum selects the table row the
    column word names if it lies in the block; the blocks' selections add up to that row if it is below
    `20 * 1024 = 20480`, and to nothing otherwise — the message of entry `m`. -/
theorem sum_terms2 (c : Dev nD) (q : Fin 256) (m : ℕ) (hm : m < 300032) :
    ∑ cb ∈ Finset.range 20, term2 V c q m cb = G2 V c (ix2 ⟨m, hm⟩ q) := by
  have inner : ∀ cb ∈ Finset.range 20, term2 V c q m cb
      = (if cb * 1024 ≤ (colsN2 V c m).toNat ∧ (colsN2 V c m).toNat < cb * 1024 + 1024
          then denseN2 V c q (colsN2 V c m).toNat else 0) * valsN2 V c m := by
    intro cb hcb
    have := Finset.mem_range.mp hcb
    unfold term2
    rw [Cert.Compose.sum_onehot_block (colsN2 V c m) cb (by omega) (fun k => denseN2 V c q (cb * 1024 + k.val))]
    congr 1
    by_cases h : cb * 1024 ≤ (colsN2 V c m).toNat ∧ (colsN2 V c m).toNat < cb * 1024 + 1024
    · rw [dif_pos h, if_pos h]
      show denseN2 V c q (cb * 1024 + ((colsN2 V c m).toNat - cb * 1024)) = _
      congr 1
      omega
    · rw [dif_neg h, if_neg h]
  rw [Finset.sum_congr rfl inner,
    Cert.Compose.sum_block_select (colsN2 V c m).toNat 20 (denseN2 V c q) (valsN2 V c m)]
  have ec : colsN2 V c m = colsA2 V c (ix2 (0 : Fin 1) ⟨m, hm⟩) := dif_pos hm
  have ev : valsN2 V c m = valsA2 V c (ix2 (0 : Fin 1) ⟨m, hm⟩) := dif_pos hm
  show _ = (if h : (colsA2 V c (ix2 (0 : Fin 1) ⟨m, hm⟩)).toNat < 20480
      then denseA2 V c (ix2 ⟨(colsA2 V c (ix2 (0 : Fin 1) ⟨m, hm⟩)).toNat, h⟩ q) else 0)
    * valsA2 V c (ix2 (0 : Fin 1) ⟨m, hm⟩)
  rw [ev, ec]
  by_cases hx : (colsA2 V c (ix2 (0 : Fin 1) ⟨m, hm⟩)).toNat < 20480
  · rw [if_pos (by omega), dif_pos hx]
    unfold denseN2
    rw [dif_pos hx]
  · rw [if_neg (by omega), dif_neg hx, zero_mul]

/-! ## The schedule: the output block is written back at the last point of each run of 20 -/

/-- A point that writes the output block back is the last of its run: elsewhere the next point has the same row block. -/
theorem flush2_3_mod (t : Fin cfg2.N) (hf : (cfg2.win 3).flush t = true) : t.val % 20 = 19 := by
  have := lt2 t
  by_contra hne
  have hf' : win2_3.flush t = true := hf
  simp only [Pipeline.Window.flush, Bool.and_eq_true, Bool.or_eq_true, decide_eq_true_eq] at hf'
  rcases hf'.2 with h | ⟨h, hidx⟩
  · have h' : t.val + 1 = 5860 := h.trans N_2
    omega
  · refine hidx (funext fun a => ?_)
    match a with
    | ⟨0, _⟩ =>
      show win2_3.index ⟨t.val + 1, h⟩ 0 = win2_3.index t 0
      rw [(idx2_3 _).1, (idx2_3 t).1]
      show (t.val + 1) / 20 = t.val / 20
      omega
    | ⟨1, _⟩ =>
      show win2_3.index ⟨t.val + 1, h⟩ 1 = win2_3.index t 1
      rw [(idx2_3 _).2, (idx2_3 t).2]

/-- The last point of a run writes the output block back: it is the grid's last point or the next point's row block is the next one. -/
theorem flush2_3_of (t : Fin cfg2.N) (h19 : t.val % 20 = 19) : (cfg2.win 3).flush t = true := by
  have := lt2 t
  show win2_3.flush t = true
  simp only [Pipeline.Window.flush, Bool.and_eq_true, Bool.or_eq_true, decide_eq_true_eq]
  refine ⟨trivial, ?_⟩
  by_cases hl : t.val + 1 = grid2.N
  · exact .inl hl
  · have hlt : t.val + 1 < grid2.N := by rw [N_2] at hl ⊢; omega
    refine .inr ⟨hlt, fun e => ?_⟩
    have e0 := congrFun e 0
    rw [(idx2_3 _).1, (idx2_3 t).1] at e0
    have e1 : (t.val + 1) / 20 = t.val / 20 := e0
    omega

/-! ## What a write-back writes, the cover, the array -/

/-- What a writing point leaves in the output array's block is the closed form read through the block: at
    `(p, q)` both are the message of entry `(t / 20) * 1024 + p`. -/
theorem flushed2_eq (c : Dev nD) (t : Fin cfg2.N) (hf : (cfg2.win 3).flush t = true) :
    (dat2 V c).flushed 3 t = ((cfg2.win 3).blk t).view.read (Elt Ideal) (G2 V c) := by
  have h19 := flush2_3_mod t hf
  have := lt2 t
  show (cfg2.win 3).cut (grid2.coords t) ((dat2 V c).after 3 t) = _
  rw [after2_3]
  funext j
  obtain ⟨p, q, rfl⟩ : ∃ (p : Fin 1024) (q : Fin 256), j = ix2 p q :=
    ⟨(j : S1024x256.Idx) 0, (j : S1024x256.Idx) 1, eq_ix2 (n0 := 1024) (n1 := 256) j⟩
  rw [View.read_apply]
  show (acc2 V c t.val t.isLt : Vec Ideal S1024x256 .f32) (ix2 p q) = G2 V c (((cfg2.win 3).blk t).view.emb (ix2 p q))
  rw [acc2_apply V c p q t.val t.isLt, h19, sum_terms2 V c q (t.val / 20 * 1024 + p.val) (by omega)]
  congr 1
  funext a
  apply Fin.ext
  match a with
  | ⟨0, _⟩ => show t.val / 20 * 1024 + p.val = win2_3.index t 0 * 1024 + 1 * p.val; rw [(idx2_3 t).1]; omega
  | ⟨1, _⟩ => show q.val = win2_3.index t 1 * 256 + 1 * q.val; rw [(idx2_3 t).2]; omega

/-- THE ARRAY after the call: every row `r` lies in the block written back at the last point of row block
    `r / 1024`'s run, so the array ends holding the message stage's closed form. -/
theorem arr2 (c : Dev nD) :
    ((dat2 (F := Ideal) V c).arrAt 3 cfg2.N : S300032x256.Idx → EReal)
      = Cert.KSpec.msgOut 20480 (V c main_v12) (V c main_v14) (V c main_v18) :=
  (dat2 V c).arrAt_eq_of_cover 3 (G2 V c) (flushed2_eq V c) fun i => by
    have hi0 : ((i : S300032x256.Idx) 0).val < 300032 := ((i : S300032x256.Idx) 0).isLt
    have hi1 : ((i : S300032x256.Idx) 1).val < 256 := ((i : S300032x256.Idx) 1).isLt
    have hlt : ((i : S300032x256.Idx) 0).val / 1024 * 20 + 19 < cfg2.N := by
      show _ < grid2.N
      rw [N_2]; omega
    refine ⟨⟨((i : S300032x256.Idx) 0).val / 1024 * 20 + 19, hlt⟩, flush2_3_of _ (by
      show (((i : S300032x256.Idx) 0).val / 1024 * 20 + 19) % 20 = 19
      omega), ?_⟩
    show i ∈ ((View.whole main_v19).slice (win2_3.rect ⟨((i : S300032x256.Idx) 0).val / 1024 * 20 + 19, hlt⟩)).set
    rw [View.set_slice_whole, Rect.mem_set_unit]
    intro a
    match a with
    | ⟨0, _⟩ =>
      show win2_3.index ⟨_, hlt⟩ 0 * 1024 ≤ ((i : S300032x256.Idx) 0).val
        ∧ ((i : S300032x256.Idx) 0).val < win2_3.index ⟨_, hlt⟩ 0 * 1024 + 1024
      rw [(idx2_3 _).1]
      show (((i : S300032x256.Idx) 0).val / 1024 * 20 + 19) / 20 * 1024 ≤ ((i : S300032x256.Idx) 0).val
        ∧ ((i : S300032x256.Idx) 0).val < (((i : S300032x256.Idx) 0).val / 1024 * 20 + 19) / 20 * 1024 + 1024
      omega
    | ⟨1, _⟩ =>
      show win2_3.index ⟨_, hlt⟩ 1 * 256 ≤ ((i : S300032x256.Idx) 1).val
        ∧ ((i : S300032x256.Idx) 1).val < win2_3.index ⟨_, hlt⟩ 1 * 256 + 256
      rw [(idx2_3 _).2]
      omega

end Cert.KernelIdeal.Val

end
-- ==== Proof.RedPay.lean ====
/-
  The reduce step's arithmetic, read at one index, at the ideal values.

  At grid point i the step forms a 1024 × 1024 block of zeros and ones — entry (p, k) is 1 exactly when the 32-bit word
  of 1024 · i₀ + p equals the row word of entry k of the chunk — multiplies it into the 1024 × 256 message block and adds
  the running block. So entry (p, q) of the result is the running block's entry plus the sum, over the chunk's entries k
  whose row word names row 1024 · i₀ + p, of the message block's entry (k, q). The narrowing of the two factors to the
  shorter format is the identity at the ideal values, the casts [1,1024] → [1024] → [1,1024] return the same row, and
  the row is repeated down the 1024 rows of the block. The initial block is zero. The second reduce call runs the same
  text over a grid of other extents; its two facts have the same proofs.
-/
import proofs.«402914_j8864812499579_1_alg».proof.Proof.Gen.KernelIdeal.Skeleton
import proofs.«402914_j8864812499579_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RedPay

open Idealize.ShloMosaic Idealize.ShloMosaic.ValueIdx Cert.KernelIdeal Cert.KernelIdeal.Gen

/-- The signed reading of a zero-extended one-bit equality test is 1 where the words agree and 0 elsewhere. -/
theorem sitofp_eq_word (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · rw [if_pos h]
    have e : IntOp.cmpi .eq x y = 1#1 := by
      show BitVec.ofBool (x == y) = 1#1
      rw [beq_iff_eq.mpr h]; rfl
    rw [e]
    norm_num
  · rw [if_neg h]
    have e : IntOp.cmpi .eq x y = 0#1 := by
      show BitVec.ofBool (x == y) = 0#1
      rw [beq_eq_false_iff_ne.mpr h]; rfl
    rw [e]
    norm_num

/-- 1024 · a + p as a 32-bit word: the word of a times the word 1024 plus the word of p (the words form a ring and
    the reading of a natural number is a ring map, so nothing has to be bounded). -/
theorem word_eq (a p : ℕ) :
    IntOp.addi (Scalar.muli (BitVec.ofNat 32 a) 1024#32) (BitVec.ofNat 32 p) = BitVec.ofNat 32 (a * 1024 + p) := by
  show BitVec.ofNat 32 a * BitVec.ofNat 32 1024 + BitVec.ofNat 32 p = _
  rw [BitVec.ofNat_add, BitVec.ofNat_mul]

/-- Entry (p, k) of the one-hot block: 1 where the word w + p equals the row word of entry k, else 0. -/
theorem onehot_apply (w : BitVec 32) (v3 : Vec Ideal S1x1024 .i32) (p k : Fin 1024) :
    (truncf .bf16 (sitofp .f32 (extui 32 (cmpi .eq (addi (broadcast S1024x1024 w) (iota .tc S1024x1024 32 [0] iota_S1024x1024_d0_w32))
        (broadcastTo S1024x1024 (shapeCast S1x1024 (shapeCast S1024 v3 shapeCasts_S1x1024_S1024) shapeCasts_S1024_S1x1024)
          broadcasts_S1x1024_S1024x1024)) natLt_1_32)) bitsLt_bf16_f32 : FVec Ideal S1024x1024 .bf16) (ix2 p k)
      = if IntOp.addi w (BitVec.ofNat 32 p.val) = v3 (ix2 (0 : Fin 1) k) then (1 : EReal) else 0 := by
  rw [truncf_apply, sitofp_apply, extui_apply]
  show FloatOps.sitofp .f32 ((IntOp.cmpi .eq (IntOp.addi w (iota .tc S1024x1024 32 [0] iota_S1024x1024_d0_w32 (ix2 p k)))
    (broadcastTo S1024x1024 (shapeCast S1x1024 (shapeCast S1024 v3 shapeCasts_S1x1024_S1024) shapeCasts_S1024_S1x1024)
          broadcasts_S1x1024_S1024x1024 (ix2 p k))).setWidth 32) = _
  rw [iota_single_apply, broadcastTo_1b_ab_apply, shapeCast_a_1a_apply, shapeCast_1a_a_apply]
  exact sitofp_eq_word _ _

/-! The product's operand indices, axis by axis: the left operand reads (row of the result, contraction position), the
    right operand (contraction position, column of the result). -/

theorem lhs_0 (i : S1024x256.Idx) (c : dot_S1024x1024_S1024x256_S1024x256_1_0_0_1_n_n.contr.Idx) :
    (dot_S1024x1024_S1024x256_S1024x256_1_0_0_1_n_n.lhsIdx i c 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

theorem lhs_1 (i : S1024x256.Idx) (c : dot_S1024x1024_S1024x256_S1024x256_1_0_0_1_n_n.contr.Idx) :
    (dot_S1024x1024_S1024x256_S1024x256_1_0_0_1_n_n.lhsIdx i c 1).val = (c ⟨0, by decide⟩).val :=
  dot_S1024x1024_S1024x256_S1024x256_1_0_0_1_n_n.lhsIdx_val_of_single rfl i c

theorem rhs_0 (i : S1024x256.Idx) (c : dot_S1024x1024_S1024x256_S1024x256_1_0_0_1_n_n.contr.Idx) :
    (dot_S1024x1024_S1024x256_S1024x256_1_0_0_1_n_n.rhsIdx i c 0).val = (c ⟨0, by decide⟩).val :=
  dot_S1024x1024_S1024x256_S1024x256_1_0_0_1_n_n.rhsIdx_val_of_single rfl i c

theorem rhs_1 (i : S1024x256.Idx) (c : dot_S1024x1024_S1024x256_S1024x256_1_0_0_1_n_n.contr.Idx) :
    (dot_S1024x1024_S1024x256_S1024x256_1_0_0_1_n_n.rhsIdx i c 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The product into the zero block, read at (p, q): the sum over the 1024 contraction positions k of
    left (p, k) times right (k, q). -/
theorem matmul_ix2 (A : FVec Ideal S1024x1024 .bf16) (B : FVec Ideal S1024x256 .bf16) (p : Fin 1024) (q : Fin 256) :
    matmul dot_S1024x1024_S1024x256_S1024x256_1_0_0_1_n_n none A B (constant (F := Ideal) S1024x256 .f32 0x00000000#32) (ix2 p q)
      = ∑ k : Fin 1024, A (ix2 p k) * B (ix2 k q) := by
  refine (Ideal.matmul_constant_zero_apply dot_S1024x1024_S1024x256_S1024x256_1_0_0_1_n_n none A B (ix2 p q)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q)
      ((contrEquiv1 dot_S1024x1024_S1024x256_S1024x256_1_0_0_1_n_n 1024 rfl rfl).symm k) = ix2 p k :=
    funext fun a => Fin.ext (by
      match a with
      | ⟨0, _⟩ => exact lhs_0 _ _
      | ⟨1, _⟩ => exact (lhs_1 _ _).trans hk)
  have er : dot_S1024x1024_S1024x256_S1024x256_1_0_0_1_n_n.rhsIdx (ix2 p q)
      ((contrEquiv1 dot_S1024x1024_S1024x256_S1024x256_1_0_0_1_n_n 1024 rfl rfl).symm k) = ix2 k q :=
    funext fun a => Fin.ext (by
      match a with
      | ⟨0, _⟩ => exact (rhs_0 _ _).trans hk
      | ⟨1, _⟩ => exact rhs_1 _ _)
  rw [el, er]

/-- The reduce step as a function of the scalar word w: the running block plus the one-hot block times the message block. -/
theorem body_apply (w : BitVec 32) (v3 : Vec Ideal S1x1024 .i32) (v15 : Vec Ideal S1024x256 .f32) (v18 : Vec Ideal S1024x256 .f32)
    (p : Fin 1024) (q : Fin 256) :
    shapeCast S1024x256
      (addf v18
        (matmul dot_S1024x1024_S1024x256_S1024x256_1_0_0_1_n_n none
          (truncf FTy.bf16
            (sitofp FTy.f32
              (extui 32
                (cmpi CmpIPredicate.eq
                  (addi (broadcast S1024x1024 w)
                    (iota Kind.tc S1024x1024 32 [0] iota_S1024x1024_d0_w32))
                  (broadcastTo S1024x1024
                    (shapeCast S1x1024 (shapeCast S1024 v3 shapeCasts_S1x1024_S1024) shapeCasts_S1024_S1x1024)
                    broadcasts_S1x1024_S1024x1024))
                natLt_1_32))
            bitsLt_bf16_f32)
          (truncf FTy.bf16 (shapeCast S1024x256 v15 shapeCasts_S1024x256_S1024x256) bitsLt_bf16_f32)
          (constant (F := Ideal) S1024x256 FTy.f32 0x00000000#32)))
      shapeCasts_S1024x256_S1024x256 (ix2 p q)
    = v18 (ix2 p q) + ∑ k : Fin 1024,
        (if IntOp.addi w (BitVec.ofNat 32 p.val) = v3 (ix2 (0 : Fin 1) k) then (1 : EReal) else 0) * v15 (ix2 k q) := by
  rw [shapeCast_self, addf_apply, matmul_ix2]
  refine congrArg (v18 (ix2 p q) + ·) (Finset.sum_congr rfl fun k _ => ?_)
  rw [onehot_apply, truncf_apply, shapeCast_self]

/-! ## The two payloads of the first reduce call, and of the second (the same text over the other grid) -/

/-- The initial block is zero everywhere. -/
theorem k1_pay1_apply (j : S1024x256.Idx) : k1_pay1 (F := Ideal) j = 0 := by
  unfold k1_pay1
  rw [shapeCast_self, broadcast_apply]
  exact Ideal.ofBits_zero_f32

/-- The accumulating step at grid point i, read at (p, q): the running block plus, over the 1024 entries k of the
    chunk, the message row k wherever the row word of entry k is the word of 1024 · i₀ + p. -/
theorem k1_pay2_apply (i : grid1.Coords) (v3 : Vec Ideal S1x1024 .i32) (v15 : Vec Ideal S1024x256 .f32)
    (v18 : Vec Ideal S1024x256 .f32) (p : Fin 1024) (q : Fin 256) :
    k1_pay2 (F := Ideal) i v3 v15 v18 (ix2 p q)
      = v18 (ix2 p q) + ∑ k : Fin 1024,
          (if BitVec.ofNat 32 ((i 0).val * 1024 + p.val) = v3 (ix2 0 k) then (1 : EReal) else 0) * v15 (ix2 k q) := by
  unfold k1_pay2
  refine (body_apply _ v3 v15 v18 p q).trans ?_
  rw [word_eq]

/-- The initial block of the second reduce call is zero everywhere. -/
theorem k3_pay1_apply (j : S1024x256.Idx) : k3_pay1 (F := Ideal) j = 0 := by
  unfold k3_pay1
  rw [shapeCast_self, broadcast_apply]
  exact Ideal.ofBits_zero_f32

/-- The accumulating step of the second reduce call at grid point i, read at (p, q). -/
theorem k3_pay2_apply (i : grid3.Coords) (v3 : Vec Ideal S1x1024 .i32) (v15 : Vec Ideal S1024x256 .f32)
    (v18 : Vec Ideal S1024x256 .f32) (p : Fin 1024) (q : Fin 256) :
    k3_pay2 (F := Ideal) i v3 v15 v18 (ix2 p q)
      = v18 (ix2 p q) + ∑ k : Fin 1024,
          (if BitVec.ofNat 32 ((i 0).val * 1024 + p.val) = v3 (ix2 0 k) then (1 : EReal) else 0) * v15 (ix2 k q) := by
  unfold k3_pay2
  refine (body_apply _ v3 v15 v18 p q).trans ?_
  rw [word_eq]

end Cert.KernelIdeal.RedPay

end
-- ==== Proof.RedArr.lean ====
/-
  The value of the reduce stage's output array, for both hops.

  The reduce call runs over a grid of row blocks rb and chunks nb of 1024 entries, nb fastest. At point (rb, nb) it adds
  to its scratch block, at row p and column q, the messages of the chunk's entries whose row word is the word of
  rb · 1024 + p; the scratch is zeroed at nb = 0. So, by induction along a run, after point (rb, nb) the scratch holds at
  (p, q) the sum over the chunks 0 … nb of those messages, and at nb = 292 — where the output block rb is written back —
  the sum over all 293 · 1024 = 300032 entries: row rb · 1024 + p of the reduce stage's result, the sum of the messages
  of the entries whose row word names that row. The output blocks of the runs' last points tile the result's rows, so
  the array ends holding the reduce stage's result of the row words and the message table the call found.
-/
import proofs.«402914_j8864812499579_1_alg».proof.Proof.KI.Red1
import proofs.«402914_j8864812499579_1_alg».proof.Proof.KI.Red3
import proofs.«402914_j8864812499579_1_alg».proof.Proof.RedPay
import proofs.«402914_j8864812499579_1_alg».proof.Proof.Compose
import proofs.«402914_j8864812499579_1_alg».proof.Proof.KSpec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Frame

/-! ## The entries of the padded coordinate list and of the message table, read at a natural number -/

/-- The row word of entry n (the zero word past the list's end). -/
def rowsN (rows : S1x300032.Idx → BitVec 32) (n : ℕ) : BitVec 32 :=
  if h : n < 300032 then rows (ix2 (0 : Fin 1) (⟨n, h⟩ : Fin 300032)) else 0

/-- Entry (n, q) of the message table (zero past its end). -/
def msgN (msg : S300032x256.Idx → EReal) (n : ℕ) (q : Fin 256) : EReal :=
  if h : n < 300032 then msg (ix2 (⟨n, h⟩ : Fin 300032) q) else 0

/-- What entry n adds to row r of the result at column q: its message where its row word is the word of r. -/
def term (rows : S1x300032.Idx → BitVec 32) (msg : S300032x256.Idx → EReal) (r : ℕ) (q : Fin 256) (n : ℕ) : EReal :=
  (if BitVec.ofNat 32 r = rowsN rows n then (1 : EReal) else 0) * msgN msg n q

theorem rowsN_of_lt (rows : S1x300032.Idx → BitVec 32) {n : ℕ} (h : n < 300032) :
    rowsN rows n = rows (ix2 (0 : Fin 1) (⟨n, h⟩ : Fin 300032)) := dif_pos h

theorem msgN_of_lt (msg : S300032x256.Idx → EReal) {n : ℕ} (h : n < 300032) (q : Fin 256) :
    msgN msg n q = msg (ix2 (⟨n, h⟩ : Fin 300032) q) := dif_pos h

/-- Row r of the reduce stage's result at column q is the sum of what the 300032 entries add to it. -/
theorem redOut_eq_sum {R : ℕ} (rows : S1x300032.Idx → BitVec 32) (msg : S300032x256.Idx → EReal) (r : Fin R) (q : Fin 256) :
    Cert.KSpec.redOut R rows msg (ix2 r q) = ∑ n ∈ Finset.range (293 * 1024), term rows msg r.val q n := by
  show ∑ n : Fin 300032, (if rows (ix2 (0 : Fin 1) n) = BitVec.ofNat 32 r.val then msg (ix2 n (⟨q.val, q.isLt⟩ : Fin 256)) else 0) = _
  rw [show 293 * 1024 = 300032 from rfl, Finset.sum_range]
  refine Finset.sum_congr rfl fun n _ => ?_
  unfold term
  rw [rowsN_of_lt rows n.isLt, msgN_of_lt msg n.isLt q]
  by_cases h : rows (ix2 (0 : Fin 1) n) = BitVec.ofNat 32 r.val
  · rw [if_pos h, if_pos h.symm, one_mul]
  · rw [if_neg h, if_neg (fun e => h e.symm), zero_mul]

section One
variable (V : (c : Dev nD) → (b : Ref sig .tc) → Buf (Elt Ideal) ((c : Thread nD τ).loc b))

/-! ## Pallas_call 1: where a point's blocks lie -/

/-- The first grid coordinate of a point is the point's number divided by the inner extent. -/
theorem coords1_0 (t : Fin cfg1.N) : ((grid1.coords t) 0).val = t.val / 293 := by
  show t.val / grid1.stride 0 % grid1.bound 0 = t.val / 293
  have hN : grid1.N = 5860 := N_1
  have ht : t.val < 5860 := hN ▸ t.isLt
  rw [show grid1.stride 0 = 293 from by decide, show grid1.bound 0 = 20 from rfl]
  omega

/-- The row words' block at point t is block t mod 293 of the list; -/
theorem idx1_0 (t : Fin cfg1.N) : win1_0.index t 0 = 0 ∧ win1_0.index t 1 = t.val % 293 := by
  refine ⟨rfl, ?_⟩
  show (BitVec.ofNat 32 ((grid1.coords t) 1).val).toNat = _
  rw [coords1_1, BitVec.toNat_ofNat]
  omega

/-- the message block is block t mod 293 of the table's rows; -/
theorem idx1_1 (t : Fin cfg1.N) : win1_1.index t 0 = t.val % 293 ∧ win1_1.index t 1 = 0 := by
  refine ⟨?_, rfl⟩
  show (BitVec.ofNat 32 ((grid1.coords t) 1).val).toNat = _
  rw [coords1_1, BitVec.toNat_ofNat]
  omega

/-- the output block is block t / 293 of the result's rows. -/
theorem idx1_2 (t : Fin cfg1.N) : win1_2.index t 0 = t.val / 293 ∧ win1_2.index t 1 = 0 := by
  refine ⟨?_, rfl⟩
  show (BitVec.ofNat 32 ((grid1.coords t) 0).val).toNat = _
  have hN : grid1.N = 5860 := N_1
  have ht : t.val < 5860 := hN ▸ t.isLt
  rw [coords1_0, BitVec.toNat_ofNat]
  omega

/-- The row words the body loads at point t are entries (t mod 293) · 1024 + k of the list. -/
theorem rblk1_apply (c : Dev nD) (t : Fin cfg1.N) (k : Fin 1024) :
    (iblk1 V c 0 t : S1x1024.Idx → BitVec 32) (ix2 (0 : Fin 1) k)
      = rowsN (V c main_v5 : S1x300032.Idx → BitVec 32) (t.val % 293 * 1024 + k.val) := by
  rw [rowsN_of_lt _ (by omega)]
  unfold iblk1
  rw [View.read_apply]
  show (V c main_v5 : S1x300032.Idx → BitVec 32) (((cfg1.win 0).blk t).view.emb (ix2 (0 : Fin 1) k)) = _
  refine congrArg _ (funext fun a => Fin.ext ?_)
  obtain ⟨e0, e1⟩ := idx1_0 t
  match a with
  | ⟨0, _⟩ => show win1_0.index t 0 * 1 + 1 * 0 = 0; rw [e0]
  | ⟨1, _⟩ => show win1_0.index t 1 * 1024 + 1 * k.val = t.val % 293 * 1024 + k.val; rw [e1]; omega

/-- The message block the body loads at point t is rows (t mod 293) · 1024 + k of the table. -/
theorem mblk1_apply (c : Dev nD) (t : Fin cfg1.N) (k : Fin 1024) (q : Fin 256) :
    (iblk1 V c 1 t : S1024x256.Idx → EReal) (ix2 k q)
      = msgN (V c main_v8 : S300032x256.Idx → EReal) (t.val % 293 * 1024 + k.val) q := by
  rw [msgN_of_lt _ (by omega)]
  unfold iblk1
  rw [View.read_apply]
  show (V c main_v8 : S300032x256.Idx → EReal) (((cfg1.win 1).blk t).view.emb (ix2 k q)) = _
  refine congrArg _ (funext fun a => Fin.ext ?_)
  obtain ⟨e0, e1⟩ := idx1_1 t
  match a with
  | ⟨0, _⟩ => show win1_1.index t 0 * 1024 + 1 * k.val = t.val % 293 * 1024 + k.val; rw [e0]; omega
  | ⟨1, _⟩ => show win1_1.index t 1 * 256 + 1 * q.val = q.val; rw [e1]; omega

/-- The body's payload at point t over a running block x, at (p, q): x there plus what the 1024 entries of the
    point's chunk add to row (t / 293) · 1024 + p. -/
theorem pay1_apply (c : Dev nD) (t : Fin cfg1.N) (x : Vec Ideal S1024x256 .f32) (p : Fin 1024) (q : Fin 256) :
    k1_pay2 (F := Ideal) (grid1.coords t) (iblk1 V c 0 t) (iblk1 V c 1 t) x (ix2 p q)
      = x (ix2 p q) + ∑ k : Fin 1024, term (V c main_v5) (V c main_v8) (t.val / 293 * 1024 + p.val) q (t.val % 293 * 1024 + k.val) := by
  refine (RedPay.k1_pay2_apply (grid1.coords t) (iblk1 V c 0 t) (iblk1 V c 1 t) x p q).trans ?_
  refine congrArg (x (ix2 p q) + ·) (Finset.sum_congr rfl fun k _ => ?_)
  unfold term
  rw [coords1_0, ← rblk1_apply V c t k, ← mblk1_apply V c t k q]

/-! ## The running sum, closed: after point n the scratch holds, for each of its 1024 rows, what the chunks
    0 … n mod 293 of entries add to that row of the point's row block -/

theorem acc1_apply (c : Dev nD) : ∀ (n : ℕ) (hn : n < cfg1.N) (p : Fin 1024) (q : Fin 256),
    (acc1 V c n hn : S1024x256.Idx → EReal) (ix2 p q)
      = ∑ nb ∈ Finset.range (n % 293 + 1), ∑ k : Fin 1024,
          term (V c main_v5) (V c main_v8) (n / 293 * 1024 + p.val) q (nb * 1024 + k.val)
  | 0, hn, p, q => by
    rw [acc1_first V c ⟨0, hn⟩ rfl, pay1_apply V c ⟨0, hn⟩ _ p q, RedPay.k1_pay1_apply, zero_add]
    show _ = ∑ nb ∈ Finset.range 1, _
    rw [Finset.sum_range_one]
    rfl
  | n + 1, hn, p, q => by
    by_cases h0 : (n + 1) % 293 = 0
    · rw [acc1_first V c ⟨n + 1, hn⟩ h0, pay1_apply V c ⟨n + 1, hn⟩ _ p q, RedPay.k1_pay1_apply, zero_add]
      show _ = ∑ nb ∈ Finset.range ((n + 1) % 293 + 1), _
      rw [h0, Finset.sum_range_one]
    · rw [acc1_next V c ⟨n + 1, hn⟩ h0, pay1_apply V c ⟨n + 1, hn⟩ _ p q]
      show (acc1 V c n _ : S1024x256.Idx → EReal) (ix2 p q) + _ = _
      rw [acc1_apply c n (Nat.lt_of_succ_lt hn) p q]
      have e1 : (n + 1) / 293 = n / 293 := by omega
      have e2 : (n + 1) % 293 = n % 293 + 1 := by omega
      show _ + ∑ k : Fin 1024, term (V c main_v5) (V c main_v8) ((n + 1) / 293 * 1024 + p.val) q ((n + 1) % 293 * 1024 + k.val) = _
      rw [e1, e2, Finset.sum_range_succ (n := n % 293 + 1)]

/-! ## The write-backs: the output block is written back at the last point of each run of 293 -/

theorem flushAt1_2 (t : Fin cfg1.N) : (cfg1.win 2).flush t = true ↔ t.val % 293 = 292 := by
  have hN : grid1.N = 5860 := N_1
  have ht : t.val < 5860 := hN ▸ t.isLt
  rw [Pipeline.Window.flush_out _ rfl]
  constructor
  · rintro (h | ⟨h, hne⟩)
    · have : t.val + 1 = 5860 := h.trans hN
      omega
    · by_contra hc
      refine hne (funext fun a => ?_)
      obtain ⟨a0, a1⟩ := idx1_2 t
      obtain ⟨b0, b1⟩ := idx1_2 ⟨t.val + 1, h⟩
      match a with
      | ⟨0, _⟩ => show win1_2.index ⟨t.val + 1, h⟩ 0 = win1_2.index t 0; rw [a0, b0]; show (t.val + 1) / 293 = t.val / 293; omega
      | ⟨1, _⟩ => show win1_2.index ⟨t.val + 1, h⟩ 1 = win1_2.index t 1; rw [a1, b1]
  · intro h
    by_cases hl : t.val + 1 = grid1.N
    · exact .inl hl
    · have h' : t.val + 1 < grid1.N := by
        have : t.val + 1 ≠ 5860 := fun e => hl (e.trans hN.symm)
        rw [hN]; omega
      refine .inr ⟨h', fun e => ?_⟩
      have e0 := congrFun e 0
      rw [show (cfg1.win 2).index ⟨t.val + 1, h'⟩ 0 = win1_2.index ⟨t.val + 1, h'⟩ 0 from rfl, show (cfg1.win 2).index t 0 = win1_2.index t 0 from rfl,
        (idx1_2 t).1, (idx1_2 ⟨t.val + 1, h'⟩).1] at e0
      have : (t.val + 1) / 293 = t.val / 293 := e0
      omega

/-! ## What a write-back writes, the cover, the array -/

/-- The block written back at the last point of run rb is rows rb · 1024 … rb · 1024 + 1023 of the reduce stage's
    result: the running sum there has met all 293 chunks of entries, and 293 chunks of 1024 are the whole list. -/
theorem flushed1_eq_of (c : Dev nD) (G : S20480x256.Idx → EReal)
    (hG : ∀ (r : Fin 20480) (q : Fin 256), G (ix2 r q) = ∑ n ∈ Finset.range (293 * 1024), term (V c main_v5) (V c main_v8) r.val q n)
    (t : Fin cfg1.N) (hf : (cfg1.win 2).flush t = true) :
    (dat1 V c).flushed 2 t = ((cfg1.win 2).blk t).view.read (Elt Ideal) G := by
  have h292 : t.val % 293 = 292 := (flushAt1_2 t).mp hf
  have hN : grid1.N = 5860 := N_1
  have ht : t.val < 5860 := hN ▸ t.isLt
  show (cfg1.win 2).cut (grid1.coords t) ((dat1 V c).after 2 t) = _
  rw [after1_2]
  funext j
  obtain ⟨p, q, rfl⟩ : ∃ (p : Fin 1024) (q : Fin 256), j = ix2 p q := ⟨j 0, j 1, eq_ix2 j⟩
  rw [View.read_apply]
  have hemb : ((cfg1.win 2).blk t).view.emb (ix2 p q) = ix2 (⟨t.val / 293 * 1024 + p.val, by omega⟩ : Fin 20480) q :=
    funext fun a => Fin.ext (by
      obtain ⟨e0, e1⟩ := idx1_2 t
      match a with
      | ⟨0, _⟩ => show win1_2.index t 0 * 1024 + 1 * p.val = t.val / 293 * 1024 + p.val; rw [e0]; omega
      | ⟨1, _⟩ => show win1_2.index t 1 * 256 + 1 * q.val = q.val; rw [e1]; omega)
  show (acc1 V c t.val t.isLt : S1024x256.Idx → EReal) (ix2 p q) = G (((cfg1.win 2).blk t).view.emb (ix2 p q))
  rw [hemb, acc1_apply V c t.val t.isLt p q, hG, show t.val % 293 + 1 = 293 from by omega]
  exact Cert.Compose.sum_blocks_flat 293 _

/-- An index of the result is in point t's output block iff each coordinate is in the block's range on its axis. -/
theorem mem_blk1_2 (t : Fin cfg1.N) (i : S20480x256.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v9).slice (win1_2.rect t)).set ↔ _
  rw [View.set_slice_whole, Rect.mem_set_unit]
  exact Iff.rfl

/-- Every row of the result lies in the block some run's last point writes back. -/
theorem cover1 (i : S20480x256.Idx) : ∃ t : Fin cfg1.N, (cfg1.win 2).flush t = true ∧ i ∈ ((cfg1.win 2).blk t).view.set := by
  have hN : grid1.N = 5860 := N_1
  have hi0 : (i 0).val < 20480 := (i 0).isLt
  have hi1 : (i 1).val < 256 := (i 1).isLt
  let t : Fin cfg1.N := ⟨(i 0).val / 1024 * 293 + 292, by show _ < grid1.N; rw [hN]; omega⟩
  have htv : t.val = (i 0).val / 1024 * 293 + 292 := rfl
  refine ⟨t, (flushAt1_2 t).mpr (by rw [htv]; omega), ?_⟩
  rw [mem_blk1_2]
  obtain ⟨e0, e1⟩ := idx1_2 t
  intro a
  match a with
  | ⟨0, _⟩ =>
    show win1_2.index t 0 * 1024 ≤ (i 0).val ∧ (i 0).val < win1_2.index t 0 * 1024 + 1024
    rw [e0, htv]; omega
  | ⟨1, _⟩ =>
    show win1_2.index t 1 * 256 ≤ (i 1).val ∧ (i 1).val < win1_2.index t 1 * 256 + 256
    rw [e1]; omega

/-- THE OUTPUT ARRAY of pallas_call 1: the reduce stage's result of the row words and the message table the call finds. -/
theorem arr1 (c : Dev nD) :
    ((dat1 (F := Ideal) V c).arrAt 2 cfg1.N : S20480x256.Idx → EReal)
      = Cert.KSpec.redOut 20480 (V c main_v5) (V c main_v8) :=
  (dat1 V c).arrAt_eq_of_cover 2 (Cert.KSpec.redOut 20480 (V c main_v5) (V c main_v8))
    (flushed1_eq_of V c _ (fun r q => redOut_eq_sum (V c main_v5) (V c main_v8) r q)) cover1

end One

section Three
variable (V : (c : Dev nD) → (b : Ref sig .tc) → Buf (Elt Ideal) ((c : Thread nD τ).loc b))

/-! ## Pallas_call 3: where a point's blocks lie -/

/-- The first grid coordinate of a point is the point's number divided by the inner extent. -/
theorem coords3_0 (t : Fin cfg3.N) : ((grid3.coords t) 0).val = t.val / 293 := by
  show t.val / grid3.stride 0 % grid3.bound 0 = t.val / 293
  have hN : grid3.N = 28714 := N_3
  have ht : t.val < 28714 := hN ▸ t.isLt
  rw [show grid3.stride 0 = 293 from by decide, show grid3.bound 0 = 98 from rfl]
  omega

/-- The row words' block at point t is block t mod 293 of the list; -/
theorem idx3_0 (t : Fin cfg3.N) : win3_0.index t 0 = 0 ∧ win3_0.index t 1 = t.val % 293 := by
  refine ⟨rfl, ?_⟩
  show (BitVec.ofNat 32 ((grid3.coords t) 1).val).toNat = _
  rw [coords3_1, BitVec.toNat_ofNat]
  omega

/-- the message block is block t mod 293 of the table's rows; -/
theorem idx3_1 (t : Fin cfg3.N) : win3_1.index t 0 = t.val % 293 ∧ win3_1.index t 1 = 0 := by
  refine ⟨?_, rfl⟩
  show (BitVec.ofNat 32 ((grid3.coords t) 1).val).toNat = _
  rw [coords3_1, BitVec.toNat_ofNat]
  omega

/-- the output block is block t / 293 of the result's rows. -/
theorem idx3_2 (t : Fin cfg3.N) : win3_2.index t 0 = t.val / 293 ∧ win3_2.index t 1 = 0 := by
  refine ⟨?_, rfl⟩
  show (BitVec.ofNat 32 ((grid3.coords t) 0).val).toNat = _
  have hN : grid3.N = 28714 := N_3
  have ht : t.val < 28714 := hN ▸ t.isLt
  rw [coords3_0, BitVec.toNat_ofNat]
  omega

/-- The row words the body loads at point t are entries (t mod 293) · 1024 + k of the list. -/
theorem rblk3_apply (c : Dev nD) (t : Fin cfg3.N) (k : Fin 1024) :
    (iblk3 V c 0 t : S1x1024.Idx → BitVec 32) (ix2 (0 : Fin 1) k)
      = rowsN (V c main_v16 : S1x300032.Idx → BitVec 32) (t.val % 293 * 1024 + k.val) := by
  rw [rowsN_of_lt _ (by omega)]
  unfold iblk3
  rw [View.read_apply]
  show (V c main_v16 : S1x300032.Idx → BitVec 32) (((cfg3.win 0).blk t).view.emb (ix2 (0 : Fin 1) k)) = _
  refine congrArg _ (funext fun a => Fin.ext ?_)
  obtain ⟨e0, e1⟩ := idx3_0 t
  match a with
  | ⟨0, _⟩ => show win3_0.index t 0 * 1 + 1 * 0 = 0; rw [e0]
  | ⟨1, _⟩ => show win3_0.index t 1 * 1024 + 1 * k.val = t.val % 293 * 1024 + k.val; rw [e1]; omega

/-- The message block the body loads at point t is rows (t mod 293) · 1024 + k of the table. -/
theorem mblk3_apply (c : Dev nD) (t : Fin cfg3.N) (k : Fin 1024) (q : Fin 256) :
    (iblk3 V c 1 t : S1024x256.Idx → EReal) (ix2 k q)
      = msgN (V c main_v19 : S300032x256.Idx → EReal) (t.val % 293 * 1024 + k.val) q := by
  rw [msgN_of_lt _ (by omega)]
  unfold iblk3
  rw [View.read_apply]
  show (V c main_v19 : S300032x256.Idx → EReal) (((cfg3.win 1).blk t).view.emb (ix2 k q)) = _
  refine congrArg _ (funext fun a => Fin.ext ?_)
  obtain ⟨e0, e1⟩ := idx3_1 t
  match a with
  | ⟨0, _⟩ => show win3_1.index t 0 * 1024 + 1 * k.val = t.val % 293 * 1024 + k.val; rw [e0]; omega
  | ⟨1, _⟩ => show win3_1.index t 1 * 256 + 1 * q.val = q.val; rw [e1]; omega

/-- The body's payload at point t over a running block x, at (p, q): x there plus what the 1024 entries of the
    point's chunk add to row (t / 293) · 1024 + p. -/
theorem pay3_apply (c : Dev nD) (t : Fin cfg3.N) (x : Vec Ideal S1024x256 .f32) (p : Fin 1024) (q : Fin 256) :
    k3_pay2 (F := Ideal) (grid3.coords t) (iblk3 V c 0 t) (iblk3 V c 1 t) x (ix2 p q)
      = x (ix2 p q) + ∑ k : Fin 1024, term (V c main_v16) (V c main_v19) (t.val / 293 * 1024 + p.val) q (t.val % 293 * 1024 + k.val) := by
  refine (RedPay.k3_pay2_apply (grid3.coords t) (iblk3 V c 0 t) (iblk3 V c 1 t) x p q).trans ?_
  refine congrArg (x (ix2 p q) + ·) (Finset.sum_congr rfl fun k _ => ?_)
  unfold term
  rw [coords3_0, ← rblk3_apply V c t k, ← mblk3_apply V c t k q]

/-! ## The running sum, closed: after point n the scratch holds, for each of its 1024 rows, what the chunks
    0 … n mod 293 of entries add to that row of the point's row block -/

theorem acc3_apply (c : Dev nD) : ∀ (n : ℕ) (hn : n < cfg3.N) (p : Fin 1024) (q : Fin 256),
    (acc3 V c n hn : S1024x256.Idx → EReal) (ix2 p q)
      = ∑ nb ∈ Finset.range (n % 293 + 1), ∑ k : Fin 1024,
          term (V c main_v16) (V c main_v19) (n / 293 * 1024 + p.val) q (nb * 1024 + k.val)
  | 0, hn, p, q => by
    rw [acc3_first V c ⟨0, hn⟩ rfl, pay3_apply V c ⟨0, hn⟩ _ p q, RedPay.k3_pay1_apply, zero_add]
    show _ = ∑ nb ∈ Finset.range 1, _
    rw [Finset.sum_range_one]
    rfl
  | n + 1, hn, p, q => by
    by_cases h0 : (n + 1) % 293 = 0
    · rw [acc3_first V c ⟨n + 1, hn⟩ h0, pay3_apply V c ⟨n + 1, hn⟩ _ p q, RedPay.k3_pay1_apply, zero_add]
      show _ = ∑ nb ∈ Finset.range ((n + 1) % 293 + 1), _
      rw [h0, Finset.sum_range_one]
    · rw [acc3_next V c ⟨n + 1, hn⟩ h0, pay3_apply V c ⟨n + 1, hn⟩ _ p q]
      show (acc3 V c n _ : S1024x256.Idx → EReal) (ix2 p q) + _ = _
      rw [acc3_apply c n (Nat.lt_of_succ_lt hn) p q]
      have e1 : (n + 1) / 293 = n / 293 := by omega
      have e2 : (n + 1) % 293 = n % 293 + 1 := by omega
      show _ + ∑ k : Fin 1024, term (V c main_v16) (V c main_v19) ((n + 1) / 293 * 1024 + p.val) q ((n + 1) % 293 * 1024 + k.val) = _
      rw [e1, e2, Finset.sum_range_succ (n := n % 293 + 1)]

/-! ## The write-backs: the output block is written back at the last point of each run of 293 -/

theorem flushAt3_2 (t : Fin cfg3.N) : (cfg3.win 2).flush t = true ↔ t.val % 293 = 292 := by
  have hN : grid3.N = 28714 := N_3
  have ht : t.val < 28714 := hN ▸ t.isLt
  rw [Pipeline.Window.flush_out _ rfl]
  constructor
  · rintro (h | ⟨h, hne⟩)
    · have : t.val + 1 = 28714 := h.trans hN
      omega
    · by_contra hc
      refine hne (funext fun a => ?_)
      obtain ⟨a0, a1⟩ := idx3_2 t
      obtain ⟨b0, b1⟩ := idx3_2 ⟨t.val + 1, h⟩
      match a with
      | ⟨0, _⟩ => show win3_2.index ⟨t.val + 1, h⟩ 0 = win3_2.index t 0; rw [a0, b0]; show (t.val + 1) / 293 = t.val / 293; omega
      | ⟨1, _⟩ => show win3_2.index ⟨t.val + 1, h⟩ 1 = win3_2.index t 1; rw [a1, b1]
  · intro h
    by_cases hl : t.val + 1 = grid3.N
    · exact .inl hl
    · have h' : t.val + 1 < grid3.N := by
        have : t.val + 1 ≠ 28714 := fun e => hl (e.trans hN.symm)
        rw [hN]; omega
      refine .inr ⟨h', fun e => ?_⟩
      have e0 := congrFun e 0
      rw [show (cfg3.win 2).index ⟨t.val + 1, h'⟩ 0 = win3_2.index ⟨t.val + 1, h'⟩ 0 from rfl, show (cfg3.win 2).index t 0 = win3_2.index t 0 from rfl,
        (idx3_2 t).1, (idx3_2 ⟨t.val + 1, h'⟩).1] at e0
      have : (t.val + 1) / 293 = t.val / 293 := e0
      omega

/-! ## What a write-back writes, the cover, the array -/

/-- The block written back at the last point of run rb is rows rb · 1024 … rb · 1024 + 1023 of the reduce stage's
    result: the running sum there has met all 293 chunks of entries, and 293 chunks of 1024 are the whole list. -/
theorem flushed3_eq_of (c : Dev nD) (G : S100352x256.Idx → EReal)
    (hG : ∀ (r : Fin 100352) (q : Fin 256), G (ix2 r q) = ∑ n ∈ Finset.range (293 * 1024), term (V c main_v16) (V c main_v19) r.val q n)
    (t : Fin cfg3.N) (hf : (cfg3.win 2).flush t = true) :
    (dat3 V c).flushed 2 t = ((cfg3.win 2).blk t).view.read (Elt Ideal) G := by
  have h292 : t.val % 293 = 292 := (flushAt3_2 t).mp hf
  have hN : grid3.N = 28714 := N_3
  have ht : t.val < 28714 := hN ▸ t.isLt
  show (cfg3.win 2).cut (grid3.coords t) ((dat3 V c).after 2 t) = _
  rw [after3_2]
  funext j
  obtain ⟨p, q, rfl⟩ : ∃ (p : Fin 1024) (q : Fin 256), j = ix2 p q := ⟨j 0, j 1, eq_ix2 j⟩
  rw [View.read_apply]
  have hemb : ((cfg3.win 2).blk t).view.emb (ix2 p q) = ix2 (⟨t.val / 293 * 1024 + p.val, by omega⟩ : Fin 100352) q :=
    funext fun a => Fin.ext (by
      obtain ⟨e0, e1⟩ := idx3_2 t
      match a with
      | ⟨0, _⟩ => show win3_2.index t 0 * 1024 + 1 * p.val = t.val / 293 * 1024 + p.val; rw [e0]; omega
      | ⟨1, _⟩ => show win3_2.index t 1 * 256 + 1 * q.val = q.val; rw [e1]; omega)
  show (acc3 V c t.val t.isLt : S1024x256.Idx → EReal) (ix2 p q) = G (((cfg3.win 2).blk t).view.emb (ix2 p q))
  rw [hemb, acc3_apply V c t.val t.isLt p q, hG, show t.val % 293 + 1 = 293 from by omega]
  exact Cert.Compose.sum_blocks_flat 293 _

/-- An index of the result is in point t's output block iff each coordinate is in the block's range on its axis. -/
theorem mem_blk3_2 (t : Fin cfg3.N) (i : S100352x256.Idx) :
    i ∈ ((cfg3.win 2).blk t).view.set ↔ ∀ a : Fin 2, win3_2.index t a * S1024x256.size a ≤ (i a).val
      ∧ (i a).val < win3_2.index t a * S1024x256.size a + S1024x256.size a := by
  show i ∈ ((View.whole main_v20).slice (win3_2.rect t)).set ↔ _
  rw [View.set_slice_whole, Rect.mem_set_unit]
  exact Iff.rfl

/-- Every row of the result lies in the block some run's last point writes back. -/
theorem cover3 (i : S100352x256.Idx) : ∃ t : Fin cfg3.N, (cfg3.win 2).flush t = true ∧ i ∈ ((cfg3.win 2).blk t).view.set := by
  have hN : grid3.N = 28714 := N_3
  have hi0 : (i 0).val < 100352 := (i 0).isLt
  have hi1 : (i 1).val < 256 := (i 1).isLt
  let t : Fin cfg3.N := ⟨(i 0).val / 1024 * 293 + 292, by show _ < grid3.N; rw [hN]; omega⟩
  have htv : t.val = (i 0).val / 1024 * 293 + 292 := rfl
  refine ⟨t, (flushAt3_2 t).mpr (by rw [htv]; omega), ?_⟩
  rw [mem_blk3_2]
  obtain ⟨e0, e1⟩ := idx3_2 t
  intro a
  match a with
  | ⟨0, _⟩ =>
    show win3_2.index t 0 * 1024 ≤ (i 0).val ∧ (i 0).val < win3_2.index t 0 * 1024 + 1024
    rw [e0, htv]; omega
  | ⟨1, _⟩ =>
    show win3_2.index t 1 * 256 ≤ (i 1).val ∧ (i 1).val < win3_2.index t 1 * 256 + 256
    rw [e1]; omega

/-- THE OUTPUT ARRAY of pallas_call 3: the reduce stage's result of the row words and the message table the call finds. -/
theorem arr3 (c : Dev nD) :
    ((dat3 (F := Ideal) V c).arrAt 2 cfg3.N : S100352x256.Idx → EReal)
      = Cert.KSpec.redOut 100352 (V c main_v16) (V c main_v19) :=
  (dat3 V c).arrAt_eq_of_cover 2 (Cert.KSpec.redOut 100352 (V c main_v16) (V c main_v19))
    (flushed3_eq_of V c _ (fun r q => redOut_eq_sum (V c main_v16) (V c main_v19) r q)) cover3

end Three

end Cert.KernelIdeal.Val

end
-- ==== Proof.Final.lean ====
/-
  The idealized kernel program's result is the specification's.  The last valuation's result buffer is the first 100000
  rows of what pallas_call 3 leaves; that is the reduce stage over what pallas_call 2 leaves, which is the message stage
  over the padded operands of the second hop, whose dense table is — padded with zero rows — the first 20000 rows of what
  pallas_call 1 leaves, the reduce stage over pallas_call 0's message stage over the padded operands of the first hop.
  With the host operations' contents read at an index, the composition lemma of the two hops closes the equation.
-/
import proofs.«402914_j8864812499579_1_alg».proof.Proof.KI.Run
import proofs.«402914_j8864812499579_1_alg».proof.Proof.HostVals
import proofs.«402914_j8864812499579_1_alg».proof.Proof.MsgArr
import proofs.«402914_j8864812499579_1_alg».proof.Proof.RedArr
import proofs.«402914_j8864812499579_1_alg».proof.Proof.Compose

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame Cert.KernelIdeal.HostVals

variable (m : (ℓ : Loc nD τ sig) → Buf (Elt Ideal) ℓ)

/-- What pallas_call 0 leaves: the message stage over the first hop's padded operands. -/
theorem o0_eq (c : Dev nD) :
    (o0 m c : S300032x256.Idx → EReal) = Cert.KSpec.msgOut 100352 (V9 m c main_v1) (V9 m c main_v3) (V9 m c main_v7) :=
  arr0 (atTc (V9 m)) c

/-- What pallas_call 1 leaves: the reduce stage over that. -/
theorem o1_eq (c : Dev nD) :
    (o1 m c : S20480x256.Idx → EReal) = Cert.KSpec.redOut 20480 (V9 m c main_v5) (Cert.KSpec.msgOut 100352 (V9 m c main_v1) (V9 m c main_v3) (V9 m c main_v7)) := by
  refine (arr1 (atTc (V10 m (outsA m))) c).trans ?_
  show Cert.KSpec.redOut 20480 (V10 m (outsA m) c main_v5) (V10 m (outsA m) c main_v8) = _
  rw [V10_of m (outsA m) c main_v5 (by decide), Frame.V10_v8, show outsA m 10 main_v8 c = o0 m c from outsOf_v8 .., o0_eq]

/-- What pallas_call 2 leaves: the message stage over the second hop's padded operands. -/
theorem o2_eq (c : Dev nD) :
    (o2 m c : S300032x256.Idx → EReal) = Cert.KSpec.msgOut 20480 (V20 m (outsB m) c main_v12) (V20 m (outsB m) c main_v14) (V20 m (outsB m) c main_v18) :=
  arr2 (atTc (V20 m (outsB m))) c

/-- What pallas_call 3 leaves: the reduce stage over that. -/
theorem o3_eq (c : Dev nD) :
    (o3 m c : S100352x256.Idx → EReal) = Cert.KSpec.redOut 100352 (V21 m (outsC m) c main_v16)
      (Cert.KSpec.msgOut 20480 (V20 m (outsB m) c main_v12) (V20 m (outsB m) c main_v14) (V20 m (outsB m) c main_v18)) := by
  refine (arr3 (atTc (V21 m (outsC m))) c).trans ?_
  show Cert.KSpec.redOut 100352 (V21 m (outsC m) c main_v16) (V21 m (outsC m) c main_v19) = _
  rw [Frame.V21_v19, show outsC m 21 main_v19 c = o2 m c from outsOf_v19 .., o2_eq]

/-- THE KERNEL PROGRAM'S VALUE: with every column word in range, the result buffer at the end of @main holds the two-hop
    specification of the seven arguments. -/
theorem kernel_val (c : Dev nD)
    (hU : Cert.Spec.ColsIn 100000 (m ((c.tc : Thread nD τ).loc main_arg2)))
    (hP : Cert.Spec.ColsIn 20000 (m ((c.tc : Thread nD τ).loc main_arg5))) :
    (V23 m (outs m) c main_v21 : S100000x256.Idx → EReal)
      = Cert.Spec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  funext j
  obtain ⟨r, d, rfl⟩ : ∃ (r : Fin 100000) (d : Fin 256), j = ix2 r d := ⟨j 0, j 1, eq_ix2 j⟩
  rw [V23_v21 m (outs m) c r d, show outs m 22 main_v20 c = o3 m c from outsOf_v20 .., o3_eq]
  refine Cert.Compose.compose _ _ _ _ _ _ _ hU hP
    (V9 m c main_v1) (V9 m c main_v5) (V9 m c main_v3) (V9 m c main_v7)
    (V20 m (outsB m) c main_v12) (V21 m (outsC m) c main_v16) (V20 m (outsB m) c main_v14) (V20 m (outsB m) c main_v18)
    (V9_v1 m c) (V9_v5 m c) (V9_v3 m c) (V9_v7 m c)
    (V20_v12 m (outsB m) c) (V21_v16 m (outsC m) c) (V20_v14 m (outsB m) c) ?_ r d
  intro r' d'
  rw [V20_v18 m (outsB m) c r' d', show outsB m 11 main_v9 c = o1 m c from outsOf_v9 .., o1_eq]

end Cert.KernelIdeal.Val

end
-- ==== Proof.lean ====
/-
  The certificate's proof.  The kernel program is four pallas_calls — for each of the two hops a message stage (one row of
  the dense table per stored entry, selected by a one-hot matrix product and scaled by the entry's weight, accumulated over
  the table's row blocks in a scratch buffer) and a reduce stage (the messages summed into their rows by a one-hot matrix
  product, accumulated over the entries' chunks) — among host operations that pad, reshape, convert and slice.  Each
  program's frame is the program's conditional frame at the four calls' run proofs; the idealization changes nothing, so
  `preserves` is trivial; and at the ideal instance both programs end at the two-hop specification of their arguments,
  given that every column word names a row of the table it indexes, which the precondition states.
-/
import proofs.«402914_j8864812499579_1_alg».proof.Defs
import proofs.«402914_j8864812499579_1_alg».proof.Proof.Gen.Kernel
import proofs.«402914_j8864812499579_1_alg».proof.Proof.Gen.KernelIdeal
import proofs.«402914_j8864812499579_1_alg».proof.Proof.Gen.ReferenceIdeal
import proofs.«402914_j8864812499579_1_alg».proof.Proof.Gen.Pre_finite_inputs
import proofs.«402914_j8864812499579_1_alg».proof.Proof.Gen.ReferenceIdeal.Run
import proofs.«402914_j8864812499579_1_alg».proof.Proof.K.Run
import proofs.«402914_j8864812499579_1_alg».proof.Proof.KI.Run
import proofs.«402914_j8864812499579_1_alg».proof.Proof.RefValue
import proofs.«402914_j8864812499579_1_alg».proof.Proof.PreFacts
import proofs.«402914_j8864812499579_1_alg».proof.Proof.Final
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : @Cert.frame_Kernel Cert.Kernel.Gen.facts Cert.Pre_finite_inputs.Gen.facts :=
  fun m ρ _ => Cert.Kernel.Frame.frame m ρ

/-- So does the idealized program, at the ideal instance. -/
theorem frame_ki : @Cert.frame_KernelIdeal Cert.KernelIdeal.Gen.facts Cert.Pre_finite_inputs.Gen.facts :=
  fun m ρ _ => Cert.KernelIdeal.Frame.frame m ρ

/-- The reference is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end at the specification's result of the arguments: the kernel program by the four calls'
    values composed, the reference by its run read at an index; the column ranges both need are the precondition's. -/
theorem algebraic : @Cert.algebraic_KernelIdeal_ReferenceIdeal Cert.KernelIdeal.Gen.facts Cert.ReferenceIdeal.Gen.facts Cert.Pre_finite_inputs.Gen.facts := by
  intro m ρ m' ρ' hpre hagree
  have hcols := fun c : Dev Cert.KernelIdeal.nD => Cert.PreFacts.cols_of_pre (hP := Cert.Pre_finite_inputs.Gen.facts) _ _ _ _ _ _ _ (hpre c)
  refine ⟨fun c => Cert.Spec.result
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.kernel_val m c (hcols c).1 (hcols c).2), (h c).2⟩)
      (Cert.KernelIdeal.Frame.run_val (F := Ideal) m ρ)
  · have hr := Cert.ReferenceIdeal.RefValue.run_spec m' ρ'
      (fun c => by rw [(hagree c).2.2.1]; exact (hcols c).1)
      (fun c => by rw [(hagree c).2.2.2.2.2.1]; exact (hcols c).2)
    refine (θ_run Cert.ReferenceIdeal.defs _ _).mono (fun r h c => ⟨(h c).1.trans ?_, (h c).2⟩) hr
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
